-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x4 : Shape := ⟨2, ![32, 4]⟩
abbrev S4 : Shape := ⟨1, ![4]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x4 : S_.BroadcastsInDim S32x4 (![] : Fin 0 → Fin S32x4.rank)
  reducesTo_S32x4_S_d0_1 : S32x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg6 : FVec F S32 .f32) (main_arg7 : FVec F S32x4 .f32) (main_arg8 : FVec F S4 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x4 .f32 := Host.absf main_arg7
  let main_cst_8 : FVec F S_ .f32 := constant S_ .f32 0x7F800000#32
  let main_v25 : FVec F S32x4 .f32 := broadcastInDim S32x4 ![] bcast_S_S32x4 main_cst_8
  let main_v26 : IVec S32x4 1 := cmpf .olt main_v24 main_v25
  let main_c_9 : IVec S_ 1 := constantI S_ 1 1#1
  let main_v27 : IVec S_ 1 := (fun x v => Host.reduce IntOp.andi x v reducesTo_S32x4_S_d0_1 h_S_) main_v26 main_c_9
  let main_v28 : IVec S_ 1 := andi main_v23 main_v27
  let main_v29 : FVec F S4 .f32 := Host.absf main_arg8
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  main_v33

def fn {F : FTy → Type} [FloatOps F] (main_arg0 : FVec F S100000x128 .f32) (main_arg1 : IVec S2x3200000 32) (main_arg2 : IVec S100000 32) (main_arg3 : FVec F S128x64 .f32) (main_arg4 : FVec F S64 .f32) (main_arg5 : FVec F S64x32 .f32) (main_arg6 : FVec F S32 .f32) (main_arg7 : FVec F S32x4 .f32) (main_arg8 : FVec F S4 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg5
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg6 main_arg7 main_arg8 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x4 : Shape := ⟨2, ![32, 4]⟩
abbrev S4 : Shape := ⟨1, ![4]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x64 : Shape := ⟨2, ![100000, 64]⟩
abbrev S10000x128 : Shape := ⟨2, ![10000, 128]⟩
abbrev S10000x64 : Shape := ⟨2, ![10000, 64]⟩
abbrev S3200000x64 : Shape := ⟨2, ![3200000, 64]⟩
abbrev S100000x1 : Shape := ⟨2, ![100000, 1]⟩
abbrev S1024 : Shape := ⟨1, ![1024]⟩
abbrev S1024x1 : Shape := ⟨2, ![1024, 1]⟩
abbrev S1024x4 : Shape := ⟨2, ![1024, 4]⟩
abbrev S2000x64 : Shape := ⟨2, ![2000, 64]⟩
abbrev S2000x1 : Shape := ⟨2, ![2000, 1]⟩
abbrev S1024x64 : Shape := ⟨2, ![1024, 64]⟩
abbrev S1x64 : Shape := ⟨2, ![1, 64]⟩
abbrev S2000x1024 : Shape := ⟨2, ![2000, 1024]⟩
abbrev S1024x32 : Shape := ⟨2, ![1024, 32]⟩
abbrev S1x32 : Shape := ⟨2, ![1, 32]⟩
abbrev S1x4 : Shape := ⟨2, ![1, 4]⟩

abbrev nBuf : Space → Nat
  | .hbm => 74
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S32x4, .f32⟩
  | .hbm, ⟨8, _⟩ => ⟨S4, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S_, .f32⟩
  | .hbm, ⟨14, _⟩ => ⟨S3200000, .f32⟩
  | .hbm, ⟨15, _⟩ => ⟨S_, .f32⟩
  | .hbm, ⟨16, _⟩ => ⟨S100000, .f32⟩
  | .hbm, ⟨17, _⟩ => ⟨S3200000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3200000, .i32⟩
  | .hbm, ⟨28, _⟩ => ⟨S3200000, .i1⟩
  | .hbm, ⟨29, _⟩ => ⟨S_, .i32⟩
  | .hbm, ⟨30, _⟩ => ⟨S3200000, .i32⟩
  | .hbm, ⟨31, _⟩ => ⟨S3200000, .i32⟩
  | .hbm, ⟨32, _⟩ => ⟨S3200000, .i32⟩
  | .hbm, ⟨33, _⟩ => ⟨S3200000x1, .i32⟩
  | .hbm, ⟨34, _⟩ => ⟨S3200000, .f32⟩
  | .hbm, ⟨35, _⟩ => ⟨S_, .i32⟩
  | .hbm, ⟨36, _⟩ => ⟨S3200000, .i32⟩
  | .hbm, ⟨37, _⟩ => ⟨S3200000, .i1⟩
  | .hbm, ⟨38, _⟩ => ⟨S_, .i32⟩
  | .hbm, ⟨39, _⟩ => ⟨S3200000, .i32⟩
  | .hbm, ⟨40, _⟩ => ⟨S3200000, .i32⟩
  | .hbm, ⟨41, _⟩ => ⟨S3200000, .i32⟩
  | .hbm, ⟨42, _⟩ => ⟨S3200000x1, .i32⟩
  | .hbm, ⟨43, _⟩ => ⟨S3200000, .f32⟩
  | .hbm, ⟨44, _⟩ => ⟨S3200000, .f32⟩
  | .hbm, ⟨45, _⟩ => ⟨S100000x64, .bf16⟩
  | .hbm, ⟨46, _⟩ => ⟨S_, .i32⟩
  | .hbm, ⟨47, _⟩ => ⟨S3200000, .i32⟩
  | .hbm, ⟨48, _⟩ => ⟨S3200000, .i1⟩
  | .hbm, ⟨49, _⟩ => ⟨S_, .i32⟩
  | .hbm, ⟨50, _⟩ => ⟨S3200000, .i32⟩
  | .hbm, ⟨51, _⟩ => ⟨S3200000, .i32⟩
  | .hbm, ⟨52, _⟩ => ⟨S3200000, .i32⟩
  | .hbm, ⟨53, _⟩ => ⟨S3200000x1, .i32⟩
  | .hbm, ⟨54, _⟩ => ⟨S3200000x64, .bf16⟩
  | .hbm, ⟨55, _⟩ => ⟨S3200000x64, .f32⟩
  | .hbm, ⟨56, _⟩ => ⟨S3200000x1, .f32⟩
  | .hbm, ⟨57, _⟩ => ⟨S3200000x64, .f32⟩
  | .hbm, ⟨58, _⟩ => ⟨S3200000x64, .f32⟩
  | .hbm, ⟨59, _⟩ => ⟨S_, .f32⟩
  | .hbm, ⟨60, _⟩ => ⟨S100000x64, .f32⟩
  | .hbm, ⟨61, _⟩ => ⟨S3200000x1, .i32⟩
  | .hbm, ⟨62, _⟩ => ⟨S100000x64, .f32⟩
  | .hbm, ⟨63, _⟩ => ⟨S100000, .f32⟩
  | .hbm, ⟨64, _⟩ => ⟨S100000x1, .f32⟩
  | .hbm, ⟨65, _⟩ => ⟨S_, .f32⟩
  | .hbm, ⟨66, _⟩ => ⟨S100000, .f32⟩
  | .hbm, ⟨67, _⟩ => ⟨S_, .f32⟩
  | .hbm, ⟨68, _⟩ => ⟨S1024, .f32⟩
  | .hbm, ⟨69, _⟩ => ⟨S100000x1, .i32⟩
  | .hbm, ⟨70, _⟩ => ⟨S1024, .f32⟩
  | .hbm, ⟨71, _⟩ => ⟨S1024x1, .f32⟩
  | .hbm, ⟨72, _⟩ => ⟨S100000x1, .i32⟩
  | .hbm, ⟨73, _⟩ => ⟨S1024x4, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .bf16⟩
  | .local _ .vmem, ⟨4, _⟩ => ⟨S10000x64, .bf16⟩
  | .local _ .vmem, ⟨5, _⟩ => ⟨S2000x64, .f32⟩
  | .local _ .vmem, ⟨6, _⟩ => ⟨S2000x64, .f32⟩
  | .local _ .vmem, ⟨7, _⟩ => ⟨S2000x64, .bf16⟩
  | .local _ .vmem, ⟨8, _⟩ => ⟨S2000x64, .bf16⟩
  | .local _ .vmem, ⟨9, _⟩ => ⟨S2000x1, .f32⟩
  | .local _ .vmem, ⟨10, _⟩ => ⟨S2000x1, .f32⟩
  | .local _ .vmem, ⟨11, _⟩ => ⟨S64, .f32⟩
  | .local _ .vmem, ⟨12, _⟩ => ⟨S2000x1, .i32⟩
  | .local _ .vmem, ⟨13, _⟩ => ⟨S2000x1, .i32⟩
  | .local _ .vmem, ⟨14, _⟩ => ⟨S1024x1, .f32⟩
  | .local _ .vmem, ⟨15, _⟩ => ⟨S64x32, .f32⟩
  | .local _ .vmem, ⟨16, _⟩ => ⟨S32, .f32⟩
  | .local _ .vmem, ⟨17, _⟩ => ⟨S32x4, .f32⟩
  | .local _ .vmem, ⟨18, _⟩ => ⟨S4, .f32⟩
  | .local _ .vmem, ⟨19, _⟩ => ⟨S1024x4, .f32⟩
  | .local _ .vmem, ⟨20, _⟩ => ⟨S1024x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v34 : BitVec 1 := Scalar.cmpi .eq arg0 c49_i32
  let v35 : BitVec 32 := Scalar.extui v34
  let c0_i32_14 : BitVec 32 := 0#32
  let v36 : BitVec 1 := Scalar.cmpi .ne v35 c0_i32_14
  v36

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1024x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S32x4 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S4 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1024x4 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S_S1024 : S_.BroadcastsInDim S1024 (![] : Fin 0 → Fin S1024.rank)
  bcast_S1024_S1024x1_0 : S1024.BroadcastsInDim S1024x1 (![0] : Fin 1 → Fin S1024x1.rank)
  shapeCasts_S100000_S100000x1 : S100000.ShapeCasts S100000x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  iota_S2000x1024_d1_w32 : S2000x1024.Iotas .tc 32 [1]
  broadcasts_S2000x1_S2000x1024 : S2000x1.Broadcasts S2000x1024
  natLt_1_32 : 1 < 32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x64 : S1024x1.Broadcasts S1024x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S1024x32 : S1x32.Broadcasts S1024x32
  inb_S32x4_S32x4_0_0 : ∀ a, (![0, 0] : Fin 2 → Nat) a + S32x4.size a ≤ S32x4.size a
  h_S32x4 : 0 < S32x4.numel
  inb_S4_S4_0 : ∀ a, (![0] : Fin 1 → Nat) a + S4.size a ≤ S4.size a
  h_S4 : 0 < S4.numel
  shapeCasts_S4_S1x4 : S4.ShapeCasts S1x4
  broadcasts_S1x4_S1024x4 : S1x4.Broadcasts S1024x4
  inb_S1024x4_S1024x4_0_0 : ∀ a, (![0, 0] : Fin 2 → Nat) a + S1024x4.size a ≤ S1024x4.size a
  h_S1024x4 : 0 < S1024x4.numel
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S10000x128_S128x64_S10000x64_1_0_0_1_n_n_wf : DotDims.WF S10000x128 S128x64 S10000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  scatter_S1024_S100000x1_S100000_n_0_0_1_wf : ScatterDims.WF S1024 S100000x1 S100000 [] [0] [0] 1
  dot_S2000x1024_S2000x64_S1024x64_0_0_1_1_n_n_wf : DotDims.WF S2000x1024 S2000x64 S1024x64 [0] [0] [1] [1] [] []
  dot_S1024x64_S64x32_S1024x32_1_0_0_1_n_n_wf : DotDims.WF S1024x64 S64x32 S1024x32 [1] [0] [0] [1] [] []
  dot_S1024x32_S32x4_S1024x4_1_0_0_1_n_n_wf : DotDims.WF S1024x32 S32x4 S1024x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .bf16 = 32 ∨ (Rect.block (s := S100000x64) S10000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .bf16 = 32 ∨ (Rect.block (s := S100000x64) S2000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S100000x1.size a
  hwx1_4 : ∀ i : grid1.Coords, EltTy.bits .i32 = 32 ∨ (Rect.block (s := S100000x1) S2000x1.size (cc1_transform_4 i) (hinb1_4 i)).WholeWords (EltTy.packing .i32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x1.size a ≤ S1024x1.size a
  hwx1_5 : ∀ i : grid1.Coords, EltTy.bits .f32 = 32 ∨ (Rect.block (s := S1024x1) S1024x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x32.size a ≤ S64x32.size a
  hwx1_6 : ∀ i : grid1.Coords, EltTy.bits .f32 = 32 ∨ (Rect.block (s := S64x32) S64x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32.size a ≤ S32.size a
  hwx1_7 : ∀ i : grid1.Coords, EltTy.bits .f32 = 32 ∨ (Rect.block (s := S32) S32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S32x4.size a ≤ S32x4.size a
  hwx1_8 : ∀ i : grid1.Coords, EltTy.bits .f32 = 32 ∨ (Rect.block (s := S32x4) S32x4.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S4.size a ≤ S4.size a
  hwx1_9 : ∀ i : grid1.Coords, EltTy.bits .f32 = 32 ∨ (Rect.block (s := S4) S4.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1024x4.size a ≤ S1024x4.size a
  hwx1_10 : ∀ i : grid1.Coords, EltTy.bits .f32 = 32 ∨ (Rect.block (s := S1024x4) S1024x4.size (cc1_transform_10 i) (hinb1_10 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S2000x1024_S2000x64_S1024x64_0_0_1_1_n_n : DotDims S2000x1024 S2000x64 S1024x64 where
  lhsContracting := [0]
  rhsContracting := [0]
  lhsNonContracting := [1]
  rhsNonContracting := [1]
  lhsBatch := []
  rhsBatch := []
  wf := dot_S2000x1024_S2000x64_S1024x64_0_0_1_1_n_n_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S1024x32_S32x4_S1024x4_1_0_0_1_n_n : DotDims S1024x32 S32x4 S1024x4 where
  lhsContracting := [1]
  rhsContracting := [0]
  lhsNonContracting := [0]
  rhsNonContracting := [1]
  lhsBatch := []
  rhsBatch := []
  wf := dot_S1024x32_S32x4_S1024x4_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v49) S1024x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg5) S64x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg6) S32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg7) S32x4.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg8) S4.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v51) S1024x4.size cc1_transform_10 reads1_10 true true 1 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev idle1 : Fin 11 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k1_cond2 i == 1#1) | ⟨_ + 11, h⟩ => absurd h (Nat.not_lt.2 (Nat.le_add_left _ _))

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x4 : Shape := ⟨2, ![32, 4]⟩
abbrev S4 : Shape := ⟨1, ![4]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S1024x64 : Shape := ⟨2, ![1024, 64]⟩
abbrev S100000x1 : Shape := ⟨2, ![100000, 1]⟩
abbrev S1024 : Shape := ⟨1, ![1024]⟩
abbrev S1024x1 : Shape := ⟨2, ![1024, 1]⟩
abbrev S1024x32 : Shape := ⟨2, ![1024, 32]⟩
abbrev S1x32 : Shape := ⟨2, ![1, 32]⟩
abbrev S1024x4 : Shape := ⟨2, ![1024, 4]⟩
abbrev S1x4 : Shape := ⟨2, ![1, 4]⟩

abbrev nBuf : Space → Nat
  | .hbm => 95
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S32x4, .f32⟩
  | .hbm, ⟨8, _⟩ => ⟨S4, .f32⟩
  | .hbm, ⟨9, _⟩ => ⟨S100000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S_, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3300000, .i32⟩
  | .hbm, ⟨28, _⟩ => ⟨S3300000, .i1⟩
  | .hbm, ⟨29, _⟩ => ⟨S_, .i32⟩
  | .hbm, ⟨30, _⟩ => ⟨S3300000, .i32⟩
  | .hbm, ⟨31, _⟩ => ⟨S3300000, .i32⟩
  | .hbm, ⟨32, _⟩ => ⟨S3300000, .i32⟩
  | .hbm, ⟨33, _⟩ => ⟨S3300000x1, .i32⟩
  | .hbm, ⟨34, _⟩ => ⟨S3300000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S3300000, .f32⟩
  | .hbm, ⟨45, _⟩ => ⟨S100000x64, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000x64, .f32⟩
  | .hbm, ⟨55, _⟩ => ⟨S3300000x1, .f32⟩
  | .hbm, ⟨56, _⟩ => ⟨S3300000x64, .f32⟩
  | .hbm, ⟨57, _⟩ => ⟨S3300000x64, .f32⟩
  | .hbm, ⟨58, _⟩ => ⟨S_, .f32⟩
  | .hbm, ⟨59, _⟩ => ⟨S100000x64, .f32⟩
  | .hbm, ⟨60, _⟩ => ⟨S3300000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S1024x64, .f32⟩
  | .hbm, ⟨70, _⟩ => ⟨S100000x1, .i32⟩
  | .hbm, ⟨71, _⟩ => ⟨S1024x64, .f32⟩
  | .hbm, ⟨72, _⟩ => ⟨S_, .f32⟩
  | .hbm, ⟨73, _⟩ => ⟨S100000, .f32⟩
  | .hbm, ⟨74, _⟩ => ⟨S_, .f32⟩
  | .hbm, ⟨75, _⟩ => ⟨S1024, .f32⟩
  | .hbm, ⟨76, _⟩ => ⟨S100000x1, .i32⟩
  | .hbm, ⟨77, _⟩ => ⟨S1024, .f32⟩
  | .hbm, ⟨78, _⟩ => ⟨S_, .f32⟩
  | .hbm, ⟨79, _⟩ => ⟨S1024, .f32⟩
  | .hbm, ⟨80, _⟩ => ⟨S1024, .f32⟩
  | .hbm, ⟨81, _⟩ => ⟨S1024x1, .f32⟩
  | .hbm, ⟨82, _⟩ => ⟨S1024x64, .f32⟩
  | .hbm, ⟨83, _⟩ => ⟨S1024x64, .f32⟩
  | .hbm, ⟨84, _⟩ => ⟨S1024x32, .f32⟩
  | .hbm, ⟨85, _⟩ => ⟨S1x32, .f32⟩
  | .hbm, ⟨86, _⟩ => ⟨S1024x32, .f32⟩
  | .hbm, ⟨87, _⟩ => ⟨S1024x32, .f32⟩
  | .hbm, ⟨88, _⟩ => ⟨S_, .f32⟩
  | .hbm, ⟨89, _⟩ => ⟨S1024x32, .f32⟩
  | .hbm, ⟨90, _⟩ => ⟨S1024x32, .f32⟩
  | .hbm, ⟨91, _⟩ => ⟨S1024x4, .f32⟩
  | .hbm, ⟨92, _⟩ => ⟨S1x4, .f32⟩
  | .hbm, ⟨93, _⟩ => ⟨S1024x4, .f32⟩
  | .hbm, ⟨94, _⟩ => ⟨S1024x4, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call0_cst : Ref sig .tc := ⟨.hbm, 65, rfl⟩
abbrev main_call0_v0 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_call1_cst : Ref sig .tc := ⟨.hbm, 88, rfl⟩
abbrev main_call1_v0 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1024x64 : S_.BroadcastsInDim S1024x64 (![] : Fin 0 → Fin S1024x64.rank)
  bcast_S100000_S100000x1_0 : S100000.BroadcastsInDim S100000x1 (![0] : Fin 1 → Fin S100000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  bcast_S32_S1x32_1 : S32.BroadcastsInDim S1x32 (![1] : Fin 1 → Fin S1x32.rank)
  bcast_S1x32_S1024x32_0_1 : S1x32.BroadcastsInDim S1024x32 (![0, 1] : Fin 2 → Fin S1024x32.rank)
  bcast_S_S1024x32 : S_.BroadcastsInDim S1024x32 (![] : Fin 0 → Fin S1024x32.rank)
  bcast_S4_S1x4_1 : S4.BroadcastsInDim S1x4 (![1] : Fin 1 → Fin S1x4.rank)
  bcast_S1x4_S1024x4_0_1 : S1x4.BroadcastsInDim S1024x4 (![0, 1] : Fin 2 → Fin S1024x4.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  scatter_S1024x64_S100000x1_S100000x64_1_0_0_1_wf : ScatterDims.WF S1024x64 S100000x1 S100000x64 [1] [0] [0] 1
  scatter_S1024_S100000x1_S100000_n_0_0_1_wf : ScatterDims.WF S1024 S100000x1 S100000 [] [0] [0] 1
  dot_S1024x64_S64x32_S1024x32_1_0_0_1_n_n_wf : DotDims.WF S1024x64 S64x32 S1024x32 [1] [0] [0] [1] [] []
  dot_S1024x32_S32x4_S1024x4_1_0_0_1_n_n_wf : DotDims.WF S1024x32 S32x4 S1024x4 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S1024x32_S32x4_S1024x4_1_0_0_1_n_n : DotDims S1024x32 S32x4 S1024x4 where
  lhsContracting := [1]
  rhsContracting := [0]
  lhsNonContracting := [0]
  rhsNonContracting := [1]
  lhsBatch := []
  rhsBatch := []
  wf := dot_S1024x32_S32x4_S1024x4_1_0_0_1_n_n_wf

class Facts : Prop extends Facts₀ where

variable [Facts]
-- ==== Proof.KFrame0.lean ====
/-
  The first launch: a matrix product, one block of 10000 rows per grid point.

  At each of the 10 points the body loads a [10000, 128] block of the features and the whole [128, 64] weight matrix
  and stores their product as the point's [10000, 64] block of the result. Stated here, at any contents `V` of the
  buffers when the launch is entered: what each window's staging buffer holds at a point, what the body leaves in the
  output's, and that the body, run on those buffers, leaves exactly that.
-/
import proofs.«426677_j49392123904592_3_alg».proof.Proof.KernelLaunch
import proofs.«426677_j49392123904592_3_alg».proof.Proof.Gen.Kernel.Skeleton
import proofs.«426677_j49392123904592_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the whole matrix at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

abbrev r0_out : Rect S10000x64 := Rect.unit (s := S10000x64) ![0, 0] S10000x64.size inb_S10000x64_S10000x64_0_0
abbrev r0_x : Rect S10000x128 := Rect.unit (s := S10000x128) ![0, 0] S10000x128.size inb_S10000x128_S10000x128_0_0
abbrev r0_w : Rect S128x64 := Rect.unit (s := S128x64) ![0, 0] S128x64.size inb_S128x64_S128x64_0_0

/-- The output's staging buffer after the body: its one store, of the product of the two loaded blocks. -/
def out0_2 (x0 : Vec F S10000x128 .f32) (x1 : Vec F S128x64 .f32) : Vec F S10000x64 .bf16 :=
  View.canon [⟨r0_out, k0_pay1 (View.ld x0 r0_x) (View.ld x1 r0_w)⟩]

/-- The store covers the whole buffer. -/
theorem cover0_2 (p0 : Vec F S10000x64 .bf16) (y : S10000x64.Idx) :
    ∃ pc ∈ ([⟨r0_out, p0⟩] : List (View.Piece (Elt F) S10000x64 .bf16)), y ∈ pc.1.set :=
  View.cover_of_tiled [⟨r0_out, p0⟩] S10000x64.size (by rfl) y

/-! ## The body's triple -/

set_option maxHeartbeats 1000000 in
/-- On whole staging buffers, the two inputs' at contents `x0`, `x1` and the output's at anything, the body runs to
    the inputs' as they were and the output's at `out0_2 x0 x1`. -/
theorem sound_kernel0 (c : Dev nD) (E : Set ℕ) (i : grid0.Coords) (arg1 : Memref sig .tc .vmem S10000x128 .f32) (harg1 : arg1.IsWhole)
    (arg2 : Memref sig .tc .vmem S128x64 .f32) (harg2 : arg2.IsWhole) (arg3 : Memref sig .tc .vmem S10000x64 .bf16) (harg3 : arg3.IsWhole)
    (x0 : Vec F S10000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The launch's proof data -/

/-- After the body at point `t`: each input's buffer at its block, the output's at the product of the two blocks;
    nothing else is kept between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.KFrame1.lean ====
/-
  The second launch: the fused self-loop term, bias, rectifier, per-graph sums and classifier, over 50 blocks of 2000
  nodes.

  A [1024, 64] scratch carries the per-graph sums between the points. At the first point the body zeroes it; at every
  point it adds to it the one-hot product of the block's graph words with the block's rectified features; at the last
  point it divides by the counts, runs the two dense layers and stores the [1024, 4] result. So after point `n` the
  scratch holds `accAt1 n` (the fold of the per-block payload from zero), and the output window, idle until the last
  point, then receives the classifier's payload of the finished sums. Stated at any contents `V` of the buffers when
  the launch is entered.
-/
import proofs.«426677_j49392123904592_3_alg».proof.Proof.KernelLaunch
import proofs.«426677_j49392123904592_3_alg».proof.Proof.Gen.Kernel.Skeleton
import proofs.«426677_j49392123904592_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each of the ten input windows' staging buffers holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, decided over the grid -/

/-- The first `scf.if`: the point is the first. -/
abbrev first1 (i : grid1.Coords) : Prop := (Scalar.cmpi .ne (Scalar.extui (Scalar.cmpi .eq (BitVec.ofNat 32 (i 0).val) 0#32)) 0#32) = 1#1
theorem hfirst1 : ∀ t : Fin cfg1.N, first1 (grid1.coords t) ↔ t.val = 0 :=
  (by decide +kernel : ∀ t : Fin grid1.N, first1 (grid1.coords t) ↔ t.val = 0)
/-- The second `scf.if`: the point is the last. -/
abbrev last1 (i : grid1.Coords) : Prop := k1_cond2 i = 1#1
theorem hlast1 : ∀ t : Fin cfg1.N, last1 (grid1.coords t) ↔ t.val = 49 :=
  (by decide +kernel : ∀ t : Fin grid1.N, last1 (grid1.coords t) ↔ t.val = 49)

/-- The output window is idle, and not written back, at every point but the last; there it is live. -/
theorem idleAt1_10 : ∀ t : Fin cfg1.N, ¬last1 (grid1.coords t) → cfg1.idle 10 (grid1.coords t) = true := by decide +kernel
theorem noFlush1_10 : ∀ t : Fin cfg1.N, ¬last1 (grid1.coords t) → (cfg1.win 10).flush t = false := by decide +kernel
theorem liveAt1_10 : ∀ t : Fin cfg1.N, last1 (grid1.coords t) → cfg1.idle 10 (grid1.coords t) = false := by decide +kernel

/-! ## The staging memrefs at a point, and the scratch -/

/-- The scratch: a whole buffer of the kernel's own. -/
abbrev scM1 : Memref sig .tc .vmem S1024x64 .f32 := Memref.whole cc1_scratch0

theorem hz2 : (![0, 0] : Fin 2 → Nat) = fun _ => 0 := by funext a; fin_cases a <;> rfl
theorem hz1 : (![0] : Fin 1 → Nat) = fun _ => 0 := by funext a; fin_cases a; rfl

abbrev rS1 : Rect S1024x64 := Rect.unit (s := S1024x64) ![0, 0] S1024x64.size inb_S1024x64_S1024x64_0_0
abbrev rO1 : Rect S1024x4 := Rect.unit (s := S1024x4) ![0, 0] S1024x4.size inb_S1024x4_S1024x4_0_0

/-- A store through the whole scratch covers it; so does such a store followed by earlier ones. -/
theorem coverS1 (p : Vec F S1024x64 .f32) (L : List (View.Piece (Elt F) S1024x64 .f32)) (y : S1024x64.Idx) :
    ∃ pc ∈ ((⟨rS1, p⟩ : View.Piece (Elt F) S1024x64 .f32) :: L), y ∈ pc.1.set := by
  obtain ⟨pc, hm, hy⟩ := View.cover_of_tiled [(⟨rS1, p⟩ : View.Piece (Elt F) S1024x64 .f32)] S1024x64.size (by rfl) y
  rw [List.mem_singleton] at hm; subst hm
  exact ⟨_, List.mem_cons_self, hy⟩
theorem coverO1 (p : Vec F S1024x4 .f32) (y : S1024x4.Idx) :
    ∃ pc ∈ ([⟨rO1, p⟩] : List (View.Piece (Elt F) S1024x4 .f32)), y ∈ pc.1.set :=
  View.cover_of_tiled [⟨rO1, p⟩] S1024x4.size (by rfl) y

/-! ## The body's triple, case by case -/

set_option maxHeartbeats 4000000 in
/-- THE FIRST POINT (not the last): the scratch, at anything, is zeroed and then receives the block's payload over the
    zeros. The five per-block inputs come back as they were; nothing else is touched. -/
theorem sound_kernel1_A (c : Dev nD) (E : Set ℕ) (i : grid1.Coords) (hc0 : first1 i) (hc1 : ¬last1 i)
    (arg1 : Memref sig .tc .vmem S2000x64 .f32) (harg1 : arg1.IsWhole) (arg2 : Memref sig .tc .vmem S2000x64 .bf16) (harg2 : arg2.IsWhole)
    (arg3 : Memref sig .tc .vmem S2000x1 .f32) (harg3 : arg3.IsWhole) (arg4 : Memref sig .tc .vmem S64 .f32) (harg4 : arg4.IsWhole)
    (arg5 : Memref sig .tc .vmem S2000x1 .i32) (harg5 : arg5.IsWhole) (arg6 : Memref sig .tc .vmem S1024x1 .f32) (harg6 : arg6.IsWhole)
    (arg7 : Memref sig .tc .vmem S64x32 .f32) (harg7 : arg7.IsWhole) (arg8 : Memref sig .tc .vmem S32 .f32) (harg8 : arg8.IsWhole)
    (arg9 : Memref sig .tc .vmem S32x4 .f32) (harg9 : arg9.IsWhole) (arg10 : Memref sig .tc .vmem S4 .f32) (harg10 : arg10.IsWhole)
    (arg11 : Memref sig .tc .vmem S1024x4 .f32) (harg11 : arg11.IsWhole) (arg12 : Memref sig .tc .vmem S1024x64 .f32) (harg12 : arg12.IsWhole)
    (x0 : Vec F S2000x64 .f32) (x1 : Vec F S2000x64 .bf16) (x2 : Vec F S2000x1 .f32) (x3 : Vec F S64 .f32) (x4 : Vec F S2000x1 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg12 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg12 fullShare (k1_pay2 x0 x1 x2 x3 x4 (k1_pay1 (F := F)))) -∗ K ⟨⟩))
      ⊢ wp frame (wpE (defs₀ (F := F)) Variants.none c none) E (cc1__pool_mlp_kernel i arg1 harg1 arg2 harg2 arg3 harg3 arg4 harg4 arg5 harg5 arg6 harg6 arg7 harg7 arg8 harg8 arg9 harg9 arg10 harg10 arg11 harg11 arg12 harg12) K := by
  simp only [cc1__pool_mlp_kernel_eq_skeleton]; unfold cc1__pool_mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HS
  ipureintro
  sl_unfold_words
  rw [View.read_writes_eq_canon _ _ _ (coverS1 _ _), View.canon_cons_unit_zero hz2]
  simp only [View.readAt_eq_ld, View.ld_unit_zero (S := S2000x64) hz2, View.ld_unit_zero (S := S2000x1) hz2, View.ld_unit_zero (S := S64) hz1,
    View.ld_unit_zero (S := S1024x64) hz2, View.ld_unit_zero (S := S1024x1) hz2, View.ld_unit_zero (S := S64x32) hz2, View.ld_unit_zero (S := S32) hz1,
    View.ld_unit_zero (S := S32x4) hz2, View.ld_unit_zero (S := S4) hz1, View.ld_unit_zero (S := S1024x4) hz2, View.readCov_unit_zero (S := S1024x64) _ hz2]

set_option maxHeartbeats 4000000 in
/-- A MIDDLE POINT (neither first nor last): the scratch, at `xs`, receives the block's payload over `xs`. -/
theorem sound_kernel1_B (c : Dev nD) (E : Set ℕ) (i : grid1.Coords) (hc0 : ¬first1 i) (hc1 : ¬last1 i)
    (arg1 : Memref sig .tc .vmem S2000x64 .f32) (harg1 : arg1.IsWhole) (arg2 : Memref sig .tc .vmem S2000x64 .bf16) (harg2 : arg2.IsWhole)
    (arg3 : Memref sig .tc .vmem S2000x1 .f32) (harg3 : arg3.IsWhole) (arg4 : Memref sig .tc .vmem S64 .f32) (harg4 : arg4.IsWhole)
    (arg5 : Memref sig .tc .vmem S2000x1 .i32) (harg5 : arg5.IsWhole) (arg6 : Memref sig .tc .vmem S1024x1 .f32) (harg6 : arg6.IsWhole)
    (arg7 : Memref sig .tc .vmem S64x32 .f32) (harg7 : arg7.IsWhole) (arg8 : Memref sig .tc .vmem S32 .f32) (harg8 : arg8.IsWhole)
    (arg9 : Memref sig .tc .vmem S32x4 .f32) (harg9 : arg9.IsWhole) (arg10 : Memref sig .tc .vmem S4 .f32) (harg10 : arg10.IsWhole)
    (arg11 : Memref sig .tc .vmem S1024x4 .f32) (harg11 : arg11.IsWhole) (arg12 : Memref sig .tc .vmem S1024x64 .f32) (harg12 : arg12.IsWhole)
    (x0 : Vec F S2000x64 .f32) (x1 : Vec F S2000x64 .bf16) (x2 : Vec F S2000x1 .f32) (x3 : Vec F S64 .f32) (x4 : Vec F S2000x1 .i32) (xs : Vec F S1024x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg12 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg12 fullShare (k1_pay2 x0 x1 x2 x3 x4 xs)) -∗ K ⟨⟩))
      ⊢ wp frame (wpE (defs₀ (F := F)) Variants.none c none) E (cc1__pool_mlp_kernel i arg1 harg1 arg2 harg2 arg3 harg3 arg4 harg4 arg5 harg5 arg6 harg6 arg7 harg7 arg8 harg8 arg9 harg9 arg10 harg10 arg11 harg11 arg12 harg12) K := by
  simp only [cc1__pool_mlp_kernel_eq_skeleton]; unfold cc1__pool_mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  subst hf0; subst hf1; subst hf2; subst hf3; subst hf4; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HS
  ipureintro
  sl_unfold_words
  rw [View.read_writes_eq_canon _ _ _ (coverS1 _ _), View.canon_unit_zero hz2]
  simp only [View.readAt_eq_ld, View.ld_unit_zero (S := S2000x64) hz2, View.ld_unit_zero (S := S2000x1) hz2, View.ld_unit_zero (S := S64) hz1,
    View.ld_unit_zero (S := S1024x64) hz2, View.ld_unit_zero (S := S1024x1) hz2, View.ld_unit_zero (S := S64x32) hz2, View.ld_unit_zero (S := S32) hz1,
    View.ld_unit_zero (S := S32x4) hz2, View.ld_unit_zero (S := S4) hz1, View.ld_unit_zero (S := S1024x4) hz2]

set_option maxHeartbeats 4000000 in
/-- THE LAST POINT (not the first): the scratch receives the block's payload over `xs`, and the output's buffer, at
    anything, receives the classifier's payload of the finished sums, the counts and the four weight arrays. -/
theorem sound_kernel1_C (c : Dev nD) (E : Set ℕ) (i : grid1.Coords) (hc0 : ¬first1 i) (hc1 : last1 i)
    (arg1 : Memref sig .tc .vmem S2000x64 .f32) (harg1 : arg1.IsWhole) (arg2 : Memref sig .tc .vmem S2000x64 .bf16) (harg2 : arg2.IsWhole)
    (arg3 : Memref sig .tc .vmem S2000x1 .f32) (harg3 : arg3.IsWhole) (arg4 : Memref sig .tc .vmem S64 .f32) (harg4 : arg4.IsWhole)
    (arg5 : Memref sig .tc .vmem S2000x1 .i32) (harg5 : arg5.IsWhole) (arg6 : Memref sig .tc .vmem S1024x1 .f32) (harg6 : arg6.IsWhole)
    (arg7 : Memref sig .tc .vmem S64x32 .f32) (harg7 : arg7.IsWhole) (arg8 : Memref sig .tc .vmem S32 .f32) (harg8 : arg8.IsWhole)
    (arg9 : Memref sig .tc .vmem S32x4 .f32) (harg9 : arg9.IsWhole) (arg10 : Memref sig .tc .vmem S4 .f32) (harg10 : arg10.IsWhole)
    (arg11 : Memref sig .tc .vmem S1024x4 .f32) (harg11 : arg11.IsWhole) (arg12 : Memref sig .tc .vmem S1024x64 .f32) (harg12 : arg12.IsWhole)
    (x0 : Vec F S2000x64 .f32) (x1 : Vec F S2000x64 .bf16) (x2 : Vec F S2000x1 .f32) (x3 : Vec F S64 .f32) (x4 : Vec F S2000x1 .i32) (x5 : Vec F S1024x1 .f32) (x6 : Vec F S64x32 .f32) (x7 : Vec F S32 .f32) (x8 : Vec F S32x4 .f32) (x9 : Vec F S4 .f32)
    (xs : Vec F S1024x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ owns (c : Thread nD τ) arg12 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (k1_pay3 (k1_pay2 x0 x1 x2 x3 x4 xs) x5 x6 x7 x8 x9)
            ∗ owns (c : Thread nD τ) arg12 fullShare (k1_pay2 x0 x1 x2 x3 x4 xs)) -∗ K ⟨⟩))
      ⊢ wp frame (wpE (defs₀ (F := F)) Variants.none c none) E (cc1__pool_mlp_kernel i arg1 harg1 arg2 harg2 arg3 harg3 arg4 harg4 arg5 harg5 arg6 harg6 arg7 harg7 arg8 harg8 arg9 harg9 arg10 harg10 arg11 harg11 arg12 harg12) K := by
  simp only [cc1__pool_mlp_kernel_eq_skeleton]; unfold cc1__pool_mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%dout, %fout, -, HO⟩, ⟨%fs, %hfs, HS⟩, Hk⟩
  subst hf0; subst hf1; subst hf2; subst hf3; subst hf4; subst hf5; subst hf6; subst hf7; subst hf8; subst hf9; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [HO]
  · iexists _; isplitr
    swap; · iexact HO
    ipureintro
    sl_unfold_words
    rw [View.read_writes_eq_canon _ _ _ (coverO1 _), View.canon_unit_zero hz2]
    simp only [View.readAt_eq_ld, View.ld_unit_zero (S := S2000x64) hz2, View.ld_unit_zero (S := S2000x1) hz2, View.ld_unit_zero (S := S64) hz1,
    View.ld_unit_zero (S := S1024x64) hz2, View.ld_unit_zero (S := S1024x1) hz2, View.ld_unit_zero (S := S64x32) hz2, View.ld_unit_zero (S := S32) hz1,
    View.ld_unit_zero (S := S32x4) hz2, View.ld_unit_zero (S := S4) hz1, View.ld_unit_zero (S := S1024x4) hz2, View.readCov_unit_zero (S := S1024x64) _ hz2]
  iexists _; isplitr
  swap; · iexact HS
  ipureintro
  sl_unfold_words
  rw [View.read_writes_eq_canon _ _ _ (coverS1 _ _), View.canon_unit_zero hz2]
  simp only [View.readAt_eq_ld, View.ld_unit_zero (S := S2000x64) hz2, View.ld_unit_zero (S := S2000x1) hz2, View.ld_unit_zero (S := S64) hz1,
    View.ld_unit_zero (S := S1024x64) hz2, View.ld_unit_zero (S := S1024x1) hz2, View.ld_unit_zero (S := S64x32) hz2, View.ld_unit_zero (S := S32) hz1,
    View.ld_unit_zero (S := S32x4) hz2, View.ld_unit_zero (S := S4) hz1, View.ld_unit_zero (S := S1024x4) hz2]

/-! ## What the scratch holds after each point -/

/-- After point `n`: the per-block payload folded over the points up to `n`, from the zeros the first point stores. -/
def accAt1 (c : Dev nD) : (n : ℕ) → n < cfg1.N → Vec F S1024x64 .f32
  | 0, hn => k1_pay2 (iblk1 V c 0 ⟨0, hn⟩) (iblk1 V c 1 ⟨0, hn⟩) (iblk1 V c 2 ⟨0, hn⟩) (iblk1 V c 3 ⟨0, hn⟩) (iblk1 V c 4 ⟨0, hn⟩) (k1_pay1 (F := F))
  | n + 1, hn => k1_pay2 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (accAt1 c n (Nat.lt_of_succ_lt hn))

theorem accAt1_zero (c : Dev nD) (t : Fin cfg1.N) (h : t.val = 0) :
    accAt1 V c t.val t.isLt = k1_pay2 (iblk1 V c 0 t) (iblk1 V c 1 t) (iblk1 V c 2 t) (iblk1 V c 3 t) (iblk1 V c 4 t) (k1_pay1 (F := F)) := by
  obtain ⟨n, hn⟩ := t
  cases n with
  | zero => rfl
  | succ n => exact absurd h (Nat.succ_ne_zero n)

theorem accAt1_pos (c : Dev nD) (t : Fin cfg1.N) (h : t.val ≠ 0) :
    accAt1 V c t.val t.isLt = k1_pay2 (iblk1 V c 0 t) (iblk1 V c 1 t) (iblk1 V c 2 t) (iblk1 V c 3 t) (iblk1 V c 4 t) (accAt1 V c (t.val - 1) (Nat.lt_of_le_of_lt (Nat.sub_le _ _) t.isLt)) := by
  obtain ⟨n, hn⟩ := t
  cases n with
  | zero => exact absurd rfl h
  | succ n => rfl

/-! ## The invariant between points -/

/-- The launch's invariant as a chain: the matrix-product launch's five staging buffers and the scratch, each whole at
    some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1 fullShare d)) ∗ (∃ r, prngReg c r)) := by
  unfold Pipeline.ΦA; rw [scopedRest1_eq]; simp only [scM1, owns_whole]; try rfl

/-- Before point `n`: at the first point the launch's own invariant (the scratch at anything); afterwards the same
    with the scratch at what the point before left. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1 fullShare (accAt1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1 fullShare (accAt1 V c n hn)) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1 fullShare (accAt1 V c (n - 1) (by omega))) ∗ (∃ r, prngReg c r)) := by
  cases n with
  | zero => exact absurd rfl hz
  | succ n => rfl

/-! ## The launch's proof data -/

/-- After the body at point `t`: each input's buffer at its block; the output's at the classifier's payload of the
    sums so far (read only at the last point, the one point that writes it back); between points the scratch at
    `accAt1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => k1_pay3 (accAt1 V c t.val t.isLt) (iblk1 V c 5 t) (iblk1 V c 6 t) (iblk1 V c 7 t) (iblk1 V c 8 t) (iblk1 V c 9 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t
    = k1_pay3 (accAt1 V c t.val t.isLt) (iblk1 V c 5 t) (iblk1 V c 6 t) (iblk1 V c 7 t) (iblk1 V c 8 t) (iblk1 V c 9 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-- An input window is never idle: the body leaves its buffer at its block. -/
theorem leaves1_0 (c : Dev nD) (t : Fin cfg1.N) :
    (dat1 V c).leavesExact 0 t = owns (c : Thread nD τ) (st1_0 t) fullShare (iblk1 V c 0 t) := by
  unfold Dat.leavesExact; rw [show cfg1.idle 0 (cfg1.grid.coords t) = false from rfl, after1_0]
theorem leaves1_1 (c : Dev nD) (t : Fin cfg1.N) :
    (dat1 V c).leavesExact 1 t = owns (c : Thread nD τ) (st1_1 t) fullShare (iblk1 V c 1 t) := by
  unfold Dat.leavesExact; rw [show cfg1.idle 1 (cfg1.grid.coords t) = false from rfl, after1_1]
theorem leaves1_2 (c : Dev nD) (t : Fin cfg1.N) :
    (dat1 V c).leavesExact 2 t = owns (c : Thread nD τ) (st1_2 t) fullShare (iblk1 V c 2 t) := by
  unfold Dat.leavesExact; rw [show cfg1.idle 2 (cfg1.grid.coords t) = false from rfl, after1_2]
theorem leaves1_3 (c : Dev nD) (t : Fin cfg1.N) :
    (dat1 V c).leavesExact 3 t = owns (c : Thread nD τ) (st1_3 t) fullShare (iblk1 V c 3 t) := by
  unfold Dat.leavesExact; rw [show cfg1.idle 3 (cfg1.grid.coords t) = false from rfl, after1_3]
theorem leaves1_4 (c : Dev nD) (t : Fin cfg1.N) :
    (dat1 V c).leavesExact 4 t = owns (c : Thread nD τ) (st1_4 t) fullShare (iblk1 V c 4 t) := by
  unfold Dat.leavesExact; rw [show cfg1.idle 4 (cfg1.grid.coords t) = false from rfl, after1_4]
theorem leaves1_5 (c : Dev nD) (t : Fin cfg1.N) :
    (dat1 V c).leavesExact 5 t = owns (c : Thread nD τ) (st1_5 t) fullShare (iblk1 V c 5 t) := by
  unfold Dat.leavesExact; rw [show cfg1.idle 5 (cfg1.grid.coords t) = false from rfl, after1_5]
theorem leaves1_6 (c : Dev nD) (t : Fin cfg1.N) :
    (dat1 V c).leavesExact 6 t = owns (c : Thread nD τ) (st1_6 t) fullShare (iblk1 V c 6 t) := by
  unfold Dat.leavesExact; rw [show cfg1.idle 6 (cfg1.grid.coords t) = false from rfl, after1_6]
theorem leaves1_7 (c : Dev nD) (t : Fin cfg1.N) :
    (dat1 V c).leavesExact 7 t = owns (c : Thread nD τ) (st1_7 t) fullShare (iblk1 V c 7 t) := by
  unfold Dat.leavesExact; rw [show cfg1.idle 7 (cfg1.grid.coords t) = false from rfl, after1_7]
theorem leaves1_8 (c : Dev nD) (t : Fin cfg1.N) :
    (dat1 V c).leavesExact 8 t = owns (c : Thread nD τ) (st1_8 t) fullShare (iblk1 V c 8 t) := by
  unfold Dat.leavesExact; rw [show cfg1.idle 8 (cfg1.grid.coords t) = false from rfl, after1_8]
theorem leaves1_9 (c : Dev nD) (t : Fin cfg1.N) :
    (dat1 V c).leavesExact 9 t = owns (c : Thread nD τ) (st1_9 t) fullShare (iblk1 V c 9 t) := by
  unfold Dat.leavesExact; rw [show cfg1.idle 9 (cfg1.grid.coords t) = false from rfl, after1_9]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t)

set_option maxHeartbeats 8000000 in
/-- The body at any point, by cases on the point: the first (the scratch comes at anything and leaves at the first
    block's payload over zeros), a middle one and the last (the scratch comes at what the point before left); the
    output's buffer is handed back untouched at every point but the last. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5, leaves1_6, leaves1_7, leaves1_8, leaves1_9]
  have hN : t.val < 50 := lt_of_lt_of_eq t.isLt (show cfg1.N = 50 from N_1)
  by_cases h0 : t.val = 0
  · have hl : ¬last1 (grid1.coords t) := fun h => by have := (hlast1 t).mp h; omega
    rw [Dat.leavesExact_idle (dat1 V c) 10 t (idleAt1_10 t hl) (noFlush1_10 t hl)]
    rw [accAt1_zero V c t h0]
    rw [PhiS1_castSucc V c t, PhiS1_zero V c _ _ h0, PhiA1_eq]
    iintro ⟨⟨⟨HA1, HA2, HA3, HA4, HA5, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
    iapply (sound_kernel1_A c Set.univ (grid1.coords t) ((hfirst1 t).mpr h0) hl _ _ _ _ _ _ _ _ _ _ _ _ _ _ _ _ _ _ _ _ _ _ _ _ (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HA1 HA2 HA3 HA4 HA5 HS Hg]
    · isplitl [HA1 HA2 HA3 HA4 HA5 HS]
      · isplitl [HA1]; · iexact HA1
        isplitl [HA2]; · iexact HA2
        isplitl [HA3]; · iexact HA3
        isplitl [HA4]; · iexact HA4
        isplitl [HA5]; · iexact HA5
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · have hf : ¬first1 (grid1.coords t) := fun h => h0 ((hfirst1 t).mp h)
    by_cases h1 : t.val = 49
    · have hl : last1 (grid1.coords t) := (hlast1 t).mpr h1
      rw [show (dat1 V c).leavesExact 10 t = owns (c : Thread nD τ) (st1_10 t) fullShare ((dat1 V c).after 10 t) from by
        unfold Dat.leavesExact; rw [liveAt1_10 t hl], after1_10]
      rw [accAt1_pos V c t h0]
      rw [PhiS1_castSucc V c t, PhiS1_pos V c _ _ h0]
      iintro ⟨⟨⟨HA1, HA2, HA3, HA4, HA5, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
      iapply (sound_kernel1_C c Set.univ (grid1.coords t) hf hl _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · icases H10 with ⟨%d10, H10⟩
        iexists _; iexact H10
      isplitl [HS]; · iexact HS
      iintro ⟨H0, H1, H2, H3, H4, H5, H6, H7, H8, H9, H10, HS⟩
      isplitl [HA1 HA2 HA3 HA4 HA5 HS Hg]
      · isplitl [HA1 HA2 HA3 HA4 HA5 HS]
        · isplitl [HA1]; · iexact HA1
          isplitl [HA2]; · iexact HA2
          isplitl [HA3]; · iexact HA3
          isplitl [HA4]; · iexact HA4
          isplitl [HA5]; · iexact HA5
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hl : ¬last1 (grid1.coords t) := fun h => h1 ((hlast1 t).mp h)
      rw [Dat.leavesExact_idle (dat1 V c) 10 t (idleAt1_10 t hl) (noFlush1_10 t hl)]
      rw [accAt1_pos V c t h0]
      rw [PhiS1_castSucc V c t, PhiS1_pos V c _ _ h0]
      iintro ⟨⟨⟨HA1, HA2, HA3, HA4, HA5, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
      iapply (sound_kernel1_B c Set.univ (grid1.coords t) hf hl _ _ _ _ _ _ _ _ _ _ _ _ _ _ _ _ _ _ _ _ _ _ _ _ (iblk1 V c 0 t) (iblk1 V c 1 t) (iblk1 V c 2 t) (iblk1 V c 3 t) (iblk1 V c 4 t) _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HA1 HA2 HA3 HA4 HA5 HS Hg]
      · isplitl [HA1 HA2 HA3 HA4 HA5 HS]
        · isplitl [HA1]; · iexact HA1
          isplitl [HA2]; · iexact HA2
          isplitl [HA3]; · iexact HA3
          isplitl [HA4]; · iexact HA4
          isplitl [HA5]; · iexact HA5
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

theorem body_obligation1 (c : Dev nD) : BodyObligation (dat1 (F := F) V c) (defs₀ (F := F)) Variants.none () Set.univ := fun t => by
  rw [bigSep_W1, bigSep_W1]
  exact sound_body1 V c t

/-- After the last point the invariant gives the launch's own back: the scratch's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 50 := N_1; omega), PhiA1_eq]
  iintro ⟨⟨HA1, HA2, HA3, HA4, HA5, HS⟩, Hg⟩
  isplitl [HA1 HA2 HA3 HA4 HA5 HS]
  · isplitl [HA1]; · iexact HA1
    isplitl [HA2]; · iexact HA2
    isplitl [HA3]; · iexact HA3
    isplitl [HA4]; · iexact HA4
    isplitl [HA5]; · iexact HA5
    iexists _; iexact HS
  iexact Hg

end Cert.Kernel.Frame

end
-- ==== Proof.KRun.lean ====
/-
  The whole program as a run: host operations, the matrix-product launch, host operations, the pooling launch.

  The buffers' contents are followed from the launch memory through the four stretches (`W0` … `W4`): a stretch of host
  operations applies them in order; a launch leaves each of its arrays at what its write-backs leave and every other
  buffer as it was. Every weakly fair execution terminates without a fault, and at the end every unscoped buffer holds
  its `W4` contents; the nine inputs among them hold what they were launched with.
-/
import proofs.«426677_j49392123904592_3_alg».proof.Proof.KFrame0
import proofs.«426677_j49392123904592_3_alg».proof.Proof.KFrame1

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first stretch of host operations: what the matrix-product launch is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the matrix-product launch: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations: what the pooling launch is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the pooling launch. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The inputs at every boundary: no host operation writes one and no launch changes one -/

set_option maxHeartbeats 2000000 in
/-- Input 0 after the first stretch of host operations: none of them writes it. -/
theorem W1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
/-- Input 0 after the matrix-product launch. -/
theorem W2_main_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_main_arg0 m ρ c)
set_option maxHeartbeats 2000000 in
/-- Input 0 after the second stretch of host operations. -/
theorem W3_main_arg0 (c : Dev nD) : W3 m ρ c (Proc.devRef .tc main_arg0) = m ((c : Thread nD τ).loc main_arg0) :=
  (StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg0 m ρ c)
/-- Input 0 ends as launched. -/
theorem W4_main_arg0 (c : Dev nD) : W4 m ρ c (Proc.devRef .tc main_arg0) = m ((c : Thread nD τ).loc main_arg0) :=
  (W4_of_ne m ρ c main_arg0 (by decide)).trans (W3_main_arg0 m ρ c)

set_option maxHeartbeats 2000000 in
/-- Input 1 after the first stretch of host operations: none of them writes it. -/
theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
/-- Input 1 after the matrix-product launch. -/
theorem W2_main_arg1 (c : Dev nD) : W2 m ρ c (Proc.devRef .tc main_arg1) = m ((c : Thread nD τ).loc main_arg1) :=
  (W2_of_ne m ρ c main_arg1 (by decide)).trans (W1_main_arg1 m ρ c)
set_option maxHeartbeats 2000000 in
/-- Input 1 after the second stretch of host operations. -/
theorem W3_main_arg1 (c : Dev nD) : W3 m ρ c (Proc.devRef .tc main_arg1) = m ((c : Thread nD τ).loc main_arg1) :=
  (StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg1 m ρ c)
/-- Input 1 ends as launched. -/
theorem W4_main_arg1 (c : Dev nD) : W4 m ρ c (Proc.devRef .tc main_arg1) = m ((c : Thread nD τ).loc main_arg1) :=
  (W4_of_ne m ρ c main_arg1 (by decide)).trans (W3_main_arg1 m ρ c)

set_option maxHeartbeats 2000000 in
/-- Input 2 after the first stretch of host operations: none of them writes it. -/
theorem W1_main_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
/-- Input 2 after the matrix-product launch. -/
theorem W2_main_arg2 (c : Dev nD) : W2 m ρ c (Proc.devRef .tc main_arg2) = m ((c : Thread nD τ).loc main_arg2) :=
  (W2_of_ne m ρ c main_arg2 (by decide)).trans (W1_main_arg2 m ρ c)
set_option maxHeartbeats 2000000 in
/-- Input 2 after the second stretch of host operations. -/
theorem W3_main_arg2 (c : Dev nD) : W3 m ρ c (Proc.devRef .tc main_arg2) = m ((c : Thread nD τ).loc main_arg2) :=
  (StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg2 m ρ c)
/-- Input 2 ends as launched. -/
theorem W4_main_arg2 (c : Dev nD) : W4 m ρ c (Proc.devRef .tc main_arg2) = m ((c : Thread nD τ).loc main_arg2) :=
  (W4_of_ne m ρ c main_arg2 (by decide)).trans (W3_main_arg2 m ρ c)

set_option maxHeartbeats 2000000 in
/-- Input 3 after the first stretch of host operations: none of them writes it. -/
theorem W1_main_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
/-- Input 3 after the matrix-product launch. -/
theorem W2_main_arg3 (c : Dev nD) : W2 m ρ c (Proc.devRef .tc main_arg3) = m ((c : Thread nD τ).loc main_arg3) :=
  ((W2_arr m ρ c 1).trans (((dat0 (V1 m ρ) c).arrAt_in 1 rfl _).trans (A_eq0 (V1 m ρ) c 1))).trans (W1_main_arg3 m ρ c)
set_option maxHeartbeats 2000000 in
/-- Input 3 after the second stretch of host operations. -/
theorem W3_main_arg3 (c : Dev nD) : W3 m ρ c (Proc.devRef .tc main_arg3) = m ((c : Thread nD τ).loc main_arg3) :=
  (StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg3 m ρ c)
/-- Input 3 ends as launched. -/
theorem W4_main_arg3 (c : Dev nD) : W4 m ρ c (Proc.devRef .tc main_arg3) = m ((c : Thread nD τ).loc main_arg3) :=
  (W4_of_ne m ρ c main_arg3 (by decide)).trans (W3_main_arg3 m ρ c)

set_option maxHeartbeats 2000000 in
/-- Input 4 after the first stretch of host operations: none of them writes it. -/
theorem W1_main_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
/-- Input 4 after the matrix-product launch. -/
theorem W2_main_arg4 (c : Dev nD) : W2 m ρ c (Proc.devRef .tc main_arg4) = m ((c : Thread nD τ).loc main_arg4) :=
  (W2_of_ne m ρ c main_arg4 (by decide)).trans (W1_main_arg4 m ρ c)
set_option maxHeartbeats 2000000 in
/-- Input 4 after the second stretch of host operations. -/
theorem W3_main_arg4 (c : Dev nD) : W3 m ρ c (Proc.devRef .tc main_arg4) = m ((c : Thread nD τ).loc main_arg4) :=
  (StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg4 m ρ c)
/-- Input 4 ends as launched. -/
theorem W4_main_arg4 (c : Dev nD) : W4 m ρ c (Proc.devRef .tc main_arg4) = m ((c : Thread nD τ).loc main_arg4) :=
  ((W4_arr m ρ c 3).trans (((dat1 (V3 m ρ) c).arrAt_in 3 rfl _).trans (A_eq1 (V3 m ρ) c 3))).trans (W3_main_arg4 m ρ c)

set_option maxHeartbeats 2000000 in
/-- Input 5 after the first stretch of host operations: none of them writes it. -/
theorem W1_main_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
/-- Input 5 after the matrix-product launch. -/
theorem W2_main_arg5 (c : Dev nD) : W2 m ρ c (Proc.devRef .tc main_arg5) = m ((c : Thread nD τ).loc main_arg5) :=
  (W2_of_ne m ρ c main_arg5 (by decide)).trans (W1_main_arg5 m ρ c)
set_option maxHeartbeats 2000000 in
/-- Input 5 after the second stretch of host operations. -/
theorem W3_main_arg5 (c : Dev nD) : W3 m ρ c (Proc.devRef .tc main_arg5) = m ((c : Thread nD τ).loc main_arg5) :=
  (StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg5 m ρ c)
/-- Input 5 ends as launched. -/
theorem W4_main_arg5 (c : Dev nD) : W4 m ρ c (Proc.devRef .tc main_arg5) = m ((c : Thread nD τ).loc main_arg5) :=
  ((W4_arr m ρ c 6).trans (((dat1 (V3 m ρ) c).arrAt_in 6 rfl _).trans (A_eq1 (V3 m ρ) c 6))).trans (W3_main_arg5 m ρ c)

set_option maxHeartbeats 2000000 in
/-- Input 6 after the first stretch of host operations: none of them writes it. -/
theorem W1_main_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
/-- Input 6 after the matrix-product launch. -/
theorem W2_main_arg6 (c : Dev nD) : W2 m ρ c (Proc.devRef .tc main_arg6) = m ((c : Thread nD τ).loc main_arg6) :=
  (W2_of_ne m ρ c main_arg6 (by decide)).trans (W1_main_arg6 m ρ c)
set_option maxHeartbeats 2000000 in
/-- Input 6 after the second stretch of host operations. -/
theorem W3_main_arg6 (c : Dev nD) : W3 m ρ c (Proc.devRef .tc main_arg6) = m ((c : Thread nD τ).loc main_arg6) :=
  (StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg6 m ρ c)
/-- Input 6 ends as launched. -/
theorem W4_main_arg6 (c : Dev nD) : W4 m ρ c (Proc.devRef .tc main_arg6) = m ((c : Thread nD τ).loc main_arg6) :=
  ((W4_arr m ρ c 7).trans (((dat1 (V3 m ρ) c).arrAt_in 7 rfl _).trans (A_eq1 (V3 m ρ) c 7))).trans (W3_main_arg6 m ρ c)

set_option maxHeartbeats 2000000 in
/-- Input 7 after the first stretch of host operations: none of them writes it. -/
theorem W1_main_arg7 (c : Dev nD) : W1 m ρ c (Proc.devRef .tc main_arg7) = m ((c : Thread nD τ).loc main_arg7) :=
  (StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
/-- Input 7 after the matrix-product launch. -/
theorem W2_main_arg7 (c : Dev nD) : W2 m ρ c (Proc.devRef .tc main_arg7) = m ((c : Thread nD τ).loc main_arg7) :=
  (W2_of_ne m ρ c main_arg7 (by decide)).trans (W1_main_arg7 m ρ c)
set_option maxHeartbeats 2000000 in
/-- Input 7 after the second stretch of host operations. -/
theorem W3_main_arg7 (c : Dev nD) : W3 m ρ c (Proc.devRef .tc main_arg7) = m ((c : Thread nD τ).loc main_arg7) :=
  (StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg7 m ρ c)
/-- Input 7 ends as launched. -/
theorem W4_main_arg7 (c : Dev nD) : W4 m ρ c (Proc.devRef .tc main_arg7) = m ((c : Thread nD τ).loc main_arg7) :=
  ((W4_arr m ρ c 8).trans (((dat1 (V3 m ρ) c).arrAt_in 8 rfl _).trans (A_eq1 (V3 m ρ) c 8))).trans (W3_main_arg7 m ρ c)

set_option maxHeartbeats 2000000 in
/-- Input 8 after the first stretch of host operations: none of them writes it. -/
theorem W1_main_arg8 (c : Dev nD) : W1 m ρ c (Proc.devRef .tc main_arg8) = m ((c : Thread nD τ).loc main_arg8) :=
  (StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
/-- Input 8 after the matrix-product launch. -/
theorem W2_main_arg8 (c : Dev nD) : W2 m ρ c (Proc.devRef .tc main_arg8) = m ((c : Thread nD τ).loc main_arg8) :=
  (W2_of_ne m ρ c main_arg8 (by decide)).trans (W1_main_arg8 m ρ c)
set_option maxHeartbeats 2000000 in
/-- Input 8 after the second stretch of host operations. -/
theorem W3_main_arg8 (c : Dev nD) : W3 m ρ c (Proc.devRef .tc main_arg8) = m ((c : Thread nD τ).loc main_arg8) :=
  (StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg8 m ρ c)
/-- Input 8 ends as launched. -/
theorem W4_main_arg8 (c : Dev nD) : W4 m ρ c (Proc.devRef .tc main_arg8) = m ((c : Thread nD τ).loc main_arg8) :=
  ((W4_arr m ρ c 9).trans (((dat1 (V3 m ρ) c).arrAt_in 9 rfl _).trans (A_eq1 (V3 m ρ) c 9))).trans (W3_main_arg8 m ρ c)

/-! ## The proof data of both launches and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every stretch: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two launches as segments -/

set_option backward.isDefEq.respectTransparency.types false in
/-- Launch 0 over the thread state: entered with every unscoped buffer at `W1`, left with them at `W2`. Its arrays
    are split out of the unscoped buffers on entry and put back at their final contents on exit; the generator register
    goes into the launch's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine ((show (pdats m ρ 0 c).Φ (Fin.last _) ⊢ Pipeline.ΦA spec0 c from .rfl)).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered with every unscoped buffer at `W3`, left with them at `W4`. Its arrays
    are split out of the unscoped buffers on entry and put back at their final contents on exit; the generator register
    goes into the launch's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine ((show (pdats m ρ 1 c).Φ (Fin.last _) ⊢ Pipeline.ΦA spec1 c from hout1 (V3 m ρ) c)).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution terminates, nothing faulting, and every
    unscoped buffer of every core ends at its `W4` contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the nine inputs end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c)⟩) (run_all m ρ)

end Cert.Kernel.Frame

end
-- ==== Proof.KIFrame0.lean ====
/-
  The first launch: a matrix product, one block of 10000 rows per grid point.

  At each of the 10 points the body loads a [10000, 128] block of the features and the whole [128, 64] weight matrix
  and stores their product as the point's [10000, 64] block of the result. Stated here, at any contents `V` of the
  buffers when the launch is entered: what each window's staging buffer holds at a point, what the body leaves in the
  output's, and that the body, run on those buffers, leaves exactly that.
-/
import proofs.«426677_j49392123904592_3_alg».proof.Proof.KernelIdealLaunch
import proofs.«426677_j49392123904592_3_alg».proof.Proof.Gen.KernelIdeal.Skeleton
import proofs.«426677_j49392123904592_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the whole matrix at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

abbrev r0_out : Rect S10000x64 := Rect.unit (s := S10000x64) ![0, 0] S10000x64.size inb_S10000x64_S10000x64_0_0
abbrev r0_x : Rect S10000x128 := Rect.unit (s := S10000x128) ![0, 0] S10000x128.size inb_S10000x128_S10000x128_0_0
abbrev r0_w : Rect S128x64 := Rect.unit (s := S128x64) ![0, 0] S128x64.size inb_S128x64_S128x64_0_0

/-- The output's staging buffer after the body: its one store, of the product of the two loaded blocks. -/
def out0_2 (x0 : Vec F S10000x128 .f32) (x1 : Vec F S128x64 .f32) : Vec F S10000x64 .bf16 :=
  View.canon [⟨r0_out, k0_pay1 (View.ld x0 r0_x) (View.ld x1 r0_w)⟩]

/-- The store covers the whole buffer. -/
theorem cover0_2 (p0 : Vec F S10000x64 .bf16) (y : S10000x64.Idx) :
    ∃ pc ∈ ([⟨r0_out, p0⟩] : List (View.Piece (Elt F) S10000x64 .bf16)), y ∈ pc.1.set :=
  View.cover_of_tiled [⟨r0_out, p0⟩] S10000x64.size (by rfl) y

/-! ## The body's triple -/

set_option maxHeartbeats 1000000 in
/-- On whole staging buffers, the two inputs' at contents `x0`, `x1` and the output's at anything, the body runs to
    the inputs' as they were and the output's at `out0_2 x0 x1`. -/
theorem sound_kernel0 (c : Dev nD) (E : Set ℕ) (i : grid0.Coords) (arg1 : Memref sig .tc .vmem S10000x128 .f32) (harg1 : arg1.IsWhole)
    (arg2 : Memref sig .tc .vmem S128x64 .f32) (harg2 : arg2.IsWhole) (arg3 : Memref sig .tc .vmem S10000x64 .bf16) (harg3 : arg3.IsWhole)
    (x0 : Vec F S10000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The launch's proof data -/

/-- After the body at point `t`: each input's buffer at its block, the output's at the product of the two blocks;
    nothing else is kept between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KIFrame1.lean ====
/-
  The second launch: the fused self-loop term, bias, rectifier, per-graph sums and classifier, over 50 blocks of 2000
  nodes.

  A [1024, 64] scratch carries the per-graph sums between the points. At the first point the body zeroes it; at every
  point it adds to it the one-hot product of the block's graph words with the block's rectified features; at the last
  point it divides by the counts, runs the two dense layers and stores the [1024, 4] result. So after point `n` the
  scratch holds `accAt1 n` (the fold of the per-block payload from zero), and the output window, idle until the last
  point, then receives the classifier's payload of the finished sums. Stated at any contents `V` of the buffers when
  the launch is entered.
-/
import proofs.«426677_j49392123904592_3_alg».proof.Proof.KernelIdealLaunch
import proofs.«426677_j49392123904592_3_alg».proof.Proof.Gen.KernelIdeal.Skeleton
import proofs.«426677_j49392123904592_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each of the ten input windows' staging buffers holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, decided over the grid -/

/-- The first `scf.if`: the point is the first. -/
abbrev first1 (i : grid1.Coords) : Prop := (Scalar.cmpi .ne (Scalar.extui (Scalar.cmpi .eq (BitVec.ofNat 32 (i 0).val) 0#32)) 0#32) = 1#1
theorem hfirst1 : ∀ t : Fin cfg1.N, first1 (grid1.coords t) ↔ t.val = 0 :=
  (by decide +kernel : ∀ t : Fin grid1.N, first1 (grid1.coords t) ↔ t.val = 0)
/-- The second `scf.if`: the point is the last. -/
abbrev last1 (i : grid1.Coords) : Prop := k1_cond2 i = 1#1
theorem hlast1 : ∀ t : Fin cfg1.N, last1 (grid1.coords t) ↔ t.val = 49 :=
  (by decide +kernel : ∀ t : Fin grid1.N, last1 (grid1.coords t) ↔ t.val = 49)

/-- The output window is idle, and not written back, at every point but the last; there it is live. -/
theorem idleAt1_10 : ∀ t : Fin cfg1.N, ¬last1 (grid1.coords t) → cfg1.idle 10 (grid1.coords t) = true := by decide +kernel
theorem noFlush1_10 : ∀ t : Fin cfg1.N, ¬last1 (grid1.coords t) → (cfg1.win 10).flush t = false := by decide +kernel
theorem liveAt1_10 : ∀ t : Fin cfg1.N, last1 (grid1.coords t) → cfg1.idle 10 (grid1.coords t) = false := by decide +kernel

/-! ## The staging memrefs at a point, and the scratch -/

/-- The scratch: a whole buffer of the kernel's own. -/
abbrev scM1 : Memref sig .tc .vmem S1024x64 .f32 := Memref.whole cc1_scratch0

theorem hz2 : (![0, 0] : Fin 2 → Nat) = fun _ => 0 := by funext a; fin_cases a <;> rfl
theorem hz1 : (![0] : Fin 1 → Nat) = fun _ => 0 := by funext a; fin_cases a; rfl

abbrev rS1 : Rect S1024x64 := Rect.unit (s := S1024x64) ![0, 0] S1024x64.size inb_S1024x64_S1024x64_0_0
abbrev rO1 : Rect S1024x4 := Rect.unit (s := S1024x4) ![0, 0] S1024x4.size inb_S1024x4_S1024x4_0_0

/-- A store through the whole scratch covers it; so does such a store followed by earlier ones. -/
theorem coverS1 (p : Vec F S1024x64 .f32) (L : List (View.Piece (Elt F) S1024x64 .f32)) (y : S1024x64.Idx) :
    ∃ pc ∈ ((⟨rS1, p⟩ : View.Piece (Elt F) S1024x64 .f32) :: L), y ∈ pc.1.set := by
  obtain ⟨pc, hm, hy⟩ := View.cover_of_tiled [(⟨rS1, p⟩ : View.Piece (Elt F) S1024x64 .f32)] S1024x64.size (by rfl) y
  rw [List.mem_singleton] at hm; subst hm
  exact ⟨_, List.mem_cons_self, hy⟩
theorem coverO1 (p : Vec F S1024x4 .f32) (y : S1024x4.Idx) :
    ∃ pc ∈ ([⟨rO1, p⟩] : List (View.Piece (Elt F) S1024x4 .f32)), y ∈ pc.1.set :=
  View.cover_of_tiled [⟨rO1, p⟩] S1024x4.size (by rfl) y

/-! ## The body's triple, case by case -/

set_option maxHeartbeats 4000000 in
/-- THE FIRST POINT (not the last): the scratch, at anything, is zeroed and then receives the block's payload over the
    zeros. The five per-block inputs come back as they were; nothing else is touched. -/
theorem sound_kernel1_A (c : Dev nD) (E : Set ℕ) (i : grid1.Coords) (hc0 : first1 i) (hc1 : ¬last1 i)
    (arg1 : Memref sig .tc .vmem S2000x64 .f32) (harg1 : arg1.IsWhole) (arg2 : Memref sig .tc .vmem S2000x64 .bf16) (harg2 : arg2.IsWhole)
    (arg3 : Memref sig .tc .vmem S2000x1 .f32) (harg3 : arg3.IsWhole) (arg4 : Memref sig .tc .vmem S64 .f32) (harg4 : arg4.IsWhole)
    (arg5 : Memref sig .tc .vmem S2000x1 .i32) (harg5 : arg5.IsWhole) (arg6 : Memref sig .tc .vmem S1024x1 .f32) (harg6 : arg6.IsWhole)
    (arg7 : Memref sig .tc .vmem S64x32 .f32) (harg7 : arg7.IsWhole) (arg8 : Memref sig .tc .vmem S32 .f32) (harg8 : arg8.IsWhole)
    (arg9 : Memref sig .tc .vmem S32x4 .f32) (harg9 : arg9.IsWhole) (arg10 : Memref sig .tc .vmem S4 .f32) (harg10 : arg10.IsWhole)
    (arg11 : Memref sig .tc .vmem S1024x4 .f32) (harg11 : arg11.IsWhole) (arg12 : Memref sig .tc .vmem S1024x64 .f32) (harg12 : arg12.IsWhole)
    (x0 : Vec F S2000x64 .f32) (x1 : Vec F S2000x64 .bf16) (x2 : Vec F S2000x1 .f32) (x3 : Vec F S64 .f32) (x4 : Vec F S2000x1 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg12 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg12 fullShare (k1_pay2 x0 x1 x2 x3 x4 (k1_pay1 (F := F)))) -∗ K ⟨⟩))
      ⊢ wp frame (wpE (defs₀ (F := F)) Variants.none c none) E (cc1__pool_mlp_kernel i arg1 harg1 arg2 harg2 arg3 harg3 arg4 harg4 arg5 harg5 arg6 harg6 arg7 harg7 arg8 harg8 arg9 harg9 arg10 harg10 arg11 harg11 arg12 harg12) K := by
  simp only [cc1__pool_mlp_kernel_eq_skeleton]; unfold cc1__pool_mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HS
  ipureintro
  sl_unfold_words
  rw [View.read_writes_eq_canon _ _ _ (coverS1 _ _), View.canon_cons_unit_zero hz2]
  simp only [View.readAt_eq_ld, View.ld_unit_zero (S := S2000x64) hz2, View.ld_unit_zero (S := S2000x1) hz2, View.ld_unit_zero (S := S64) hz1,
    View.ld_unit_zero (S := S1024x64) hz2, View.ld_unit_zero (S := S1024x1) hz2, View.ld_unit_zero (S := S64x32) hz2, View.ld_unit_zero (S := S32) hz1,
    View.ld_unit_zero (S := S32x4) hz2, View.ld_unit_zero (S := S4) hz1, View.ld_unit_zero (S := S1024x4) hz2, View.readCov_unit_zero (S := S1024x64) _ hz2]

set_option maxHeartbeats 4000000 in
/-- A MIDDLE POINT (neither first nor last): the scratch, at `xs`, receives the block's payload over `xs`. -/
theorem sound_kernel1_B (c : Dev nD) (E : Set ℕ) (i : grid1.Coords) (hc0 : ¬first1 i) (hc1 : ¬last1 i)
    (arg1 : Memref sig .tc .vmem S2000x64 .f32) (harg1 : arg1.IsWhole) (arg2 : Memref sig .tc .vmem S2000x64 .bf16) (harg2 : arg2.IsWhole)
    (arg3 : Memref sig .tc .vmem S2000x1 .f32) (harg3 : arg3.IsWhole) (arg4 : Memref sig .tc .vmem S64 .f32) (harg4 : arg4.IsWhole)
    (arg5 : Memref sig .tc .vmem S2000x1 .i32) (harg5 : arg5.IsWhole) (arg6 : Memref sig .tc .vmem S1024x1 .f32) (harg6 : arg6.IsWhole)
    (arg7 : Memref sig .tc .vmem S64x32 .f32) (harg7 : arg7.IsWhole) (arg8 : Memref sig .tc .vmem S32 .f32) (harg8 : arg8.IsWhole)
    (arg9 : Memref sig .tc .vmem S32x4 .f32) (harg9 : arg9.IsWhole) (arg10 : Memref sig .tc .vmem S4 .f32) (harg10 : arg10.IsWhole)
    (arg11 : Memref sig .tc .vmem S1024x4 .f32) (harg11 : arg11.IsWhole) (arg12 : Memref sig .tc .vmem S1024x64 .f32) (harg12 : arg12.IsWhole)
    (x0 : Vec F S2000x64 .f32) (x1 : Vec F S2000x64 .bf16) (x2 : Vec F S2000x1 .f32) (x3 : Vec F S64 .f32) (x4 : Vec F S2000x1 .i32) (xs : Vec F S1024x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg12 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg12 fullShare (k1_pay2 x0 x1 x2 x3 x4 xs)) -∗ K ⟨⟩))
      ⊢ wp frame (wpE (defs₀ (F := F)) Variants.none c none) E (cc1__pool_mlp_kernel i arg1 harg1 arg2 harg2 arg3 harg3 arg4 harg4 arg5 harg5 arg6 harg6 arg7 harg7 arg8 harg8 arg9 harg9 arg10 harg10 arg11 harg11 arg12 harg12) K := by
  simp only [cc1__pool_mlp_kernel_eq_skeleton]; unfold cc1__pool_mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  subst hf0; subst hf1; subst hf2; subst hf3; subst hf4; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HS
  ipureintro
  sl_unfold_words
  rw [View.read_writes_eq_canon _ _ _ (coverS1 _ _), View.canon_unit_zero hz2]
  simp only [View.readAt_eq_ld, View.ld_unit_zero (S := S2000x64) hz2, View.ld_unit_zero (S := S2000x1) hz2, View.ld_unit_zero (S := S64) hz1,
    View.ld_unit_zero (S := S1024x64) hz2, View.ld_unit_zero (S := S1024x1) hz2, View.ld_unit_zero (S := S64x32) hz2, View.ld_unit_zero (S := S32) hz1,
    View.ld_unit_zero (S := S32x4) hz2, View.ld_unit_zero (S := S4) hz1, View.ld_unit_zero (S := S1024x4) hz2]

set_option maxHeartbeats 4000000 in
/-- THE LAST POINT (not the first): the scratch receives the block's payload over `xs`, and the output's buffer, at
    anything, receives the classifier's payload of the finished sums, the counts and the four weight arrays. -/
theorem sound_kernel1_C (c : Dev nD) (E : Set ℕ) (i : grid1.Coords) (hc0 : ¬first1 i) (hc1 : last1 i)
    (arg1 : Memref sig .tc .vmem S2000x64 .f32) (harg1 : arg1.IsWhole) (arg2 : Memref sig .tc .vmem S2000x64 .bf16) (harg2 : arg2.IsWhole)
    (arg3 : Memref sig .tc .vmem S2000x1 .f32) (harg3 : arg3.IsWhole) (arg4 : Memref sig .tc .vmem S64 .f32) (harg4 : arg4.IsWhole)
    (arg5 : Memref sig .tc .vmem S2000x1 .i32) (harg5 : arg5.IsWhole) (arg6 : Memref sig .tc .vmem S1024x1 .f32) (harg6 : arg6.IsWhole)
    (arg7 : Memref sig .tc .vmem S64x32 .f32) (harg7 : arg7.IsWhole) (arg8 : Memref sig .tc .vmem S32 .f32) (harg8 : arg8.IsWhole)
    (arg9 : Memref sig .tc .vmem S32x4 .f32) (harg9 : arg9.IsWhole) (arg10 : Memref sig .tc .vmem S4 .f32) (harg10 : arg10.IsWhole)
    (arg11 : Memref sig .tc .vmem S1024x4 .f32) (harg11 : arg11.IsWhole) (arg12 : Memref sig .tc .vmem S1024x64 .f32) (harg12 : arg12.IsWhole)
    (x0 : Vec F S2000x64 .f32) (x1 : Vec F S2000x64 .bf16) (x2 : Vec F S2000x1 .f32) (x3 : Vec F S64 .f32) (x4 : Vec F S2000x1 .i32) (x5 : Vec F S1024x1 .f32) (x6 : Vec F S64x32 .f32) (x7 : Vec F S32 .f32) (x8 : Vec F S32x4 .f32) (x9 : Vec F S4 .f32)
    (xs : Vec F S1024x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ owns (c : Thread nD τ) arg12 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (k1_pay3 (k1_pay2 x0 x1 x2 x3 x4 xs) x5 x6 x7 x8 x9)
            ∗ owns (c : Thread nD τ) arg12 fullShare (k1_pay2 x0 x1 x2 x3 x4 xs)) -∗ K ⟨⟩))
      ⊢ wp frame (wpE (defs₀ (F := F)) Variants.none c none) E (cc1__pool_mlp_kernel i arg1 harg1 arg2 harg2 arg3 harg3 arg4 harg4 arg5 harg5 arg6 harg6 arg7 harg7 arg8 harg8 arg9 harg9 arg10 harg10 arg11 harg11 arg12 harg12) K := by
  simp only [cc1__pool_mlp_kernel_eq_skeleton]; unfold cc1__pool_mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%dout, %fout, -, HO⟩, ⟨%fs, %hfs, HS⟩, Hk⟩
  subst hf0; subst hf1; subst hf2; subst hf3; subst hf4; subst hf5; subst hf6; subst hf7; subst hf8; subst hf9; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [HO]
  · iexists _; isplitr
    swap; · iexact HO
    ipureintro
    sl_unfold_words
    rw [View.read_writes_eq_canon _ _ _ (coverO1 _), View.canon_unit_zero hz2]
    simp only [View.readAt_eq_ld, View.ld_unit_zero (S := S2000x64) hz2, View.ld_unit_zero (S := S2000x1) hz2, View.ld_unit_zero (S := S64) hz1,
    View.ld_unit_zero (S := S1024x64) hz2, View.ld_unit_zero (S := S1024x1) hz2, View.ld_unit_zero (S := S64x32) hz2, View.ld_unit_zero (S := S32) hz1,
    View.ld_unit_zero (S := S32x4) hz2, View.ld_unit_zero (S := S4) hz1, View.ld_unit_zero (S := S1024x4) hz2, View.readCov_unit_zero (S := S1024x64) _ hz2]
  iexists _; isplitr
  swap; · iexact HS
  ipureintro
  sl_unfold_words
  rw [View.read_writes_eq_canon _ _ _ (coverS1 _ _), View.canon_unit_zero hz2]
  simp only [View.readAt_eq_ld, View.ld_unit_zero (S := S2000x64) hz2, View.ld_unit_zero (S := S2000x1) hz2, View.ld_unit_zero (S := S64) hz1,
    View.ld_unit_zero (S := S1024x64) hz2, View.ld_unit_zero (S := S1024x1) hz2, View.ld_unit_zero (S := S64x32) hz2, View.ld_unit_zero (S := S32) hz1,
    View.ld_unit_zero (S := S32x4) hz2, View.ld_unit_zero (S := S4) hz1, View.ld_unit_zero (S := S1024x4) hz2]

/-! ## What the scratch holds after each point -/

/-- After point `n`: the per-block payload folded over the points up to `n`, from the zeros the first point stores. -/
def accAt1 (c : Dev nD) : (n : ℕ) → n < cfg1.N → Vec F S1024x64 .f32
  | 0, hn => k1_pay2 (iblk1 V c 0 ⟨0, hn⟩) (iblk1 V c 1 ⟨0, hn⟩) (iblk1 V c 2 ⟨0, hn⟩) (iblk1 V c 3 ⟨0, hn⟩) (iblk1 V c 4 ⟨0, hn⟩) (k1_pay1 (F := F))
  | n + 1, hn => k1_pay2 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (accAt1 c n (Nat.lt_of_succ_lt hn))

theorem accAt1_zero (c : Dev nD) (t : Fin cfg1.N) (h : t.val = 0) :
    accAt1 V c t.val t.isLt = k1_pay2 (iblk1 V c 0 t) (iblk1 V c 1 t) (iblk1 V c 2 t) (iblk1 V c 3 t) (iblk1 V c 4 t) (k1_pay1 (F := F)) := by
  obtain ⟨n, hn⟩ := t
  cases n with
  | zero => rfl
  | succ n => exact absurd h (Nat.succ_ne_zero n)

theorem accAt1_pos (c : Dev nD) (t : Fin cfg1.N) (h : t.val ≠ 0) :
    accAt1 V c t.val t.isLt = k1_pay2 (iblk1 V c 0 t) (iblk1 V c 1 t) (iblk1 V c 2 t) (iblk1 V c 3 t) (iblk1 V c 4 t) (accAt1 V c (t.val - 1) (Nat.lt_of_le_of_lt (Nat.sub_le _ _) t.isLt)) := by
  obtain ⟨n, hn⟩ := t
  cases n with
  | zero => exact absurd rfl h
  | succ n => rfl

/-! ## The invariant between points -/

/-- The launch's invariant as a chain: the matrix-product launch's five staging buffers and the scratch, each whole at
    some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1 fullShare d)) ∗ (∃ r, prngReg c r)) := by
  unfold Pipeline.ΦA; rw [scopedRest1_eq]; simp only [scM1, owns_whole]; try rfl

/-- Before point `n`: at the first point the launch's own invariant (the scratch at anything); afterwards the same
    with the scratch at what the point before left. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1 fullShare (accAt1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1 fullShare (accAt1 V c n hn)) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1 fullShare (accAt1 V c (n - 1) (by omega))) ∗ (∃ r, prngReg c r)) := by
  cases n with
  | zero => exact absurd rfl hz
  | succ n => rfl

/-! ## The launch's proof data -/

/-- After the body at point `t`: each input's buffer at its block; the output's at the classifier's payload of the
    sums so far (read only at the last point, the one point that writes it back); between points the scratch at
    `accAt1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => k1_pay3 (accAt1 V c t.val t.isLt) (iblk1 V c 5 t) (iblk1 V c 6 t) (iblk1 V c 7 t) (iblk1 V c 8 t) (iblk1 V c 9 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t
    = k1_pay3 (accAt1 V c t.val t.isLt) (iblk1 V c 5 t) (iblk1 V c 6 t) (iblk1 V c 7 t) (iblk1 V c 8 t) (iblk1 V c 9 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-- An input window is never idle: the body leaves its buffer at its block. -/
theorem leaves1_0 (c : Dev nD) (t : Fin cfg1.N) :
    (dat1 V c).leavesExact 0 t = owns (c : Thread nD τ) (st1_0 t) fullShare (iblk1 V c 0 t) := by
  unfold Dat.leavesExact; rw [show cfg1.idle 0 (cfg1.grid.coords t) = false from rfl, after1_0]
theorem leaves1_1 (c : Dev nD) (t : Fin cfg1.N) :
    (dat1 V c).leavesExact 1 t = owns (c : Thread nD τ) (st1_1 t) fullShare (iblk1 V c 1 t) := by
  unfold Dat.leavesExact; rw [show cfg1.idle 1 (cfg1.grid.coords t) = false from rfl, after1_1]
theorem leaves1_2 (c : Dev nD) (t : Fin cfg1.N) :
    (dat1 V c).leavesExact 2 t = owns (c : Thread nD τ) (st1_2 t) fullShare (iblk1 V c 2 t) := by
  unfold Dat.leavesExact; rw [show cfg1.idle 2 (cfg1.grid.coords t) = false from rfl, after1_2]
theorem leaves1_3 (c : Dev nD) (t : Fin cfg1.N) :
    (dat1 V c).leavesExact 3 t = owns (c : Thread nD τ) (st1_3 t) fullShare (iblk1 V c 3 t) := by
  unfold Dat.leavesExact; rw [show cfg1.idle 3 (cfg1.grid.coords t) = false from rfl, after1_3]
theorem leaves1_4 (c : Dev nD) (t : Fin cfg1.N) :
    (dat1 V c).leavesExact 4 t = owns (c : Thread nD τ) (st1_4 t) fullShare (iblk1 V c 4 t) := by
  unfold Dat.leavesExact; rw [show cfg1.idle 4 (cfg1.grid.coords t) = false from rfl, after1_4]
theorem leaves1_5 (c : Dev nD) (t : Fin cfg1.N) :
    (dat1 V c).leavesExact 5 t = owns (c : Thread nD τ) (st1_5 t) fullShare (iblk1 V c 5 t) := by
  unfold Dat.leavesExact; rw [show cfg1.idle 5 (cfg1.grid.coords t) = false from rfl, after1_5]
theorem leaves1_6 (c : Dev nD) (t : Fin cfg1.N) :
    (dat1 V c).leavesExact 6 t = owns (c : Thread nD τ) (st1_6 t) fullShare (iblk1 V c 6 t) := by
  unfold Dat.leavesExact; rw [show cfg1.idle 6 (cfg1.grid.coords t) = false from rfl, after1_6]
theorem leaves1_7 (c : Dev nD) (t : Fin cfg1.N) :
    (dat1 V c).leavesExact 7 t = owns (c : Thread nD τ) (st1_7 t) fullShare (iblk1 V c 7 t) := by
  unfold Dat.leavesExact; rw [show cfg1.idle 7 (cfg1.grid.coords t) = false from rfl, after1_7]
theorem leaves1_8 (c : Dev nD) (t : Fin cfg1.N) :
    (dat1 V c).leavesExact 8 t = owns (c : Thread nD τ) (st1_8 t) fullShare (iblk1 V c 8 t) := by
  unfold Dat.leavesExact; rw [show cfg1.idle 8 (cfg1.grid.coords t) = false from rfl, after1_8]
theorem leaves1_9 (c : Dev nD) (t : Fin cfg1.N) :
    (dat1 V c).leavesExact 9 t = owns (c : Thread nD τ) (st1_9 t) fullShare (iblk1 V c 9 t) := by
  unfold Dat.leavesExact; rw [show cfg1.idle 9 (cfg1.grid.coords t) = false from rfl, after1_9]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t)

set_option maxHeartbeats 8000000 in
/-- The body at any point, by cases on the point: the first (the scratch comes at anything and leaves at the first
    block's payload over zeros), a middle one and the last (the scratch comes at what the point before left); the
    output's buffer is handed back untouched at every point but the last. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5, leaves1_6, leaves1_7, leaves1_8, leaves1_9]
  have hN : t.val < 50 := lt_of_lt_of_eq t.isLt (show cfg1.N = 50 from N_1)
  by_cases h0 : t.val = 0
  · have hl : ¬last1 (grid1.coords t) := fun h => by have := (hlast1 t).mp h; omega
    rw [Dat.leavesExact_idle (dat1 V c) 10 t (idleAt1_10 t hl) (noFlush1_10 t hl)]
    rw [accAt1_zero V c t h0]
    rw [PhiS1_castSucc V c t, PhiS1_zero V c _ _ h0, PhiA1_eq]
    iintro ⟨⟨⟨HA1, HA2, HA3, HA4, HA5, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
    iapply (sound_kernel1_A c Set.univ (grid1.coords t) ((hfirst1 t).mpr h0) hl _ _ _ _ _ _ _ _ _ _ _ _ _ _ _ _ _ _ _ _ _ _ _ _ (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HA1 HA2 HA3 HA4 HA5 HS Hg]
    · isplitl [HA1 HA2 HA3 HA4 HA5 HS]
      · isplitl [HA1]; · iexact HA1
        isplitl [HA2]; · iexact HA2
        isplitl [HA3]; · iexact HA3
        isplitl [HA4]; · iexact HA4
        isplitl [HA5]; · iexact HA5
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · have hf : ¬first1 (grid1.coords t) := fun h => h0 ((hfirst1 t).mp h)
    by_cases h1 : t.val = 49
    · have hl : last1 (grid1.coords t) := (hlast1 t).mpr h1
      rw [show (dat1 V c).leavesExact 10 t = owns (c : Thread nD τ) (st1_10 t) fullShare ((dat1 V c).after 10 t) from by
        unfold Dat.leavesExact; rw [liveAt1_10 t hl], after1_10]
      rw [accAt1_pos V c t h0]
      rw [PhiS1_castSucc V c t, PhiS1_pos V c _ _ h0]
      iintro ⟨⟨⟨HA1, HA2, HA3, HA4, HA5, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
      iapply (sound_kernel1_C c Set.univ (grid1.coords t) hf hl _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · icases H10 with ⟨%d10, H10⟩
        iexists _; iexact H10
      isplitl [HS]; · iexact HS
      iintro ⟨H0, H1, H2, H3, H4, H5, H6, H7, H8, H9, H10, HS⟩
      isplitl [HA1 HA2 HA3 HA4 HA5 HS Hg]
      · isplitl [HA1 HA2 HA3 HA4 HA5 HS]
        · isplitl [HA1]; · iexact HA1
          isplitl [HA2]; · iexact HA2
          isplitl [HA3]; · iexact HA3
          isplitl [HA4]; · iexact HA4
          isplitl [HA5]; · iexact HA5
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hl : ¬last1 (grid1.coords t) := fun h => h1 ((hlast1 t).mp h)
      rw [Dat.leavesExact_idle (dat1 V c) 10 t (idleAt1_10 t hl) (noFlush1_10 t hl)]
      rw [accAt1_pos V c t h0]
      rw [PhiS1_castSucc V c t, PhiS1_pos V c _ _ h0]
      iintro ⟨⟨⟨HA1, HA2, HA3, HA4, HA5, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
      iapply (sound_kernel1_B c Set.univ (grid1.coords t) hf hl _ _ _ _ _ _ _ _ _ _ _ _ _ _ _ _ _ _ _ _ _ _ _ _ (iblk1 V c 0 t) (iblk1 V c 1 t) (iblk1 V c 2 t) (iblk1 V c 3 t) (iblk1 V c 4 t) _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HA1 HA2 HA3 HA4 HA5 HS Hg]
      · isplitl [HA1 HA2 HA3 HA4 HA5 HS]
        · isplitl [HA1]; · iexact HA1
          isplitl [HA2]; · iexact HA2
          isplitl [HA3]; · iexact HA3
          isplitl [HA4]; · iexact HA4
          isplitl [HA5]; · iexact HA5
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

theorem body_obligation1 (c : Dev nD) : BodyObligation (dat1 (F := F) V c) (defs₀ (F := F)) Variants.none () Set.univ := fun t => by
  rw [bigSep_W1, bigSep_W1]
  exact sound_body1 V c t

/-- After the last point the invariant gives the launch's own back: the scratch's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 50 := N_1; omega), PhiA1_eq]
  iintro ⟨⟨HA1, HA2, HA3, HA4, HA5, HS⟩, Hg⟩
  isplitl [HA1 HA2 HA3 HA4 HA5 HS]
  · isplitl [HA1]; · iexact HA1
    isplitl [HA2]; · iexact HA2
    isplitl [HA3]; · iexact HA3
    isplitl [HA4]; · iexact HA4
    isplitl [HA5]; · iexact HA5
    iexists _; iexact HS
  iexact Hg

end Cert.KernelIdeal.Frame

end
-- ==== Proof.KIRun.lean ====
/-
  The whole program as a run: host operations, the matrix-product launch, host operations, the pooling launch.

  The buffers' contents are followed from the launch memory through the four stretches (`W0` … `W4`): a stretch of host
  operations applies them in order; a launch leaves each of its arrays at what its write-backs leave and every other
  buffer as it was. Every weakly fair execution terminates without a fault, and at the end every unscoped buffer holds
  its `W4` contents; the nine inputs among them hold what they were launched with.
-/
import proofs.«426677_j49392123904592_3_alg».proof.Proof.KIFrame0
import proofs.«426677_j49392123904592_3_alg».proof.Proof.KIFrame1

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first stretch of host operations: what the matrix-product launch is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the matrix-product launch: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations: what the pooling launch is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the pooling launch. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The inputs at every boundary: no host operation writes one and no launch changes one -/

set_option maxHeartbeats 2000000 in
/-- Input 0 after the first stretch of host operations: none of them writes it. -/
theorem W1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
/-- Input 0 after the matrix-product launch. -/
theorem W2_main_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_main_arg0 m ρ c)
set_option maxHeartbeats 2000000 in
/-- Input 0 after the second stretch of host operations. -/
theorem W3_main_arg0 (c : Dev nD) : W3 m ρ c (Proc.devRef .tc main_arg0) = m ((c : Thread nD τ).loc main_arg0) :=
  (StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg0 m ρ c)
/-- Input 0 ends as launched. -/
theorem W4_main_arg0 (c : Dev nD) : W4 m ρ c (Proc.devRef .tc main_arg0) = m ((c : Thread nD τ).loc main_arg0) :=
  (W4_of_ne m ρ c main_arg0 (by decide)).trans (W3_main_arg0 m ρ c)

set_option maxHeartbeats 2000000 in
/-- Input 1 after the first stretch of host operations: none of them writes it. -/
theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
/-- Input 1 after the matrix-product launch. -/
theorem W2_main_arg1 (c : Dev nD) : W2 m ρ c (Proc.devRef .tc main_arg1) = m ((c : Thread nD τ).loc main_arg1) :=
  (W2_of_ne m ρ c main_arg1 (by decide)).trans (W1_main_arg1 m ρ c)
set_option maxHeartbeats 2000000 in
/-- Input 1 after the second stretch of host operations. -/
theorem W3_main_arg1 (c : Dev nD) : W3 m ρ c (Proc.devRef .tc main_arg1) = m ((c : Thread nD τ).loc main_arg1) :=
  (StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg1 m ρ c)
/-- Input 1 ends as launched. -/
theorem W4_main_arg1 (c : Dev nD) : W4 m ρ c (Proc.devRef .tc main_arg1) = m ((c : Thread nD τ).loc main_arg1) :=
  (W4_of_ne m ρ c main_arg1 (by decide)).trans (W3_main_arg1 m ρ c)

set_option maxHeartbeats 2000000 in
/-- Input 2 after the first stretch of host operations: none of them writes it. -/
theorem W1_main_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
/-- Input 2 after the matrix-product launch. -/
theorem W2_main_arg2 (c : Dev nD) : W2 m ρ c (Proc.devRef .tc main_arg2) = m ((c : Thread nD τ).loc main_arg2) :=
  (W2_of_ne m ρ c main_arg2 (by decide)).trans (W1_main_arg2 m ρ c)
set_option maxHeartbeats 2000000 in
/-- Input 2 after the second stretch of host operations. -/
theorem W3_main_arg2 (c : Dev nD) : W3 m ρ c (Proc.devRef .tc main_arg2) = m ((c : Thread nD τ).loc main_arg2) :=
  (StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg2 m ρ c)
/-- Input 2 ends as launched. -/
theorem W4_main_arg2 (c : Dev nD) : W4 m ρ c (Proc.devRef .tc main_arg2) = m ((c : Thread nD τ).loc main_arg2) :=
  (W4_of_ne m ρ c main_arg2 (by decide)).trans (W3_main_arg2 m ρ c)

set_option maxHeartbeats 2000000 in
/-- Input 3 after the first stretch of host operations: none of them writes it. -/
theorem W1_main_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
/-- Input 3 after the matrix-product launch. -/
theorem W2_main_arg3 (c : Dev nD) : W2 m ρ c (Proc.devRef .tc main_arg3) = m ((c : Thread nD τ).loc main_arg3) :=
  ((W2_arr m ρ c 1).trans (((dat0 (V1 m ρ) c).arrAt_in 1 rfl _).trans (A_eq0 (V1 m ρ) c 1))).trans (W1_main_arg3 m ρ c)
set_option maxHeartbeats 2000000 in
/-- Input 3 after the second stretch of host operations. -/
theorem W3_main_arg3 (c : Dev nD) : W3 m ρ c (Proc.devRef .tc main_arg3) = m ((c : Thread nD τ).loc main_arg3) :=
  (StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg3 m ρ c)
/-- Input 3 ends as launched. -/
theorem W4_main_arg3 (c : Dev nD) : W4 m ρ c (Proc.devRef .tc main_arg3) = m ((c : Thread nD τ).loc main_arg3) :=
  (W4_of_ne m ρ c main_arg3 (by decide)).trans (W3_main_arg3 m ρ c)

set_option maxHeartbeats 2000000 in
/-- Input 4 after the first stretch of host operations: none of them writes it. -/
theorem W1_main_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
/-- Input 4 after the matrix-product launch. -/
theorem W2_main_arg4 (c : Dev nD) : W2 m ρ c (Proc.devRef .tc main_arg4) = m ((c : Thread nD τ).loc main_arg4) :=
  (W2_of_ne m ρ c main_arg4 (by decide)).trans (W1_main_arg4 m ρ c)
set_option maxHeartbeats 2000000 in
/-- Input 4 after the second stretch of host operations. -/
theorem W3_main_arg4 (c : Dev nD) : W3 m ρ c (Proc.devRef .tc main_arg4) = m ((c : Thread nD τ).loc main_arg4) :=
  (StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg4 m ρ c)
/-- Input 4 ends as launched. -/
theorem W4_main_arg4 (c : Dev nD) : W4 m ρ c (Proc.devRef .tc main_arg4) = m ((c : Thread nD τ).loc main_arg4) :=
  ((W4_arr m ρ c 3).trans (((dat1 (V3 m ρ) c).arrAt_in 3 rfl _).trans (A_eq1 (V3 m ρ) c 3))).trans (W3_main_arg4 m ρ c)

set_option maxHeartbeats 2000000 in
/-- Input 5 after the first stretch of host operations: none of them writes it. -/
theorem W1_main_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
/-- Input 5 after the matrix-product launch. -/
theorem W2_main_arg5 (c : Dev nD) : W2 m ρ c (Proc.devRef .tc main_arg5) = m ((c : Thread nD τ).loc main_arg5) :=
  (W2_of_ne m ρ c main_arg5 (by decide)).trans (W1_main_arg5 m ρ c)
set_option maxHeartbeats 2000000 in
/-- Input 5 after the second stretch of host operations. -/
theorem W3_main_arg5 (c : Dev nD) : W3 m ρ c (Proc.devRef .tc main_arg5) = m ((c : Thread nD τ).loc main_arg5) :=
  (StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg5 m ρ c)
/-- Input 5 ends as launched. -/
theorem W4_main_arg5 (c : Dev nD) : W4 m ρ c (Proc.devRef .tc main_arg5) = m ((c : Thread nD τ).loc main_arg5) :=
  ((W4_arr m ρ c 6).trans (((dat1 (V3 m ρ) c).arrAt_in 6 rfl _).trans (A_eq1 (V3 m ρ) c 6))).trans (W3_main_arg5 m ρ c)

set_option maxHeartbeats 2000000 in
/-- Input 6 after the first stretch of host operations: none of them writes it. -/
theorem W1_main_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
/-- Input 6 after the matrix-product launch. -/
theorem W2_main_arg6 (c : Dev nD) : W2 m ρ c (Proc.devRef .tc main_arg6) = m ((c : Thread nD τ).loc main_arg6) :=
  (W2_of_ne m ρ c main_arg6 (by decide)).trans (W1_main_arg6 m ρ c)
set_option maxHeartbeats 2000000 in
/-- Input 6 after the second stretch of host operations. -/
theorem W3_main_arg6 (c : Dev nD) : W3 m ρ c (Proc.devRef .tc main_arg6) = m ((c : Thread nD τ).loc main_arg6) :=
  (StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg6 m ρ c)
/-- Input 6 ends as launched. -/
theorem W4_main_arg6 (c : Dev nD) : W4 m ρ c (Proc.devRef .tc main_arg6) = m ((c : Thread nD τ).loc main_arg6) :=
  ((W4_arr m ρ c 7).trans (((dat1 (V3 m ρ) c).arrAt_in 7 rfl _).trans (A_eq1 (V3 m ρ) c 7))).trans (W3_main_arg6 m ρ c)

set_option maxHeartbeats 2000000 in
/-- Input 7 after the first stretch of host operations: none of them writes it. -/
theorem W1_main_arg7 (c : Dev nD) : W1 m ρ c (Proc.devRef .tc main_arg7) = m ((c : Thread nD τ).loc main_arg7) :=
  (StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
/-- Input 7 after the matrix-product launch. -/
theorem W2_main_arg7 (c : Dev nD) : W2 m ρ c (Proc.devRef .tc main_arg7) = m ((c : Thread nD τ).loc main_arg7) :=
  (W2_of_ne m ρ c main_arg7 (by decide)).trans (W1_main_arg7 m ρ c)
set_option maxHeartbeats 2000000 in
/-- Input 7 after the second stretch of host operations. -/
theorem W3_main_arg7 (c : Dev nD) : W3 m ρ c (Proc.devRef .tc main_arg7) = m ((c : Thread nD τ).loc main_arg7) :=
  (StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg7 m ρ c)
/-- Input 7 ends as launched. -/
theorem W4_main_arg7 (c : Dev nD) : W4 m ρ c (Proc.devRef .tc main_arg7) = m ((c : Thread nD τ).loc main_arg7) :=
  ((W4_arr m ρ c 8).trans (((dat1 (V3 m ρ) c).arrAt_in 8 rfl _).trans (A_eq1 (V3 m ρ) c 8))).trans (W3_main_arg7 m ρ c)

set_option maxHeartbeats 2000000 in
/-- Input 8 after the first stretch of host operations: none of them writes it. -/
theorem W1_main_arg8 (c : Dev nD) : W1 m ρ c (Proc.devRef .tc main_arg8) = m ((c : Thread nD τ).loc main_arg8) :=
  (StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
/-- Input 8 after the matrix-product launch. -/
theorem W2_main_arg8 (c : Dev nD) : W2 m ρ c (Proc.devRef .tc main_arg8) = m ((c : Thread nD τ).loc main_arg8) :=
  (W2_of_ne m ρ c main_arg8 (by decide)).trans (W1_main_arg8 m ρ c)
set_option maxHeartbeats 2000000 in
/-- Input 8 after the second stretch of host operations. -/
theorem W3_main_arg8 (c : Dev nD) : W3 m ρ c (Proc.devRef .tc main_arg8) = m ((c : Thread nD τ).loc main_arg8) :=
  (StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg8 m ρ c)
/-- Input 8 ends as launched. -/
theorem W4_main_arg8 (c : Dev nD) : W4 m ρ c (Proc.devRef .tc main_arg8) = m ((c : Thread nD τ).loc main_arg8) :=
  ((W4_arr m ρ c 9).trans (((dat1 (V3 m ρ) c).arrAt_in 9 rfl _).trans (A_eq1 (V3 m ρ) c 9))).trans (W3_main_arg8 m ρ c)

/-! ## The proof data of both launches and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every stretch: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two launches as segments -/

set_option backward.isDefEq.respectTransparency.types false in
/-- Launch 0 over the thread state: entered with every unscoped buffer at `W1`, left with them at `W2`. Its arrays
    are split out of the unscoped buffers on entry and put back at their final contents on exit; the generator register
    goes into the launch's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine ((show (pdats m ρ 0 c).Φ (Fin.last _) ⊢ Pipeline.ΦA spec0 c from .rfl)).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered with every unscoped buffer at `W3`, left with them at `W4`. Its arrays
    are split out of the unscoped buffers on entry and put back at their final contents on exit; the generator register
    goes into the launch's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine ((show (pdats m ρ 1 c).Φ (Fin.last _) ⊢ Pipeline.ΦA spec1 c from hout1 (V3 m ρ) c)).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution terminates, nothing faulting, and every
    unscoped buffer of every core ends at its `W4` contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the nine inputs end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c)⟩) (run_all m ρ)

end Cert.KernelIdeal.Frame

end
-- ==== Proof.Spec.lean ====
/-
  A graph convolution with symmetric normalisation, followed by the mean of the node features over each graph and a
  two-layer classifier, as ONE function of the inputs on the extended reals.

  Nodes are numbered below 100000, edges below 3200000, graphs below 1024. An edge `k` has a source word and a
  destination word (the two rows of the edge array). A word used to READ a row is first wrapped (a negative word has
  100000 added) and then clamped into range: `rowOf`. A word used to ADD INTO a row is read signed and contributes
  only where it equals the row's number: an out-of-range word adds nowhere.

    deg i      = (number of edges whose destination word is i) + 1                 (the 1 is the node's own loop)
    dinv i     = 1 / sqrt (max (deg i) 1)
    feat i b   = sum over k of x[i, k] * Wg[k, b]
    conv i b   = max ( sum over edges k into i of feat (rowOf src k) b * (dinv (rowOf src k) * dinv (rowOf dst k))
                       + feat i b * (dinv i * dinv i) + bg[b] , 0 )
    pooled g b = (sum of conv i b over the nodes i whose graph word is g) / max (number of such nodes) 1
    hidden g j = max ( sum over b of pooled g b * W1[b, j] + b1[j] , 0 )
    out g c    = sum over j of hidden g j * W2[j, c] + b2[c]
-/
import Idealize.ShloMosaic.Lib.ValueIdx
import Idealize.ShloMosaic.PureOps.Ideal.Laws

noncomputable section

open scoped BigOperators

namespace Cert.GraphPool

open Idealize.ShloMosaic Idealize.ShloMosaic.ValueIdx

/-! ## Shapes of the nine inputs and of the result -/

abbrev ShX : Shape := ⟨2, ![100000, 128]⟩
abbrev ShEdges : Shape := ⟨2, ![2, 3200000]⟩
abbrev ShGraphOf : Shape := ⟨1, ![100000]⟩
abbrev ShWg : Shape := ⟨2, ![128, 64]⟩
abbrev ShBg : Shape := ⟨1, ![64]⟩
abbrev ShW1 : Shape := ⟨2, ![64, 32]⟩
abbrev ShB1 : Shape := ⟨1, ![32]⟩
abbrev ShW2 : Shape := ⟨2, ![32, 4]⟩
abbrev ShB2 : Shape := ⟨1, ![4]⟩
abbrev ShOut : Shape := ⟨2, ![1024, 4]⟩

/-- The nine inputs: node features, the edge array (row 0 the source words, row 1 the destination words), each
    node's graph word, and the three layers' weights and biases. -/
structure Inputs where
  x : FVec Ideal ShX .f32
  edges : IVec ShEdges 32
  graphOf : IVec ShGraphOf 32
  Wg : FVec Ideal ShWg .f32
  bg : FVec Ideal ShBg .f32
  W1 : FVec Ideal ShW1 .f32
  b1 : FVec Ideal ShB1 .f32
  W2 : FVec Ideal ShW2 .f32
  b2 : FVec Ideal ShB2 .f32

/-- The float word of 1.0, kept as a word: both programs use the same one, so it is never evaluated. -/
abbrev one : EReal := Ideal.ofBits .f32 0x3F800000#32

/-- A word as a row to read: a negative word has 100000 added (two's complement, as the programs compute it). -/
def wrapWord (v : BitVec 32) : BitVec 32 :=
  Scalar.select (IntOp.cmpi .slt v 0#32) (IntOp.addi v 100000#32) v

/-- The row a read at word `v` returns: the wrapped word, read signed and clamped into [0, 99999]. -/
def rowOf (v : BitVec 32) : Fin 100000 :=
  ⟨min (wrapWord v).toInt.toNat (100000 - 1), by omega⟩

variable (I : Inputs)

/-- Edge `k`'s source word and destination word. -/
def srcWord (k : Fin 3200000) : BitVec 32 := I.edges (ix2 (0 : Fin 2) k)
def dstWord (k : Fin 3200000) : BitVec 32 := I.edges (ix2 (1 : Fin 2) k)

/-- The edges whose destination word, read signed, is node `i`. -/
def edgesInto (i : Fin 100000) : Finset (Fin 3200000) :=
  Finset.univ.filter fun k => (dstWord I k).toInt = (i.val : Int)

/-- The nodes whose graph word, read signed, is graph `g`. -/
def nodesOf (g : Fin 1024) : Finset (Fin 100000) :=
  Finset.univ.filter fun i => (I.graphOf (ix1 i)).toInt = (g.val : Int)

/-- A node's degree: its incoming edges and its own loop. -/
def deg (i : Fin 100000) : EReal := (∑ _k ∈ edgesInto I i, one) + one

/-- The normalising factor of a node. -/
def dinv (i : Fin 100000) : EReal := Ideal.rsqrt (max (deg I i) one)

/-- The transformed features: the input features times the convolution's weights. -/
def feat (i : Fin 100000) (b : Fin 64) : EReal := ∑ k : Fin 128, I.x (ix2 i k) * I.Wg (ix2 k b)

/-- An edge's weight: the product of its two ends' factors. -/
def edgeWeight (k : Fin 3200000) : EReal := dinv I (rowOf (srcWord I k)) * dinv I (rowOf (dstWord I k))

/-- What the edges into node `i` bring. -/
def gathered (i : Fin 100000) (b : Fin 64) : EReal :=
  ∑ k ∈ edgesInto I i, feat I (rowOf (srcWord I k)) b * edgeWeight I k

/-- The convolution's output at a node, after the bias and the rectifier. -/
def conv (i : Fin 100000) (b : Fin 64) : EReal :=
  max ((gathered I i b + feat I i b * (dinv I i * dinv I i)) + I.bg (ix1 b)) 0

/-- The sum of a graph's node outputs, and the number of its nodes. -/
def poolSum (g : Fin 1024) (b : Fin 64) : EReal := ∑ i ∈ nodesOf I g, conv I i b
def poolCount (g : Fin 1024) : EReal := ∑ _i ∈ nodesOf I g, one

/-- The mean over a graph's nodes (an empty graph divides by 1). -/
def pooled (g : Fin 1024) (b : Fin 64) : EReal := Ideal.div (poolSum I g b) (max (poolCount I g) one)

/-- The classifier's hidden layer and its output. -/
def hidden (g : Fin 1024) (j : Fin 32) : EReal := max ((∑ b : Fin 64, pooled I g b * I.W1 (ix2 b j)) + I.b1 (ix1 j)) 0
def out (g : Fin 1024) (c : Fin 4) : EReal := (∑ j : Fin 32, hidden I g j * I.W2 (ix2 j c)) + I.b2 (ix1 c)

/-- THE RESULT: the [1024, 4] array of class scores. -/
def result : FVec Ideal ShOut .f32 := fun y => out I (y 0) (y 1)

theorem result_apply (g : Fin 1024) (c : Fin 4) : result I (ix2 g c) = out I g c := rfl

end Cert.GraphPool

end
-- ==== Proof.KIArgs.lean ====
/-
  The nine inputs of the kernel's program as the specification's inputs, and that each input's buffer holds them at
  every boundary of the run.
-/
import proofs.«426677_j49392123904592_3_alg».proof.Proof.KIRun
import proofs.«426677_j49392123904592_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.PoolValue

open Cert.KernelIdeal Cert.KernelIdeal.Gen Cert.KernelIdeal.Frame Cert.GraphPool
open Idealize.ShloMosaic Idealize.ShloMosaic.TcCoe Idealize.ShloMosaic.ValueIdx Idealize.SL.Sem

variable (m : (ℓ : Loc nD τ sig) → Buf (Elt Ideal) ℓ) (ρ : Dev nD → PrngReg)

/-- The launch memory's nine argument arrays on core `c` as the specification's inputs. -/
abbrev argsOf (c : Dev nD) : Inputs :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5),
   m ((c.tc : Thread nD τ).loc main_arg6), m ((c.tc : Thread nD τ).loc main_arg7), m ((c.tc : Thread nD τ).loc main_arg8)⟩

/-! Each input at the entry of the matrix-product launch (`V1`), after it (`V2`) and at the entry of the pooling launch (`V3`). -/
theorem V1_arg0 (c : Dev nD) : V1 (F := Ideal) m ρ c main_arg0 = (argsOf m c).x := W1_main_arg0 m ρ c
theorem V2_arg0 (c : Dev nD) : V2 (F := Ideal) m ρ c main_arg0 = (argsOf m c).x := W2_main_arg0 m ρ c
theorem V3_arg0 (c : Dev nD) : V3 (F := Ideal) m ρ c main_arg0 = (argsOf m c).x := W3_main_arg0 m ρ c
theorem V1_arg1 (c : Dev nD) : V1 (F := Ideal) m ρ c main_arg1 = (argsOf m c).edges := W1_main_arg1 m ρ c
theorem V2_arg1 (c : Dev nD) : V2 (F := Ideal) m ρ c main_arg1 = (argsOf m c).edges := W2_main_arg1 m ρ c
theorem V3_arg1 (c : Dev nD) : V3 (F := Ideal) m ρ c main_arg1 = (argsOf m c).edges := W3_main_arg1 m ρ c
theorem V1_arg2 (c : Dev nD) : V1 (F := Ideal) m ρ c main_arg2 = (argsOf m c).graphOf := W1_main_arg2 m ρ c
theorem V2_arg2 (c : Dev nD) : V2 (F := Ideal) m ρ c main_arg2 = (argsOf m c).graphOf := W2_main_arg2 m ρ c
theorem V3_arg2 (c : Dev nD) : V3 (F := Ideal) m ρ c main_arg2 = (argsOf m c).graphOf := W3_main_arg2 m ρ c
theorem V1_arg3 (c : Dev nD) : V1 (F := Ideal) m ρ c main_arg3 = (argsOf m c).Wg := W1_main_arg3 m ρ c
theorem V2_arg3 (c : Dev nD) : V2 (F := Ideal) m ρ c main_arg3 = (argsOf m c).Wg := W2_main_arg3 m ρ c
theorem V3_arg3 (c : Dev nD) : V3 (F := Ideal) m ρ c main_arg3 = (argsOf m c).Wg := W3_main_arg3 m ρ c
theorem V1_arg4 (c : Dev nD) : V1 (F := Ideal) m ρ c main_arg4 = (argsOf m c).bg := W1_main_arg4 m ρ c
theorem V2_arg4 (c : Dev nD) : V2 (F := Ideal) m ρ c main_arg4 = (argsOf m c).bg := W2_main_arg4 m ρ c
theorem V3_arg4 (c : Dev nD) : V3 (F := Ideal) m ρ c main_arg4 = (argsOf m c).bg := W3_main_arg4 m ρ c
theorem V1_arg5 (c : Dev nD) : V1 (F := Ideal) m ρ c main_arg5 = (argsOf m c).W1 := W1_main_arg5 m ρ c
theorem V2_arg5 (c : Dev nD) : V2 (F := Ideal) m ρ c main_arg5 = (argsOf m c).W1 := W2_main_arg5 m ρ c
theorem V3_arg5 (c : Dev nD) : V3 (F := Ideal) m ρ c main_arg5 = (argsOf m c).W1 := W3_main_arg5 m ρ c
theorem V1_arg6 (c : Dev nD) : V1 (F := Ideal) m ρ c main_arg6 = (argsOf m c).b1 := W1_main_arg6 m ρ c
theorem V2_arg6 (c : Dev nD) : V2 (F := Ideal) m ρ c main_arg6 = (argsOf m c).b1 := W2_main_arg6 m ρ c
theorem V3_arg6 (c : Dev nD) : V3 (F := Ideal) m ρ c main_arg6 = (argsOf m c).b1 := W3_main_arg6 m ρ c
theorem V1_arg7 (c : Dev nD) : V1 (F := Ideal) m ρ c main_arg7 = (argsOf m c).W2 := W1_main_arg7 m ρ c
theorem V2_arg7 (c : Dev nD) : V2 (F := Ideal) m ρ c main_arg7 = (argsOf m c).W2 := W2_main_arg7 m ρ c
theorem V3_arg7 (c : Dev nD) : V3 (F := Ideal) m ρ c main_arg7 = (argsOf m c).W2 := W3_main_arg7 m ρ c
theorem V1_arg8 (c : Dev nD) : V1 (F := Ideal) m ρ c main_arg8 = (argsOf m c).b2 := W1_main_arg8 m ρ c
theorem V2_arg8 (c : Dev nD) : V2 (F := Ideal) m ρ c main_arg8 = (argsOf m c).b2 := W2_main_arg8 m ρ c
theorem V3_arg8 (c : Dev nD) : V3 (F := Ideal) m ρ c main_arg8 = (argsOf m c).b2 := W3_main_arg8 m ρ c

end Cert.KernelIdeal.PoolValue

end
-- ==== Proof.LibScatterRead.lean ====
/-
  The two accumulating scatters and the row gather of a sparse-times-dense product, read at an index on the extended
  reals.

  An accumulating scatter leaves, at every element of its operand, that element plus the sum of the updates that land
  on it; an update lands where its start index, read signed and not clamped, plus its window coordinate says, and is
  dropped when that is outside the operand. Two layouts occur here. CELLS: the operand is a matrix [R, C], the start
  indices are pairs (row, column) in an array [N, 2], and update `k` of a vector [N] lands on the cell its pair names.
  ROWS: the operand is [R, B], the start indices a column [N, 1] of rows, and the updates an array [N, B] whose row
  `k` lands, entry by entry, on the operand row its start index names. The gather is the inverse reading: an operand
  [S, B] at a column [N, 1] of start indices gives [N, B], row `k` the operand's row at the start index, read signed
  and clamped into [0, S - 1].
-/
import Idealize.ShloMosaic.Lib.ValueIdx

noncomputable section

open scoped BigOperators

namespace Cert.SparseMM

open Idealize.ShloMosaic Idealize.ShloMosaic.ValueIdx

/-! ## Where an update lands, for any dimension numbers -/

/-- An update index lands on operand index `i` exactly when on every axis its start plus its window coordinate is
    `i`'s coordinate: inside the operand the landing index is those sums, and outside it there is none. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have e' := congrFun (Option.some.inj e) a
      rw [← e']
      exact (Int.toNat_of_nonneg (h a).1).symm
    · intro e
      refine congrArg some (funext fun a => Fin.ext ?_)
      show (d.start j idx a + (d.window j a : Int)).toNat = (i a).val
      rw [e a]
      exact Int.toNat_natCast _
  · rename_i h
    constructor
    · intro e
      cases e
    · intro e
      refine absurd (fun a => ?_) h
      rw [e a]
      exact ⟨Int.natCast_nonneg _, by exact_mod_cast (i a).isLt⟩

/-- A vector's indices are its positions. -/
def idxEquiv1 {n : Nat} : (⟨1, ![n]⟩ : Shape).Idx ≃ Fin n where
  toFun i := i 0
  invFun k := ix1 k
  left_inv i := (eq_ix1 i).symm
  right_inv _ := rfl

/-! ## Cells: pairs (row, column) name the cell each update lands on -/

section Cells

/-- The dimension numbers of the scatter onto cells: no window axes, both operand axes inserted and named, in order,
    by the two entries of a start index, the index vector along axis 1. -/
abbrev cellDims (R C N : Nat) (wf : ScatterDims.WF ⟨2, ![R, C]⟩ ⟨2, ![N, 2]⟩ ⟨1, ![N]⟩ [] [0, 1] [0, 1] 1) :
    ScatterDims ⟨2, ![R, C]⟩ ⟨2, ![N, 2]⟩ ⟨1, ![N]⟩ where
  updateWindowDims := []
  insertedWindowDims := [0, 1]
  scatterDimsToOperandDims := [0, 1]
  indexVectorDim := 1
  wf := wf

variable {R C N w : Nat} (wf : ScatterDims.WF ⟨2, ![R, C]⟩ ⟨2, ![N, 2]⟩ ⟨1, ![N]⟩ [] [0, 1] [0, 1] 1)

/-- On the row axis update `k` starts at the first entry of its pair. -/
theorem cell_start0 (idx : IVec ⟨2, ![N, 2]⟩ w) (k : Fin N) :
    (cellDims R C N wf).start (ix1 k) idx 0 = (idx (ix2 k 0)).toInt := by
  unfold ScatterDims.start
  rw [dif_pos (show (0 : Fin 2) ∈ ([0, 1] : List (Fin 2)) by decide)]
  have hsi : (cellDims R C N wf).siIdx (ix1 k) ⟨List.idxOf (0 : Fin 2) (cellDims R C N wf).scatterDimsToOperandDims,
      List.idxOf_lt_length_iff.2 (show (0 : Fin 2) ∈ ([0, 1] : List (Fin 2)) by decide)⟩ = ix2 k 0 := by
    funext b; refine Fin.ext ?_
    match b with
    | ⟨0, _⟩ => rfl
    | ⟨1, _⟩ => rfl
  rw [hsi]

/-- On the column axis it starts at the second entry. -/
theorem cell_start1 (idx : IVec ⟨2, ![N, 2]⟩ w) (k : Fin N) :
    (cellDims R C N wf).start (ix1 k) idx 1 = (idx (ix2 k 1)).toInt := by
  unfold ScatterDims.start
  rw [dif_pos (show (1 : Fin 2) ∈ ([0, 1] : List (Fin 2)) by decide)]
  have hsi : (cellDims R C N wf).siIdx (ix1 k) ⟨List.idxOf (1 : Fin 2) (cellDims R C N wf).scatterDimsToOperandDims,
      List.idxOf_lt_length_iff.2 (show (1 : Fin 2) ∈ ([0, 1] : List (Fin 2)) by decide)⟩ = ix2 k 1 := by
    funext b; refine Fin.ext ?_
    match b with
    | ⟨0, _⟩ => rfl
    | ⟨1, _⟩ => rfl
  rw [hsi]

/-- There is no window: both operand axes are inserted. -/
theorem cell_window (j : (⟨1, ![N]⟩ : Shape).Idx) (a : Fin 2) : (cellDims R C N wf).window j a = 0 := by
  unfold ScatterDims.window
  refine dif_neg ?_
  show ¬ (a ∈ ((List.finRange 2).filter (· ∉ ([0, 1] : List (Fin 2)))))
  revert a
  decide

/-- Update `k` lands on cell (r, c) exactly when its pair, read signed, is (r, c). -/
theorem cell_lands_iff (idx : IVec ⟨2, ![N, 2]⟩ w) (k : Fin N) (r : Fin R) (c : Fin C) :
    (cellDims R C N wf).resultIdx? (ix1 k) idx = some (ix2 r c) ↔
      (idx (ix2 k 0)).toInt = (r.val : Int) ∧ (idx (ix2 k 1)).toInt = (c.val : Int) := by
  rw [resultIdx?_eq_some_iff]
  constructor
  · intro h
    have h0 := h 0
    have h1 := h 1
    rw [cell_start0, cell_window, Nat.cast_zero, add_zero] at h0
    rw [cell_start1, cell_window, Nat.cast_zero, add_zero] at h1
    exact ⟨h0, h1⟩
  · intro h a
    match a with
    | ⟨0, _⟩ =>
      show (cellDims R C N wf).start (ix1 k) idx 0 + ((cellDims R C N wf).window (ix1 k) 0 : Int) = (r.val : Int)
      rw [cell_start0, cell_window, Nat.cast_zero, add_zero]; exact h.1
    | ⟨1, _⟩ =>
      show (cellDims R C N wf).start (ix1 k) idx 1 + ((cellDims R C N wf).window (ix1 k) 1 : Int) = (c.val : Int)
      rw [cell_start1, cell_window, Nat.cast_zero, add_zero]; exact h.2

/-- THE SCATTER ONTO CELLS READ AT (r, c): the operand's cell plus the sum of the updates whose pair is (r, c). -/
theorem scatterAdd_cells_apply {φ : FTy} (x : FVec Ideal ⟨2, ![R, C]⟩ φ) (idx : IVec ⟨2, ![N, 2]⟩ w)
    (upd : FVec Ideal ⟨1, ![N]⟩ φ) (r : Fin R) (c : Fin C) :
    Host.scatterAdd (cellDims R C N wf) x idx upd (ix2 r c)
      = x (ix2 r c) + ∑ k ∈ Finset.univ.filter (fun k : Fin N =>
          (idx (ix2 k 0)).toInt = (r.val : Int) ∧ (idx (ix2 k 1)).toInt = (c.val : Int)), upd (ix1 k) := by
  show Ideal.hostScatterAdd (cellDims R C N wf) x idx upd (ix2 r c) = _
  unfold Ideal.hostScatterAdd
  refine congrArg (x (ix2 r c) + ·) ?_
  refine Finset.sum_equiv idxEquiv1 (fun j => ?_) (fun j _ => congrArg upd (eq_ix1 j))
  rw [Finset.mem_filter, Finset.mem_filter]
  refine and_congr (by simp) ?_
  rw [eq_ix1 j]
  exact cell_lands_iff wf idx (j 0) r c

end Cells

/-! ## Rows: a column of row numbers names the operand row each update row lands on -/

section Rows

/-- The dimension numbers of the scatter onto rows: the updates' axis 1 is the window, the operand's axis 0 is inserted
    and named by the one entry of a start index, the index vector along axis 1. -/
abbrev rowDims (R B N : Nat) (wf : ScatterDims.WF ⟨2, ![R, B]⟩ ⟨2, ![N, 1]⟩ ⟨2, ![N, B]⟩ [1] [0] [0] 1) :
    ScatterDims ⟨2, ![R, B]⟩ ⟨2, ![N, 1]⟩ ⟨2, ![N, B]⟩ where
  updateWindowDims := [1]
  insertedWindowDims := [0]
  scatterDimsToOperandDims := [0]
  indexVectorDim := 1
  wf := wf

variable {R B N w : Nat} (wf : ScatterDims.WF ⟨2, ![R, B]⟩ ⟨2, ![N, 1]⟩ ⟨2, ![N, B]⟩ [1] [0] [0] 1)

/-- On the row axis update (k, b) starts at entry `k` of the column of row numbers. -/
theorem row_start0 (idx : IVec ⟨2, ![N, 1]⟩ w) (k : Fin N) (b : Fin B) :
    (rowDims R B N wf).start (ix2 k b) idx 0 = (idx (ix2 k 0)).toInt := by
  unfold ScatterDims.start
  rw [dif_pos (show (0 : Fin 2) ∈ ([0] : List (Fin 2)) by decide)]
  have hsi : (rowDims R B N wf).siIdx (ix2 k b) ⟨List.idxOf (0 : Fin 2) (rowDims R B N wf).scatterDimsToOperandDims,
      List.idxOf_lt_length_iff.2 (show (0 : Fin 2) ∈ ([0] : List (Fin 2)) by decide)⟩ = ix2 k 0 := by
    funext a; refine Fin.ext ?_
    match a with
    | ⟨0, _⟩ => rfl
    | ⟨1, _⟩ => rfl
  rw [hsi]

/-- On the other axis it starts at zero: no entry names it. -/
theorem row_start1 (idx : IVec ⟨2, ![N, 1]⟩ w) (j : (⟨2, ![N, B]⟩ : Shape).Idx) :
    (rowDims R B N wf).start j idx 1 = 0 := by
  unfold ScatterDims.start
  exact dif_neg (show ¬ ((1 : Fin 2) ∈ ([0] : List (Fin 2))) by decide)

/-- The row axis is inserted: no window coordinate there. -/
theorem row_window0 (j : (⟨2, ![N, B]⟩ : Shape).Idx) : (rowDims R B N wf).window j 0 = 0 := by
  unfold ScatterDims.window
  exact dif_neg (show ¬ ((0 : Fin 2) ∈ ((List.finRange 2).filter (· ∉ ([0] : List (Fin 2))))) by decide)

/-- On the other axis the window coordinate is the update's own. -/
theorem row_window1 (k : Fin N) (b : Fin B) : (rowDims R B N wf).window (ix2 k b) 1 = b.val := by
  unfold ScatterDims.window
  have h1 : (1 : Fin 2) ∈ (rowDims R B N wf).sKept :=
    show (1 : Fin 2) ∈ ((List.finRange 2).filter (· ∉ ([0] : List (Fin 2)))) by decide
  rw [dif_pos h1]
  rfl

/-- Update (k, b') lands on (r, b) exactly when entry `k` of the row numbers, read signed, is `r`, and b' is b. -/
theorem row_lands_iff (idx : IVec ⟨2, ![N, 1]⟩ w) (k : Fin N) (b' : Fin B) (r : Fin R) (b : Fin B) :
    (rowDims R B N wf).resultIdx? (ix2 k b') idx = some (ix2 r b) ↔
      (idx (ix2 k 0)).toInt = (r.val : Int) ∧ b' = b := by
  rw [resultIdx?_eq_some_iff]
  constructor
  · intro h
    have h0 := h 0
    have h1 := h 1
    rw [row_start0, row_window0, Nat.cast_zero, add_zero] at h0
    rw [row_start1, row_window1, zero_add] at h1
    exact ⟨h0, Fin.ext (by exact_mod_cast h1)⟩
  · intro h a
    match a with
    | ⟨0, _⟩ =>
      show (rowDims R B N wf).start (ix2 k b') idx 0 + ((rowDims R B N wf).window (ix2 k b') 0 : Int) = (r.val : Int)
      rw [row_start0, row_window0, Nat.cast_zero, add_zero]; exact h.1
    | ⟨1, _⟩ =>
      show (rowDims R B N wf).start (ix2 k b') idx 1 + ((rowDims R B N wf).window (ix2 k b') 1 : Int) = (b.val : Int)
      rw [row_start1, row_window1, zero_add, h.2]

/-- THE SCATTER ONTO ROWS READ AT (r, b): the operand's entry plus the sum, over the update rows `k` whose row number is
    `r`, of entry `b` of update row `k`. -/
theorem scatterAdd_rows_apply {φ : FTy} (x : FVec Ideal ⟨2, ![R, B]⟩ φ) (idx : IVec ⟨2, ![N, 1]⟩ w)
    (upd : FVec Ideal ⟨2, ![N, B]⟩ φ) (r : Fin R) (b : Fin B) :
    Host.scatterAdd (rowDims R B N wf) x idx upd (ix2 r b)
      = x (ix2 r b) + ∑ k ∈ Finset.univ.filter (fun k : Fin N => (idx (ix2 k 0)).toInt = (r.val : Int)), upd (ix2 k b) := by
  show Ideal.hostScatterAdd (rowDims R B N wf) x idx upd (ix2 r b) = _
  unfold Ideal.hostScatterAdd
  refine congrArg (x (ix2 r b) + ·) ?_
  have lands : ∀ j : (⟨2, ![N, B]⟩ : Shape).Idx, (rowDims R B N wf).resultIdx? j idx = some (ix2 r b) →
      (idx (ix2 (j 0 : Fin N) 0)).toInt = (r.val : Int) ∧ (j 1 : Fin B) = b := by
    intro j hj
    rw [eq_ix2 j] at hj
    exact (row_lands_iff wf idx (j 0) (j 1) r b).mp hj
  refine Finset.sum_bij' (fun j _ => (j 0 : Fin N)) (fun k _ => ix2 k b) ?_ ?_ ?_ ?_ ?_
  · intro j hj
    exact Finset.mem_filter.mpr ⟨Finset.mem_univ _, (lands j (Finset.mem_filter.mp hj).2).1⟩
  · intro k hk
    exact Finset.mem_filter.mpr ⟨Finset.mem_univ _,
      (row_lands_iff wf idx k b r b).mpr ⟨(Finset.mem_filter.mp hk).2, rfl⟩⟩
  · intro j hj
    have hb := (lands j (Finset.mem_filter.mp hj).2).2
    show ix2 (j 0 : Fin N) b = j
    rw [← hb]
    exact (eq_ix2 j).symm
  · intro k _
    rfl
  · intro j hj
    have hb := (lands j (Finset.mem_filter.mp hj).2).2
    show upd j = upd (ix2 (j 0 : Fin N) b)
    rw [← hb]
    exact congrArg upd (eq_ix2 j)

end Rows

/-! ## The row gather -/

section RowGather
variable {α : Type}

/-- The dimension numbers of the row gather for an operand [S, B], start indices [N, 1] and a result [N, B]: the
    result's axis 1 is the offset axis, the operand's axis 0 is collapsed and named by the one entry of a start index,
    slices of shape [1, B]. -/
abbrev rowGatherDims (S B N : Nat)
    (wf : GatherDims.WF ⟨2, ![S, B]⟩ ⟨2, ![N, 1]⟩ ⟨2, ![N, B]⟩ [1] [0] [] [0] [] 1 ![1, B]) :
    GatherDims ⟨2, ![S, B]⟩ ⟨2, ![N, 1]⟩ ⟨2, ![N, B]⟩ where
  offsetDims := [1]
  collapsedSliceDims := [0]
  operandBatchingDims := []
  startIndicesBatchingDims := []
  startIndexMap := [0]
  indexVectorDim := 1
  sliceSizes := ![1, B]
  wf := wf

/-- THE ROW GATHER READ AT (k, b): the operand at the row start index `k` names, read signed and clamped into
    [0, S - 1], and at column `b`. -/
theorem gather_rows_apply {S B N w : Nat} (hS : 0 < S)
    (wf : GatherDims.WF ⟨2, ![S, B]⟩ ⟨2, ![N, 1]⟩ ⟨2, ![N, B]⟩ [1] [0] [] [0] [] 1 ![1, B])
    (x : (⟨2, ![S, B]⟩ : Shape).Idx → α) (idx : IVec ⟨2, ![N, 1]⟩ w) (k : Fin N) (b : Fin B) :
    Host.gather (rowGatherDims S B N wf) x idx (ix2 k b)
      = x (ix2 ⟨min (idx (ix2 k 0)).toInt.toNat (S - 1), by omega⟩ b) := by
  unfold Host.gather
  congr 1
  funext a
  refine Fin.ext ?_
  match a with
  | ⟨0, _⟩ =>
    show (rowGatherDims S B N wf).start (ix2 k b) idx 0 + (rowGatherDims S B N wf).batchCoord (ix2 k b) 0
      + (rowGatherDims S B N wf).offCoord (ix2 k b) 0 = min (idx (ix2 k 0)).toInt.toNat (S - 1)
    rw [GatherDims.batchCoord_eq_zero _ _ _ List.not_mem_nil,
      GatherDims.offCoord_eq_zero _ _ _ (fun h => ((GatherDims.mem_sKept _ _).mp h).1
        (show (0 : Fin 2) ∈ ([0] : List (Fin 2)) by decide))]
    simp only [Nat.add_zero]
    unfold GatherDims.start
    rw [dif_pos (show (0 : Fin 2) ∈ ([0] : List (Fin 2)) by decide)]
    have hsi : (rowGatherDims S B N wf).siIdx (ix2 k b) ⟨List.idxOf (0 : Fin 2) (rowGatherDims S B N wf).startIndexMap,
        List.idxOf_lt_length_iff.2 (show (0 : Fin 2) ∈ ([0] : List (Fin 2)) by decide)⟩ = ix2 k 0 := by
      funext c; refine Fin.ext ?_
      match c with
      | ⟨0, _⟩ => rfl
      | ⟨1, _⟩ => rfl
    rw [hsi]
    rfl
  | ⟨1, _⟩ =>
    show (rowGatherDims S B N wf).start (ix2 k b) idx 1 + (rowGatherDims S B N wf).batchCoord (ix2 k b) 1
      + (rowGatherDims S B N wf).offCoord (ix2 k b) 1 = b.val
    rw [GatherDims.batchCoord_eq_zero _ _ _ List.not_mem_nil]
    unfold GatherDims.start GatherDims.offCoord
    rw [dif_neg (show ¬ ((1 : Fin 2) ∈ ([0] : List (Fin 2))) by decide),
      dif_pos ((GatherDims.mem_sKept _ _).mpr
        ⟨show ¬ ((1 : Fin 2) ∈ ([0] : List (Fin 2))) by decide, List.not_mem_nil⟩)]
    simp only [Nat.add_zero, Nat.zero_add]
    rfl

end RowGather

end Cert.SparseMM

end
-- ==== Proof.LibScatterVec.lean ====
/-
  An accumulating scatter onto a VECTOR and a gather from a vector, read at an index on the extended reals.

  The operand is a vector [R], the start indices a column [N, 1], the updates a vector [N]: update `k` is added to the
  entry its start index names (read signed, not clamped), and is dropped when that is outside the vector. The gather
  is the inverse reading: entry `k` of the result is the operand's entry at start index `k`, read signed and clamped
  into [0, S - 1].
-/
import Idealize.ShloMosaic.Lib.ValueIdx
import proofs.«426677_j49392123904592_3_alg».proof.Proof.LibScatterRead

noncomputable section

open scoped BigOperators

namespace Cert.SparseVec

open Idealize.ShloMosaic Idealize.ShloMosaic.ValueIdx

/-- The dimension numbers of the scatter onto a vector: no window axis, the operand's one axis inserted and named by
    the one entry of a start index, the index vector along axis 1. -/
abbrev vecDims (R N : Nat) (wf : ScatterDims.WF ⟨1, ![R]⟩ ⟨2, ![N, 1]⟩ ⟨1, ![N]⟩ [] [0] [0] 1) :
    ScatterDims ⟨1, ![R]⟩ ⟨2, ![N, 1]⟩ ⟨1, ![N]⟩ where
  updateWindowDims := []
  insertedWindowDims := [0]
  scatterDimsToOperandDims := [0]
  indexVectorDim := 1
  wf := wf

/-- On the vector's one axis update `k` starts at entry `k` of the column of start indices, read signed. -/
theorem vec_start0 {R N w : Nat} (wf : ScatterDims.WF ⟨1, ![R]⟩ ⟨2, ![N, 1]⟩ ⟨1, ![N]⟩ [] [0] [0] 1)
    (idx : IVec ⟨2, ![N, 1]⟩ w) (k : Fin N) :
    (vecDims R N wf).start (ix1 k) idx 0 = (idx (ix2 k 0)).toInt := by
  unfold ScatterDims.start
  rw [dif_pos (show (0 : Fin 1) ∈ ([0] : List (Fin 1)) by decide)]
  have hsi : (vecDims R N wf).siIdx (ix1 k) ⟨List.idxOf (0 : Fin 1) (vecDims R N wf).scatterDimsToOperandDims,
      List.idxOf_lt_length_iff.2 (show (0 : Fin 1) ∈ ([0] : List (Fin 1)) by decide)⟩ = ix2 k 0 := by
    funext b; refine Fin.ext ?_
    match b with
    | ⟨0, _⟩ => rfl
    | ⟨1, _⟩ => rfl
  rw [hsi]

/-- There is no window: the vector's one axis is inserted. -/
theorem vec_window {R N : Nat} (wf : ScatterDims.WF ⟨1, ![R]⟩ ⟨2, ![N, 1]⟩ ⟨1, ![N]⟩ [] [0] [0] 1)
    (j : (⟨1, ![N]⟩ : Shape).Idx) (a : Fin 1) : (vecDims R N wf).window j a = 0 := by
  unfold ScatterDims.window
  refine dif_neg ?_
  show ¬ (a ∈ ((List.finRange 1).filter (· ∉ ([0] : List (Fin 1)))))
  revert a
  decide

/-- Update `k` lands on entry `r` exactly when its start index, read signed, is `r`. -/
theorem vec_lands_iff {R N w : Nat} (wf : ScatterDims.WF ⟨1, ![R]⟩ ⟨2, ![N, 1]⟩ ⟨1, ![N]⟩ [] [0] [0] 1)
    (idx : IVec ⟨2, ![N, 1]⟩ w) (k : Fin N) (r : Fin R) :
    (vecDims R N wf).resultIdx? (ix1 k) idx = some (ix1 r) ↔ (idx (ix2 k 0)).toInt = (r.val : Int) := by
  rw [Cert.SparseMM.resultIdx?_eq_some_iff]
  constructor
  · intro h
    have h0 := h 0
    rw [vec_start0, vec_window, Nat.cast_zero, add_zero] at h0
    exact h0
  · intro h a
    match a with
    | ⟨0, _⟩ =>
      show (vecDims R N wf).start (ix1 k) idx 0 + ((vecDims R N wf).window (ix1 k) 0 : Int) = (r.val : Int)
      rw [vec_start0, vec_window, Nat.cast_zero, add_zero]; exact h

/-- THE SCATTER ONTO A VECTOR READ AT r: the operand's entry plus the sum of the updates whose start index is r. -/
theorem scatterAdd_vec_apply {R N w : Nat} (wf : ScatterDims.WF ⟨1, ![R]⟩ ⟨2, ![N, 1]⟩ ⟨1, ![N]⟩ [] [0] [0] 1) {φ : FTy}
    (x : FVec Ideal ⟨1, ![R]⟩ φ) (idx : IVec ⟨2, ![N, 1]⟩ w) (upd : FVec Ideal ⟨1, ![N]⟩ φ) (r : Fin R) :
    Host.scatterAdd (vecDims R N wf) x idx upd (ix1 r)
      = x (ix1 r) + ∑ k ∈ Finset.univ.filter (fun k : Fin N => (idx (ix2 k 0)).toInt = (r.val : Int)), upd (ix1 k) := by
  show Ideal.hostScatterAdd (vecDims R N wf) x idx upd (ix1 r) = _
  unfold Ideal.hostScatterAdd
  refine congrArg (x (ix1 r) + ·) ?_
  -- the update indices are the positions 0 … N - 1: re-index the sum by them
  refine Finset.sum_equiv Cert.SparseMM.idxEquiv1 (fun j => ?_) (fun j _ => congrArg upd (eq_ix1 j))
  rw [Finset.mem_filter, Finset.mem_filter]
  refine and_congr (by simp) ?_
  rw [eq_ix1 j]
  exact vec_lands_iff wf idx (j 0) r

/-- The dimension numbers of the gather from a vector [S] at start indices [N, 1] into [N]. -/
abbrev vecGatherDims (S N : Nat) (wf : GatherDims.WF ⟨1, ![S]⟩ ⟨2, ![N, 1]⟩ ⟨1, ![N]⟩ [] [0] [] [0] [] 1 ![1]) :
    GatherDims ⟨1, ![S]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

/-- THE GATHER FROM A VECTOR READ AT k: the operand at start index `k`, read signed and clamped into [0, S - 1]. -/
theorem gather_vec_apply {α : Type} {S N w : Nat} (hS : 0 < S)
    (wf : GatherDims.WF ⟨1, ![S]⟩ ⟨2, ![N, 1]⟩ ⟨1, ![N]⟩ [] [0] [] [0] [] 1 ![1])
    (x : (⟨1, ![S]⟩ : Shape).Idx → α) (idx : IVec ⟨2, ![N, 1]⟩ w) (k : Fin N) :
    Host.gather (vecGatherDims S N wf) x idx (ix1 k)
      = x (ix1 ⟨min (idx (ix2 k 0)).toInt.toNat (S - 1), by omega⟩) := by
  unfold Host.gather
  congr 1
  funext a
  refine Fin.ext ?_
  match a with
  | ⟨0, _⟩ =>
    -- the one axis is collapsed and is no batching axis: the operand coordinate is the clamped start alone
    show (vecGatherDims S N wf).start (ix1 k) idx 0 + (vecGatherDims S N wf).batchCoord (ix1 k) 0
      + (vecGatherDims S N wf).offCoord (ix1 k) 0 = min (idx (ix2 k 0)).toInt.toNat (S - 1)
    rw [GatherDims.batchCoord_eq_zero _ _ _ List.not_mem_nil,
      GatherDims.offCoord_eq_zero _ _ _ (fun h => ((GatherDims.mem_sKept _ _).mp h).1
        (show (0 : Fin 1) ∈ ([0] : List (Fin 1)) by decide))]
    simp only [Nat.add_zero]
    unfold GatherDims.start
    rw [dif_pos (show (0 : Fin 1) ∈ ([0] : List (Fin 1)) by decide)]
    have hsi : (vecGatherDims S N wf).siIdx (ix1 k) ⟨List.idxOf (0 : Fin 1) (vecGatherDims S N wf).startIndexMap,
        List.idxOf_lt_length_iff.2 (show (0 : Fin 1) ∈ ([0] : List (Fin 1)) by decide)⟩ = ix2 k 0 := by
      funext c; refine Fin.ext ?_
      match c with
      | ⟨0, _⟩ => rfl
      | ⟨1, _⟩ => rfl
    rw [hsi]
    rfl

end Cert.SparseVec

end
-- ==== Proof.KIHost0.lean ====
/-
  The first stretch of host operations of the kernel's program, read on the extended reals: the two rows of the edge
  array as vectors of words, every node's normalising factor, and every edge's weight.

  The in-degree is an accumulating scatter of ones at the destination words; the degree adds the node's own loop as a
  plain `+ 1`; the factor is the reciprocal square root of the degree (at least 1); an edge's weight is the product of
  the factors read at its wrapped, clamped source and destination words.
-/
import proofs.«426677_j49392123904592_3_alg».proof.Proof.KIArgs
import proofs.«426677_j49392123904592_3_alg».proof.Proof.LibScatterRead
import proofs.«426677_j49392123904592_3_alg».proof.Proof.LibScatterVec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.PoolValue

open Cert.KernelIdeal Cert.KernelIdeal.Gen Cert.KernelIdeal.Frame Cert.GraphPool
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The two rows of the edge array -/

/-- A row of the edge array as a vector of words: the slice that keeps that row, reshaped to a vector. -/
def rowTerm (off : Fin 2 → Nat) (h : S2x3200000.Slices off S1x3200000) (E : IVec S2x3200000 32) : IVec S3200000 32 :=
  shapeCast S3200000 (extractStridedSlice S1x3200000 off E h) shapeCasts_S1x3200000_S3200000

/-- Entry `k` of the vector is the array's entry `(r, k)`, where `r` is the row the slice starts at: the reshape keeps the
    row-major position, and the slice shifts the row coordinate by its offset. -/
theorem rowTerm_apply (off : Fin 2 → Nat) (h : S2x3200000.Slices off S1x3200000) (E : IVec S2x3200000 32)
    (r : Fin 2) (hr0 : off 0 = r.val) (hr1 : off 1 = 0) (k : Fin 3200000) :
    rowTerm off h E (ix1 k) = E (ix2 r k) := by
  unfold rowTerm
  refine (shapeCast_apply _ shapeCasts_S1x3200000_S3200000 (ix1 k) (ix2 (0 : Fin 1) k) ?_).trans ?_
  · rewrite [Shape.rowMajor_val_two, Shape.rowMajor_val_one]
    show 0 * 3200000 + k.val = k.val
    omega
  · refine extractStridedSlice_apply off E h (ix2 (0 : Fin 1) k) (ix2 r k) (fun a => ?_)
    match a with
    | ⟨0, _⟩ => show r.val = off 0 + 0; omega
    | ⟨1, _⟩ => show k.val = off 1 + k.val; omega

set_option maxHeartbeats 4000000 in
/-- The source words: row 0 of the edge array, as a vector. -/
theorem V1_src (c : Dev nD) : (V1 (F := Ideal) m ρ c main_v1 : S3200000.Idx → BitVec 32) = fun j => srcWord (argsOf m c) (j 0) := by
  have e : (V1 (F := Ideal) m ρ c main_v1 : S3200000.Idx → BitVec 32)
      = rowTerm ![0, 0] slices_S2x3200000_S1x3200000_0_0 (argsOf m c).edges := by
    show StableHlo.after hostOps0 _ (Proc.devRef .tc main_v1) = _
    simp only [hostOps0]
    after_results
    rfl
  funext j
  rw [e, eq_ix1 j]
  exact rowTerm_apply ![0, 0] slices_S2x3200000_S1x3200000_0_0 (argsOf m c).edges (0 : Fin 2) rfl rfl (j 0)

set_option maxHeartbeats 4000000 in
/-- The destination words: row 1 of the edge array, as a vector. -/
theorem V1_dst (c : Dev nD) : (V1 (F := Ideal) m ρ c main_v3 : S3200000.Idx → BitVec 32) = fun j => dstWord (argsOf m c) (j 0) := by
  have e : (V1 (F := Ideal) m ρ c main_v3 : S3200000.Idx → BitVec 32)
      = rowTerm ![1, 0] slices_S2x3200000_S1x3200000_1_0 (argsOf m c).edges := by
    show StableHlo.after hostOps0 _ (Proc.devRef .tc main_v3) = _
    simp only [hostOps0]
    after_results
    rfl
  funext j
  rw [e, eq_ix1 j]
  exact rowTerm_apply ![1, 0] slices_S2x3200000_S1x3200000_1_0 (argsOf m c).edges (1 : Fin 2) rfl rfl (j 0)

/-! ## The normalising factors -/

/-- A float word broadcast to every entry of an array reads as that word's value at each index. -/
theorem splat_apply (S : Shape) (h : S_.BroadcastsInDim S (![] : Fin 0 → Fin S.rank)) (w : BitVec 32) (j : S.Idx) :
    (broadcastInDim S ![] h (constant (F := Ideal) S_ .f32 w) : FVec Ideal S .f32) j = Ideal.ofBits .f32 w :=
  broadcastInDim_apply _ h (constant (F := Ideal) S_ .f32 w) j ix0 (fun a => a.elim0)

/-- The host's reciprocal square root, entry by entry. -/
theorem hostRsqrt_apply {s : Shape} (x : FVec Ideal s .f32) (i : s.Idx) : Host.rsqrt (F := Ideal) x i = Ideal.rsqrt (x i) := rfl

/-- A vector of words as a column of start indices. -/
def colTerm {α : Type} (v : S3200000.Idx → α) : S3200000x1.Idx → α :=
  broadcastInDim S3200000x1 ![0] bcast_S3200000_S3200000x1_0 v

/-- Entry `(k, 0)` of the column is entry `k` of the vector. -/
theorem colTerm_apply {α : Type} (v : S3200000.Idx → α) (k : Fin 3200000) : colTerm v (ix2 k (0 : Fin 1)) = v (ix1 k) := by
  unfold colTerm
  exact broadcastInDim_apply _ bcast_S3200000_S3200000x1_0 v (ix2 k (0 : Fin 1)) (ix1 k) (fun a => match a with
    | ⟨0, _⟩ => by show k.val = if (3200000 : Nat) = 1 then 0 else k.val; rw [if_neg (by decide)])

/-- The in-degrees as the program computes them from the vector `d` of destination words: ones scattered onto zeros at
    the column of `d`. -/
def indegTerm (d : IVec S3200000 32) : FVec Ideal S100000 .f32 :=
  Host.scatterAdd (F := Ideal) scatter_S100000_S3200000x1_S3200000_n_0_0_1
    (broadcastInDim S100000 ![] bcast_S_S100000 (constant (F := Ideal) S_ .f32 0x00000000#32))
    (colTerm d)
    (broadcastInDim S3200000 ![] bcast_S_S3200000 (constant (F := Ideal) S_ .f32 0x3F800000#32))

/-- The in-degree of node `i`: zero plus a one for every word of `d` that, read signed, is `i`. -/
theorem indegTerm_apply (d : IVec S3200000 32) (i : Fin 100000) :
    indegTerm d (ix1 i) = ∑ _k ∈ Finset.univ.filter (fun k : Fin 3200000 => (d (ix1 k)).toInt = (i.val : Int)), one := by
  unfold indegTerm
  refine (Cert.SparseVec.scatterAdd_vec_apply (R := 100000) (N := 3200000) scatter_S100000_S3200000x1_S3200000_n_0_0_1_wf
    (broadcastInDim S100000 ![] bcast_S_S100000 (constant (F := Ideal) S_ .f32 0x00000000#32))
    (colTerm d)
    (broadcastInDim S3200000 ![] bcast_S_S3200000 (constant (F := Ideal) S_ .f32 0x3F800000#32)) i).trans ?_
  rw [splat_apply, Ideal.ofBits_zero_f32, zero_add]
  refine Finset.sum_congr (Finset.filter_congr (fun k _ => ?_)) (fun k _ => splat_apply _ _ _ _)
  rw [colTerm_apply]

/-- The factors as the program computes them: the in-degree plus one, the larger of that and one, and its reciprocal
    square root. -/
def dinvTerm (d : IVec S3200000 32) : FVec Ideal S100000 .f32 :=
  Host.rsqrt (F := Ideal) (maximumf (addf (indegTerm d)
    (broadcastInDim S100000 ![] bcast_S_S100000 (constant (F := Ideal) S_ .f32 0x3F800000#32)))
    (broadcastInDim S100000 ![] bcast_S_S100000 (constant (F := Ideal) S_ .f32 0x3F800000#32)))

/-- The factor of node `i`. -/
theorem dinvTerm_apply (d : IVec S3200000 32) (i : Fin 100000) :
    dinvTerm d (ix1 i)
      = Ideal.rsqrt (max ((∑ _k ∈ Finset.univ.filter (fun k : Fin 3200000 => (d (ix1 k)).toInt = (i.val : Int)), one) + one) one) := by
  unfold dinvTerm
  rw [hostRsqrt_apply, maximumf_apply, addf_apply, indegTerm_apply, splat_apply]

/-- Row 1 of the specification's edge array, as the vector the program makes of it, holds the destination words. -/
theorem rowTerm_dst (I : Inputs) (k : Fin 3200000) :
    rowTerm ![1, 0] slices_S2x3200000_S1x3200000_1_0 I.edges (ix1 k) = dstWord I k :=
  rowTerm_apply ![1, 0] slices_S2x3200000_S1x3200000_1_0 I.edges (1 : Fin 2) rfl rfl k

/-- Row 0 holds the source words. -/
theorem rowTerm_src (I : Inputs) (k : Fin 3200000) :
    rowTerm ![0, 0] slices_S2x3200000_S1x3200000_0_0 I.edges (ix1 k) = srcWord I k :=
  rowTerm_apply ![0, 0] slices_S2x3200000_S1x3200000_0_0 I.edges (0 : Fin 2) rfl rfl k

/-- The program's factors, computed from row 1 of the edge array, are the specification's. -/
theorem dinvTerm_dst (I : Inputs) (i : Fin 100000) :
    dinvTerm (rowTerm ![1, 0] slices_S2x3200000_S1x3200000_1_0 I.edges) (ix1 i) = dinv I i := by
  rw [dinvTerm_apply]
  unfold dinv deg edgesInto
  refine congrArg (fun S : Finset (Fin 3200000) => Ideal.rsqrt (max ((∑ _k ∈ S, one) + one) one)) ?_
  refine Finset.filter_congr (fun k _ => ?_)
  rw [rowTerm_dst]

set_option maxHeartbeats 4000000 in
/-- Every node's normalising factor (the program's `%12`). -/
theorem V1_dinv (c : Dev nD) : (V1 (F := Ideal) m ρ c main_v12 : S100000.Idx → EReal) = fun j => dinv (argsOf m c) (j 0) := by
  have e : (V1 (F := Ideal) m ρ c main_v12 : S100000.Idx → EReal)
      = dinvTerm (rowTerm ![1, 0] slices_S2x3200000_S1x3200000_1_0 (argsOf m c).edges) := by
    show StableHlo.after hostOps0 _ (Proc.devRef .tc main_v12) = _
    simp only [hostOps0]
    after_results
    rfl
  funext j
  rw [e, eq_ix1 j]
  exact dinvTerm_dst (argsOf m c) (j 0)

/-! ## The edge weights -/

/-- The words as rows to read: a negative word has 100000 added. -/
def wrapTerm (v : IVec S3200000 32) : IVec S3200000 32 :=
  select (cmpi .slt v (broadcastInDim S3200000 ![] bcast_S_S3200000 (constantI S_ 32 0#32)))
    (addi v (broadcastInDim S3200000 ![] bcast_S_S3200000 (constantI S_ 32 100000#32))) v

/-- Entry `k` is the wrapped word `k`: the comparison, the sum and the choice are all taken entry by entry. -/
theorem wrapTerm_apply (v : IVec S3200000 32) (k : Fin 3200000) : wrapTerm v (ix1 k) = wrapWord (v (ix1 k)) := rfl

/-- The vector `x` read at the wrapped words of `v`, as a column of start indices. -/
def readTerm (x : FVec Ideal S100000 .f32) (v : IVec S3200000 32) : FVec Ideal S3200000 .f32 :=
  Host.gather gather_S100000_S3200000x1_S3200000_n_0_n_n_0_1_1 x (colTerm (wrapTerm v))

/-- Entry `k` is `x` at the row word `k` names: the gather clamps the wrapped word, read signed, into range. -/
theorem readTerm_apply (x : FVec Ideal S100000 .f32) (v : IVec S3200000 32) (k : Fin 3200000) :
    readTerm x v (ix1 k) = x (ix1 (rowOf (v (ix1 k)))) := by
  unfold readTerm
  refine (Cert.SparseVec.gather_vec_apply (S := 100000) (N := 3200000) (by decide)
    gather_S100000_S3200000x1_S3200000_n_0_n_n_0_1_1_wf x (colTerm (wrapTerm v)) k).trans ?_
  refine congrArg (fun a : Fin 100000 => x (ix1 a)) (Fin.ext ?_)
  show min (colTerm (wrapTerm v) (ix2 k (0 : Fin 1))).toInt.toNat (100000 - 1) = min (wrapWord (v (ix1 k))).toInt.toNat (100000 - 1)
  rw [colTerm_apply, wrapTerm_apply]

/-- The weights as the program computes them from the vectors of source and destination words. -/
def weightTerm (s d : IVec S3200000 32) : FVec Ideal S3200000 .f32 :=
  mulf (readTerm (dinvTerm d) s) (readTerm (dinvTerm d) d)

/-- The program's weights, computed from the two rows of the edge array, are the specification's: each factor is read at
    the row its word names, and the factors are the specification's. -/
theorem weightTerm_rows (I : Inputs) (k : Fin 3200000) :
    weightTerm (rowTerm ![0, 0] slices_S2x3200000_S1x3200000_0_0 I.edges)
      (rowTerm ![1, 0] slices_S2x3200000_S1x3200000_1_0 I.edges) (ix1 k) = edgeWeight I k := by
  unfold weightTerm edgeWeight
  rw [mulf_apply, readTerm_apply, readTerm_apply, dinvTerm_dst, dinvTerm_dst, rowTerm_src, rowTerm_dst]

set_option maxHeartbeats 4000000 in
/-- Every edge's weight (the program's `%27`). -/
theorem V1_weight (c : Dev nD) : (V1 (F := Ideal) m ρ c main_v27 : S3200000.Idx → EReal) = fun j => edgeWeight (argsOf m c) (j 0) := by
  have e : (V1 (F := Ideal) m ρ c main_v27 : S3200000.Idx → EReal)
      = weightTerm (rowTerm ![0, 0] slices_S2x3200000_S1x3200000_0_0 (argsOf m c).edges)
          (rowTerm ![1, 0] slices_S2x3200000_S1x3200000_1_0 (argsOf m c).edges) := by
    show StableHlo.after hostOps0 _ (Proc.devRef .tc main_v27) = _
    simp only [hostOps0]
    after_results
    rfl
  funext j
  rw [e, eq_ix1 j]
  exact weightTerm_rows (argsOf m c) (j 0)

end Cert.KernelIdeal.PoolValue

end
-- ==== Proof.KIPay.lean ====
/-
  The three stored values of the two kernel bodies, read at an entry on the extended reals.

  The first body stores the product of a [10000, 128] block with the [128, 64] weights. The second body's per-block
  value is the scratch as loaded plus, for each graph g and column b, the sum over the block's 2000 nodes of the
  indicator "the node's graph word is g" times the node's rectified feature (the aggregate plus the node's own
  features times its squared factor, plus the bias, cut at zero). Its final value is the two dense layers applied to
  the sums divided by the counts (at least 1).
-/
import proofs.«426677_j49392123904592_3_alg».proof.Proof.Gen.KernelIdeal.Skeleton
import proofs.«426677_j49392123904592_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PoolValue

open Cert.KernelIdeal Cert.KernelIdeal.Gen Cert.GraphPool
open Idealize.ShloMosaic Idealize.ShloMosaic.ValueIdx

/-! ## The four matrix products' operand indices, axis by axis

For dimension numbers with one contracting axis the operand index at result index `i` and contraction position `q`
reads `i` on the kept axis and `q`'s one coordinate on the contracted axis. -/

theorem lhs_featW_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_featW_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_featW_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_featW_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The [10000, 128] × [128, 64] product's contraction sum at (r, b), over the contracted coordinate. -/
theorem sum_featW (L : S10000x128.Idx → EReal) (R : S128x64.Idx → EReal) (r : Fin 10000) (b : Fin 64) :
    ∑ q : dot_S10000x128_S128x64_S10000x64_1_0_0_1_n_n.contr.Idx,
        L (dot_S10000x128_S128x64_S10000x64_1_0_0_1_n_n.lhsIdx (ix2 r b) q) * R (dot_S10000x128_S128x64_S10000x64_1_0_0_1_n_n.rhsIdx (ix2 r b) q)
      = ∑ k : Fin 128, L (ix2 r k) * R (ix2 k b) := by
  rw [← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 r b) ((contrEquiv1 dot_S10000x128_S128x64_S10000x64_1_0_0_1_n_n 128 rfl rfl).symm k) = ix2 r k := funext fun a => Fin.ext (by
    match a with
    | ⟨0, _⟩ => exact lhs_featW_0 _ _
    | ⟨1, _⟩ => exact (lhs_featW_1 _ _).trans hk)
  have er : dot_S10000x128_S128x64_S10000x64_1_0_0_1_n_n.rhsIdx (ix2 r b) ((contrEquiv1 dot_S10000x128_S128x64_S10000x64_1_0_0_1_n_n 128 rfl rfl).symm k) = ix2 k b := funext fun a => Fin.ext (by
    match a with
    | ⟨0, _⟩ => exact (rhs_featW_0 _ _).trans hk
    | ⟨1, _⟩ => exact rhs_featW_1 _ _)
  rw [el, er]

theorem lhs_dense1_0 (i : S1024x32.Idx) (q : dot_S1024x64_S64x32_S1024x32_1_0_0_1_n_n.contr.Idx) :
    (dot_S1024x64_S64x32_S1024x32_1_0_0_1_n_n.lhsIdx i q 0).val = (i 0).val := by
  unfold DotDims.lhsIdx
  rw [dif_neg (show ¬(0 : Fin S1024x64.rank) ∈ dot_S1024x64_S64x32_S1024x32_1_0_0_1_n_n.lhsBatch by decide), dif_pos (show (0 : Fin S1024x64.rank) ∈ dot_S1024x64_S64x32_S1024x32_1_0_0_1_n_n.lhsNonContracting by decide)]
  rfl
theorem lhs_dense1_1 (i : S1024x32.Idx) (q : dot_S1024x64_S64x32_S1024x32_1_0_0_1_n_n.contr.Idx) :
    (dot_S1024x64_S64x32_S1024x32_1_0_0_1_n_n.lhsIdx i q 1).val = (q ⟨0, by decide⟩).val :=
  dot_S1024x64_S64x32_S1024x32_1_0_0_1_n_n.lhsIdx_val_of_single rfl i q
theorem rhs_dense1_0 (i : S1024x32.Idx) (q : dot_S1024x64_S64x32_S1024x32_1_0_0_1_n_n.contr.Idx) :
    (dot_S1024x64_S64x32_S1024x32_1_0_0_1_n_n.rhsIdx i q 0).val = (q ⟨0, by decide⟩).val :=
  dot_S1024x64_S64x32_S1024x32_1_0_0_1_n_n.rhsIdx_val_of_single rfl i q
theorem rhs_dense1_1 (i : S1024x32.Idx) (q : dot_S1024x64_S64x32_S1024x32_1_0_0_1_n_n.contr.Idx) :
    (dot_S1024x64_S64x32_S1024x32_1_0_0_1_n_n.rhsIdx i q 1).val = (i 1).val := by
  unfold DotDims.rhsIdx
  rw [dif_neg (show ¬(1 : Fin S64x32.rank) ∈ dot_S1024x64_S64x32_S1024x32_1_0_0_1_n_n.rhsBatch by decide), dif_pos (show (1 : Fin S64x32.rank) ∈ dot_S1024x64_S64x32_S1024x32_1_0_0_1_n_n.rhsNonContracting by decide)]
  rfl

/-- The [1024, 64] × [64, 32] product's contraction sum at (g, j), over the contracted coordinate. -/
theorem sum_dense1 (L : S1024x64.Idx → EReal) (R : S64x32.Idx → EReal) (g : Fin 1024) (j : Fin 32) :
    ∑ q : dot_S1024x64_S64x32_S1024x32_1_0_0_1_n_n.contr.Idx,
        L (dot_S1024x64_S64x32_S1024x32_1_0_0_1_n_n.lhsIdx (ix2 g j) q) * R (dot_S1024x64_S64x32_S1024x32_1_0_0_1_n_n.rhsIdx (ix2 g j) q)
      = ∑ b : Fin 64, L (ix2 g b) * R (ix2 b j) := by
  rw [← Equiv.sum_comp (contrEquiv1 dot_S1024x64_S64x32_S1024x32_1_0_0_1_n_n 64 rfl rfl).symm]
  refine Finset.sum_congr rfl fun k _ => ?_
  have hk := contrEquiv1_symm_val dot_S1024x64_S64x32_S1024x32_1_0_0_1_n_n 64 rfl rfl k
  have el : dot_S1024x64_S64x32_S1024x32_1_0_0_1_n_n.lhsIdx (ix2 g j) ((contrEquiv1 dot_S1024x64_S64x32_S1024x32_1_0_0_1_n_n 64 rfl rfl).symm k) = ix2 g k := funext fun a => Fin.ext (by
    match a with
    | ⟨0, _⟩ => exact lhs_dense1_0 _ _
    | ⟨1, _⟩ => exact (lhs_dense1_1 _ _).trans hk)
  have er : dot_S1024x64_S64x32_S1024x32_1_0_0_1_n_n.rhsIdx (ix2 g j) ((contrEquiv1 dot_S1024x64_S64x32_S1024x32_1_0_0_1_n_n 64 rfl rfl).symm k) = ix2 k j := funext fun a => Fin.ext (by
    match a with
    | ⟨0, _⟩ => exact (rhs_dense1_0 _ _).trans hk
    | ⟨1, _⟩ => exact rhs_dense1_1 _ _)
  rw [el, er]

theorem lhs_dense2_0 (i : S1024x4.Idx) (q : dot_S1024x32_S32x4_S1024x4_1_0_0_1_n_n.contr.Idx) :
    (dot_S1024x32_S32x4_S1024x4_1_0_0_1_n_n.lhsIdx i q 0).val = (i 0).val := by
  unfold DotDims.lhsIdx
  rw [dif_neg (show ¬(0 : Fin S1024x32.rank) ∈ dot_S1024x32_S32x4_S1024x4_1_0_0_1_n_n.lhsBatch by decide), dif_pos (show (0 : Fin S1024x32.rank) ∈ dot_S1024x32_S32x4_S1024x4_1_0_0_1_n_n.lhsNonContracting by decide)]
  rfl
theorem lhs_dense2_1 (i : S1024x4.Idx) (q : dot_S1024x32_S32x4_S1024x4_1_0_0_1_n_n.contr.Idx) :
    (dot_S1024x32_S32x4_S1024x4_1_0_0_1_n_n.lhsIdx i q 1).val = (q ⟨0, by decide⟩).val :=
  dot_S1024x32_S32x4_S1024x4_1_0_0_1_n_n.lhsIdx_val_of_single rfl i q
theorem rhs_dense2_0 (i : S1024x4.Idx) (q : dot_S1024x32_S32x4_S1024x4_1_0_0_1_n_n.contr.Idx) :
    (dot_S1024x32_S32x4_S1024x4_1_0_0_1_n_n.rhsIdx i q 0).val = (q ⟨0, by decide⟩).val :=
  dot_S1024x32_S32x4_S1024x4_1_0_0_1_n_n.rhsIdx_val_of_single rfl i q
theorem rhs_dense2_1 (i : S1024x4.Idx) (q : dot_S1024x32_S32x4_S1024x4_1_0_0_1_n_n.contr.Idx) :
    (dot_S1024x32_S32x4_S1024x4_1_0_0_1_n_n.rhsIdx i q 1).val = (i 1).val := by
  unfold DotDims.rhsIdx
  rw [dif_neg (show ¬(1 : Fin S32x4.rank) ∈ dot_S1024x32_S32x4_S1024x4_1_0_0_1_n_n.rhsBatch by decide), dif_pos (show (1 : Fin S32x4.rank) ∈ dot_S1024x32_S32x4_S1024x4_1_0_0_1_n_n.rhsNonContracting by decide)]
  rfl

/-- The [1024, 32] × [32, 4] product's contraction sum at (g, c), over the contracted coordinate. -/
theorem sum_dense2 (L : S1024x32.Idx → EReal) (R : S32x4.Idx → EReal) (g : Fin 1024) (c : Fin 4) :
    ∑ q : dot_S1024x32_S32x4_S1024x4_1_0_0_1_n_n.contr.Idx,
        L (dot_S1024x32_S32x4_S1024x4_1_0_0_1_n_n.lhsIdx (ix2 g c) q) * R (dot_S1024x32_S32x4_S1024x4_1_0_0_1_n_n.rhsIdx (ix2 g c) q)
      = ∑ j : Fin 32, L (ix2 g j) * R (ix2 j c) := by
  rw [← Equiv.sum_comp (contrEquiv1 dot_S1024x32_S32x4_S1024x4_1_0_0_1_n_n 32 rfl rfl).symm]
  refine Finset.sum_congr rfl fun k _ => ?_
  have hk := contrEquiv1_symm_val dot_S1024x32_S32x4_S1024x4_1_0_0_1_n_n 32 rfl rfl k
  have el : dot_S1024x32_S32x4_S1024x4_1_0_0_1_n_n.lhsIdx (ix2 g c) ((contrEquiv1 dot_S1024x32_S32x4_S1024x4_1_0_0_1_n_n 32 rfl rfl).symm k) = ix2 g k := funext fun a => Fin.ext (by
    match a with
    | ⟨0, _⟩ => exact lhs_dense2_0 _ _
    | ⟨1, _⟩ => exact (lhs_dense2_1 _ _).trans hk)
  have er : dot_S1024x32_S32x4_S1024x4_1_0_0_1_n_n.rhsIdx (ix2 g c) ((contrEquiv1 dot_S1024x32_S32x4_S1024x4_1_0_0_1_n_n 32 rfl rfl).symm k) = ix2 k c := funext fun a => Fin.ext (by
    match a with
    | ⟨0, _⟩ => exact (rhs_dense2_0 _ _).trans hk
    | ⟨1, _⟩ => exact rhs_dense2_1 _ _)
  rw [el, er]

/-! The one-hot product contracts axis 0 of BOTH operands: lhs [2000, 1024], rhs [2000, 64], result [1024, 64]. -/

theorem lhs_onehot_0 (i : S1024x64.Idx) (q : dot_S2000x1024_S2000x64_S1024x64_0_0_1_1_n_n.contr.Idx) :
    (dot_S2000x1024_S2000x64_S1024x64_0_0_1_1_n_n.lhsIdx i q 0).val = (q ⟨0, by decide⟩).val :=
  dot_S2000x1024_S2000x64_S1024x64_0_0_1_1_n_n.lhsIdx_val_of_single rfl i q
theorem lhs_onehot_1 (i : S1024x64.Idx) (q : dot_S2000x1024_S2000x64_S1024x64_0_0_1_1_n_n.contr.Idx) :
    (dot_S2000x1024_S2000x64_S1024x64_0_0_1_1_n_n.lhsIdx i q 1).val = (i 0).val := by
  unfold DotDims.lhsIdx
  rw [dif_neg (show ¬(1 : Fin S2000x1024.rank) ∈ dot_S2000x1024_S2000x64_S1024x64_0_0_1_1_n_n.lhsBatch by decide), dif_pos (show (1 : Fin S2000x1024.rank) ∈ dot_S2000x1024_S2000x64_S1024x64_0_0_1_1_n_n.lhsNonContracting by decide)]
  rfl
theorem rhs_onehot_0 (i : S1024x64.Idx) (q : dot_S2000x1024_S2000x64_S1024x64_0_0_1_1_n_n.contr.Idx) :
    (dot_S2000x1024_S2000x64_S1024x64_0_0_1_1_n_n.rhsIdx i q 0).val = (q ⟨0, by decide⟩).val :=
  dot_S2000x1024_S2000x64_S1024x64_0_0_1_1_n_n.rhsIdx_val_of_single rfl i q
theorem rhs_onehot_1 (i : S1024x64.Idx) (q : dot_S2000x1024_S2000x64_S1024x64_0_0_1_1_n_n.contr.Idx) :
    (dot_S2000x1024_S2000x64_S1024x64_0_0_1_1_n_n.rhsIdx i q 1).val = (i 1).val := by
  unfold DotDims.rhsIdx
  rw [dif_neg (show ¬(1 : Fin S2000x64.rank) ∈ dot_S2000x1024_S2000x64_S1024x64_0_0_1_1_n_n.rhsBatch by decide), dif_pos (show (1 : Fin S2000x64.rank) ∈ dot_S2000x1024_S2000x64_S1024x64_0_0_1_1_n_n.rhsNonContracting by decide)]
  rfl

/-- The one-hot product's contraction sum at (g, b), over the block's 2000 nodes. -/
theorem sum_onehot (L : S2000x1024.Idx → EReal) (R : S2000x64.Idx → EReal) (g : Fin 1024) (b : Fin 64) :
    ∑ q : dot_S2000x1024_S2000x64_S1024x64_0_0_1_1_n_n.contr.Idx,
        L (dot_S2000x1024_S2000x64_S1024x64_0_0_1_1_n_n.lhsIdx (ix2 g b) q) * R (dot_S2000x1024_S2000x64_S1024x64_0_0_1_1_n_n.rhsIdx (ix2 g b) q)
      = ∑ r : Fin 2000, L (ix2 r g) * R (ix2 r b) := by
  rw [← Equiv.sum_comp (contrEquiv1 dot_S2000x1024_S2000x64_S1024x64_0_0_1_1_n_n 2000 rfl rfl).symm]
  refine Finset.sum_congr rfl fun k _ => ?_
  have hk := contrEquiv1_symm_val dot_S2000x1024_S2000x64_S1024x64_0_0_1_1_n_n 2000 rfl rfl k
  have el : dot_S2000x1024_S2000x64_S1024x64_0_0_1_1_n_n.lhsIdx (ix2 g b) ((contrEquiv1 dot_S2000x1024_S2000x64_S1024x64_0_0_1_1_n_n 2000 rfl rfl).symm k) = ix2 k g := funext fun a => Fin.ext (by
    match a with
    | ⟨0, _⟩ => exact (lhs_onehot_0 _ _).trans hk
    | ⟨1, _⟩ => exact lhs_onehot_1 _ _)
  have er : dot_S2000x1024_S2000x64_S1024x64_0_0_1_1_n_n.rhsIdx (ix2 g b) ((contrEquiv1 dot_S2000x1024_S2000x64_S1024x64_0_0_1_1_n_n 2000 rfl rfl).symm k) = ix2 k b := funext fun a => Fin.ext (by
    match a with
    | ⟨0, _⟩ => exact (rhs_onehot_0 _ _).trans hk
    | ⟨1, _⟩ => exact rhs_onehot_1 _ _)
  rw [el, er]

/-! ## Layout operations read at (p, c) -/

/-- An `[a, 1]` column broadcast to `[a, b]` reads, at `(p, c)`, the column's entry at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A length-`b` vector viewed as one row and broadcast over `a` rows reads, at `(p, c)`, the vector at `c`. -/
theorem rowBias_apply {α : Type} {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-! ## The one-hot factor -/

/-- The indicator word of "w is n", widened to 32 bits and read as a signed integer on the extended reals, is 1 or 0. -/
theorem onehot_word (w : BitVec 32) (n : ℕ) :
    FloatOps.sitofp (F := Ideal) .f32 ((IntOp.cmpi .eq w (BitVec.ofNat 32 n)).setWidth 32)
      = if w = BitVec.ofNat 32 n then (1 : EReal) else 0 := by
  show (((((IntOp.cmpi .eq w (BitVec.ofNat 32 n)).setWidth 32).toInt : ℤ) : ℝ) : EReal) = _
  by_cases h : w = BitVec.ofNat 32 n
  · have hc : IntOp.cmpi .eq w (BitVec.ofNat 32 n) = 1#1 := by simp [IntOp.cmpi, h]
    have h1 : ((1#1 : BitVec 1).setWidth 32).toInt = 1 := by decide
    rw [hc, if_pos h, h1]
    simp
  · have hb : (w == BitVec.ofNat 32 n) = false := beq_eq_false_iff_ne.mpr h
    have hc : IntOp.cmpi .eq w (BitVec.ofNat 32 n) = 0#1 := by
      show BitVec.ofBool (w == BitVec.ofNat 32 n) = 0#1
      rw [hb]
      rfl
    have h0 : ((0#1 : BitVec 1).setWidth 32).toInt = 0 := by decide
    rw [hc, if_neg h, h0]
    simp

/-- The matrix-product body's stored block at (r, b): the row of the features block times the column of the weights. -/
theorem k0_pay1_apply (v0 : Vec Ideal S10000x128 .f32) (v2 : Vec Ideal S128x64 .f32) (r : Fin 10000) (b : Fin 64) :
    k0_pay1 (F := Ideal) v0 v2 (ix2 r b) = ∑ k : Fin 128, v0 (ix2 r k) * v2 (ix2 k b) := by
  unfold k0_pay1
  simp only [truncf_apply]
  refine (Ideal.matmul_constant_zero_apply dot_S10000x128_S128x64_S10000x64_1_0_0_1_n_n none _ _ (ix2 r b)).trans ?_
  exact sum_featW v0 v2 r b

/-- What the first point stores into the scratch before accumulating: zeros. -/
theorem k1_pay1_apply (g : Fin 1024) (b : Fin 64) : k1_pay1 (F := Ideal) (ix2 g b) = 0 := by
  unfold k1_pay1
  rw [shapeCast_self]
  exact Ideal.ofBits_zero_f32

/-- A node's rectified feature inside a block: aggregate plus own features times the squared factor, plus bias, cut at 0. -/
def blockConv (v3 : Vec Ideal S2000x64 .f32) (v5 : Vec Ideal S2000x64 .bf16) (v8 : Vec Ideal S2000x1 .f32) (v13 : Vec Ideal S64 .f32)
    (r : Fin 2000) (b : Fin 64) : EReal :=
  max ((v3 (ix2 r b) + v5 (ix2 r b) * v8 (ix2 r 0)) + v13 (ix1 b)) 0

/-- The pooling body's per-block value at (g, b): the scratch as loaded plus the one-hot-weighted sum of the block's
    rectified features. -/
theorem k1_pay2_apply (v3 : Vec Ideal S2000x64 .f32) (v5 : Vec Ideal S2000x64 .bf16) (v8 : Vec Ideal S2000x1 .f32) (v13 : Vec Ideal S64 .f32)
    (v19 : Vec Ideal S2000x1 .i32) (v29 : Vec Ideal S1024x64 .f32) (g : Fin 1024) (b : Fin 64) :
    k1_pay2 (F := Ideal) v3 v5 v8 v13 v19 v29 (ix2 g b)
      = v29 (ix2 g b) + ∑ r : Fin 2000, (if v19 (ix2 r 0) = BitVec.ofNat 32 g.val then (1 : EReal) else 0) * blockConv v3 v5 v8 v13 r b := by
  unfold k1_pay2
  refine (congrFun (shapeCast_self _ _) (ix2 g b)).trans ?_
  refine (addf_apply _ _ _).trans ?_
  refine congrArg (v29 (ix2 g b) + ·) ?_
  refine (Ideal.matmul_constant_zero_apply dot_S2000x1024_S2000x64_S1024x64_0_0_1_1_n_n none _ _ (ix2 g b)).trans ?_
  refine (sum_onehot _ _ g b).trans ?_
  refine Finset.sum_congr rfl fun r _ => ?_
  refine congrArg₂ (· * ·) ?_ ?_
  · have e1 : broadcastTo S2000x1024 (shapeCast S2000x1 v19 shapeCasts_S2000x1_S2000x1) broadcasts_S2000x1_S2000x1024 (ix2 r g) = v19 (ix2 r 0) :=
      (broadcastTo_a1_ab_apply _ _ r g).trans (congrFun (shapeCast_self v19 _) _)
    have e2 : iota .tc S2000x1024 32 [1] iota_S2000x1024_d1_w32 (ix2 r g) = BitVec.ofNat 32 g.val :=
      iota_single_apply .tc S2000x1024 32 1 _ (ix2 r g)
    show FloatOps.sitofp (F := Ideal) .f32 ((IntOp.cmpi .eq (broadcastTo S2000x1024 (shapeCast S2000x1 v19 shapeCasts_S2000x1_S2000x1) broadcasts_S2000x1_S2000x1024 (ix2 r g)) (iota .tc S2000x1024 32 [1] iota_S2000x1024_d1_w32 (ix2 r g))).setWidth 32) = _
    rw [e1, e2]
    exact onehot_word _ _
  · simp only [truncf_apply, maximumf_apply, addf_apply, mulf_apply, extf_apply, broadcast_apply, broadcastTo_a1_ab_apply, rowBias_apply, shapeCast_self]
    have hz : FloatOps.ofBits (F := Ideal) .f32 0x00000000#32 = 0 := Ideal.ofBits_zero_f32
    rw [hz]
    rfl

/-- The pooling body's final value at (g, c): the classifier applied to the sums `v37` divided by the counts `v38`. -/
theorem k1_pay3_apply (v37 : Vec Ideal S1024x64 .f32) (v38 : Vec Ideal S1024x1 .f32) (v45 : Vec Ideal S64x32 .f32) (v48 : Vec Ideal S32 .f32)
    (v55 : Vec Ideal S32x4 .f32) (v58 : Vec Ideal S4 .f32) (g : Fin 1024) (c : Fin 4) :
    k1_pay3 (F := Ideal) v37 v38 v45 v48 v55 v58 (ix2 g c)
      = (∑ j : Fin 32, max ((∑ b : Fin 64, Ideal.div (v37 (ix2 g b)) (max (v38 (ix2 g 0)) one) * v45 (ix2 b j)) + v48 (ix1 j)) 0 * v55 (ix2 j c))
        + v58 (ix1 c) := by
  unfold k1_pay3
  simp only [addf_apply, rowBias_apply]
  refine congrArg (· + v58 (ix1 c)) ?_
  refine (Ideal.matmul_constant_zero_apply dot_S1024x32_S32x4_S1024x4_1_0_0_1_n_n none _ _ (ix2 g c)).trans ?_
  refine (sum_dense2 _ _ g c).trans ?_
  refine Finset.sum_congr rfl fun j _ => ?_
  simp only [truncf_apply, maximumf_apply, addf_apply, broadcast_apply, rowBias_apply]
  have hz : FloatOps.ofBits (F := Ideal) .f32 0x00000000#32 = 0 := Ideal.ofBits_zero_f32
  rw [hz]
  refine congrArg (fun x => max (x + v48 (ix1 j)) 0 * v55 (ix2 j c)) ?_
  refine (Ideal.matmul_constant_zero_apply dot_S1024x64_S64x32_S1024x32_1_0_0_1_n_n none _ _ (ix2 g j)).trans ?_
  refine (sum_dense1 _ _ g j).trans ?_
  refine Finset.sum_congr rfl fun b _ => ?_
  refine congrArg (· * v45 (ix2 b j)) ?_
  refine (divf_apply _ _ _).trans ?_
  refine congrArg (Ideal.div (v37 (ix2 g b))) ?_
  refine (broadcastTo_a1_ab_apply _ _ g b).trans ?_
  refine (maximumf_apply _ _ _).trans ?_
  exact congrArg (max · one) (congrFun (shapeCast_self v38 _) (ix2 g 0))

end Cert.KernelIdeal.PoolValue

end
-- ==== Proof.KIFeat.lean ====
/-
  What the matrix-product launch leaves in its result array: the transformed features.

  The grid's 10 points write back disjoint blocks of 10000 rows that together cover the 100000 rows; the block of point
  t holds, at row r and column b, the product of row 10000 t + r of the features with column b of the weights. So the
  array after the launch is the whole product.
-/
import proofs.«426677_j49392123904592_3_alg».proof.Proof.KIArgs
import proofs.«426677_j49392123904592_3_alg».proof.Proof.KIPay
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.PoolValue

open Cert.KernelIdeal Cert.KernelIdeal.Gen Cert.KernelIdeal.Frame Cert.GraphPool
open Idealize.ShloMosaic Idealize.ShloMosaic.TcCoe Idealize.ShloMosaic.ValueIdx Idealize.SL.Sem

variable (m : (ℓ : Loc nD τ sig) → Buf (Elt Ideal) ℓ) (ρ : Dev nD → PrngReg)

/-- The block index of each of the launch's three windows at a point, decided over the ten points: the features' and
    the result's blocks move down the rows with the point, the weights' block is the whole matrix. -/
theorem idx_feat : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- The features' block at point `t` is rows `10000 t … 10000 t + 9999` of the input features. -/
theorem xblk_apply (c : Dev nD) (t : Fin cfg0.N) (r : Fin 10000) (k : Fin 128) (i : Fin 100000)
    (hi : i.val = 10000 * t.val + r.val) :
    (iblk0 (V1 (F := Ideal) m ρ) c 0 t : Vec Ideal S10000x128 .f32) (ix2 r k) = (argsOf m c).x (ix2 i k) := by
  obtain ⟨e0, e1, -⟩ := idx_feat t
  unfold iblk0
  rw [View.read_apply]
  show V1 (F := Ideal) m ρ c main_arg0 _ = _
  rw [V1_arg0]
  refine congrArg _ (funext fun a => Fin.ext ?_)
  match a with
  | ⟨0, _⟩ => show win0_0.index t (0 : Fin 2) * 10000 + 1 * r.val = i.val; rw [e0, hi]; omega
  | ⟨1, _⟩ => show win0_0.index t (1 : Fin 2) * 128 + 1 * k.val = k.val; rw [e1]; omega

/-- The weights' block at every point is the whole weight matrix. -/
theorem wblk_apply (c : Dev nD) (t : Fin cfg0.N) (k : Fin 128) (b : Fin 64) :
    (iblk0 (V1 (F := Ideal) m ρ) c 1 t : Vec Ideal S128x64 .f32) (ix2 k b) = (argsOf m c).Wg (ix2 k b) := by
  obtain ⟨-, -, e2, e3, -⟩ := idx_feat t
  unfold iblk0
  rw [View.read_apply]
  show V1 (F := Ideal) m ρ c main_arg3 _ = _
  rw [V1_arg3]
  refine congrArg _ (funext fun a => Fin.ext ?_)
  match a with
  | ⟨0, _⟩ => show win0_1.index t (0 : Fin 2) * 128 + 1 * k.val = k.val; rw [e2]; omega
  | ⟨1, _⟩ => show win0_1.index t (1 : Fin 2) * 64 + 1 * b.val = b.val; rw [e3]; omega

/-- WHAT POINT `t` WRITES BACK is block `t` of the transformed features. -/
theorem feat_flushed (c : Dev nD) (t : Fin cfg0.N) :
    (dat0 (V1 (F := Ideal) m ρ) c).flushed 2 t
      = ((cfg0.win 2).blk t).view.read (Elt Ideal) (fun j : S100000x64.Idx => feat (argsOf m c) (j 0) (j 1)) := by
  show (cfg0.win 2).cut (grid0.coords t) ((dat0 (V1 (F := Ideal) m ρ) c).after 2 t) = _
  rw [after0_2]
  unfold out0_2
  rw [View.canon_unit_zero hz2]
  simp only [View.ld_unit_zero (S := S10000x128) hz2, View.ld_unit_zero (S := S128x64) hz2]
  obtain ⟨-, -, -, -, e4, e5, ht⟩ := idx_feat t
  funext y
  obtain ⟨r, b, rfl⟩ : ∃ (r : Fin 10000) (b : Fin 64), y = ix2 r b := ⟨y 0, y 1, eq_ix2 y⟩
  have hr : r.val < 10000 := r.isLt
  have hrow : 10000 * t.val + r.val < 100000 := by omega
  have hemb : ((cfg0.win 2).blk t).view.emb (ix2 r b) = ix2 (⟨10000 * t.val + r.val, hrow⟩ : Fin 100000) b := by
    funext a; apply Fin.ext
    match a with
    | ⟨0, _⟩ => show win0_2.index t (0 : Fin 2) * 10000 + 1 * r.val = 10000 * t.val + r.val; rw [e4]; omega
    | ⟨1, _⟩ => show win0_2.index t (1 : Fin 2) * 64 + 1 * b.val = b.val; rw [e5]; omega
  rw [View.read_apply, hemb]
  show k0_pay1 (F := Ideal) (iblk0 (V1 (F := Ideal) m ρ) c 0 t) (iblk0 (V1 (F := Ideal) m ρ) c 1 t) (ix2 r b)
      = ∑ k : Fin 128, (argsOf m c).x (ix2 (⟨10000 * t.val + r.val, hrow⟩ : Fin 100000) k) * (argsOf m c).Wg (ix2 k b)
  refine (k0_pay1_apply _ _ r b).trans (Finset.sum_congr rfl fun k _ => ?_)
  rw [xblk_apply m ρ c t r k ⟨10000 * t.val + r.val, hrow⟩ rfl, wblk_apply m ρ c t k b]

/-- An index of the result array is in point `t`'s block iff each coordinate is in the block's range on its axis. -/
theorem feat_mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v28).slice (win0_2.rect t)).set ↔ _
  rw [View.set_slice_whole, Rect.mem_set_unit]
  exact Iff.rfl

/-- Row `i` of the result array lies in the block of point `i / 10000`, and every point writes its block back. -/
theorem feat_cover (i : S100000x64.Idx) :
    ∃ t : Fin cfg0.N, (cfg0.win 2).flush t = true ∧ i ∈ ((cfg0.win 2).blk t).view.set := by
  have h0 : (i 0).val < 100000 := (i 0).isLt
  have h1 : (i 1).val < 64 := (i 1).isLt
  have hN : (i 0).val / 10000 < cfg0.N := by show (i 0).val / 10000 < 10; omega
  refine ⟨⟨(i 0).val / 10000, hN⟩, flush0_2 _, ?_⟩
  obtain ⟨-, -, -, -, e4, e5, -⟩ := idx_feat ⟨(i 0).val / 10000, hN⟩
  rw [feat_mem_blk]
  intro a
  match a with
  | ⟨0, _⟩ => show win0_2.index ⟨(i 0).val / 10000, hN⟩ (0 : Fin 2) * 10000 ≤ (i 0).val ∧ (i 0).val < win0_2.index ⟨(i 0).val / 10000, hN⟩ (0 : Fin 2) * 10000 + 10000; rw [e4]; show (i 0).val / 10000 * 10000 ≤ (i 0).val ∧ (i 0).val < (i 0).val / 10000 * 10000 + 10000; omega
  | ⟨1, _⟩ => show win0_2.index ⟨(i 0).val / 10000, hN⟩ (1 : Fin 2) * 64 ≤ (i 1).val ∧ (i 1).val < win0_2.index ⟨(i 0).val / 10000, hN⟩ (1 : Fin 2) * 64 + 64; rw [e5]; omega

/-- THE TRANSFORMED FEATURES: the launch's result array (the program's `%28`) after the launch. -/
theorem V2_feat (c : Dev nD) : (V2 (F := Ideal) m ρ c main_v28 : S100000x64.Idx → EReal) = fun j => feat (argsOf m c) (j 0) (j 1) := by
  show W2 (F := Ideal) m ρ c (Proc.devRef .tc (Pipeline.arrRef spec0 2)) = _
  rw [W2_arr]
  exact (dat0 (V1 (F := Ideal) m ρ) c).arrAt_eq_of_cover 2 _ (fun t _ => feat_flushed m ρ c t) feat_cover

end Cert.KernelIdeal.PoolValue

end
-- ==== Proof.KIHost1.lean ====
/-
  The second stretch of host operations of the kernel's program, read on the extended reals: what the pooling launch
  is entered with.

  The messages are the transformed features gathered at each edge's wrapped, clamped source word times the edge's
  weight, added into the rows their destination words name; the squared factors, the per-graph node counts and the
  graph words as a column are the launch's other operands.
-/
import proofs.«426677_j49392123904592_3_alg».proof.Proof.KIHost0
import proofs.«426677_j49392123904592_3_alg».proof.Proof.KIFeat
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.PoolValue

open Cert.KernelIdeal Cert.KernelIdeal.Gen Cert.KernelIdeal.Frame Cert.GraphPool
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## Layout operations read at an index -/

/-- A vector laid out as a column, read at a row: the vector's entry there. -/
theorem col_apply {α : Type} {n : Nat} (hn : n ≠ 1) (h : (⟨1, ![n]⟩ : Shape).BroadcastsInDim ⟨2, ![n, 1]⟩ ![0])
    (v : (⟨1, ![n]⟩ : Shape).Idx → α) (j : (⟨2, ![n, 1]⟩ : Shape).Idx) :
    broadcastInDim ⟨2, ![n, 1]⟩ ![0] h v j = v (ix1 (j 0)) :=
  broadcastInDim_apply _ h v j (ix1 (j 0)) (fun a => match a with
    | ⟨0, _⟩ => by show (j 0).val = if n = 1 then 0 else (j 0).val; rw [if_neg hn])

/-- A column repeated along `b` columns, read at (row, column): the column's entry at the row. -/
theorem colRep_apply {α : Type} {n b : Nat} (hn : n ≠ 1) (h : (⟨2, ![n, 1]⟩ : Shape).BroadcastsInDim ⟨2, ![n, b]⟩ ![0, 1])
    (v : (⟨2, ![n, 1]⟩ : Shape).Idx → α) (j : (⟨2, ![n, b]⟩ : Shape).Idx) :
    broadcastInDim ⟨2, ![n, b]⟩ ![0, 1] h v j = v (ix2 (j 0) 0) :=
  broadcastInDim_apply _ h v j (ix2 (j 0) 0) (fun a => match a with
    | ⟨0, _⟩ => by show (j 0).val = if n = 1 then 0 else (j 0).val; rw [if_neg hn]
    | ⟨1, _⟩ => by show (0 : Nat) = if (1 : Nat) = 1 then 0 else (j 1).val; rw [if_pos rfl])

/-- The wrapped words as a column, read at a row: the wrapped word of the vector's entry there. -/
theorem wrapCol_apply (w : S3200000.Idx → BitVec 32) (k : Fin 3200000) :
    broadcastInDim S3200000x1 ![0] bcast_S3200000_S3200000x1_0
        (select (cmpi .slt w (broadcastInDim S3200000 ![] bcast_S_S3200000 (constantI S_ 32 0#32)))
          (addi w (broadcastInDim S3200000 ![] bcast_S_S3200000 (constantI S_ 32 100000#32))) w) (ix2 k 0)
      = wrapWord (w (ix1 k)) := by
  rw [col_apply (n := 3200000) (by decide)]
  rfl

/-- A wrapped word read signed and clamped into [0, 99999] is the row the specification reads at that word. -/
theorem clamp_wrap_eq_rowOf (v w : BitVec 32) (h : v = wrapWord w) (hv : min v.toInt.toNat (100000 - 1) < 100000) :
    (⟨min v.toInt.toNat (100000 - 1), hv⟩ : Fin 100000) = rowOf w := by
  subst h; rfl

/-- A scalar float constant spread over a shape, read anywhere: the constant's value. -/
theorem splatWord_apply {t : Shape} (h : S_.BroadcastsInDim t ![]) (w : BitVec FTy.f32.bits) (j : t.Idx) :
    broadcastInDim t ![] h (constant (F := Ideal) S_ .f32 w) j = Ideal.ofBits .f32 w := by
  rw [broadcastInDim_apply _ h _ j ix0 (fun a => a.elim0), constant_apply]

/-! ## The five operands of the pooling launch -/

set_option maxHeartbeats 2000000 in
/-- The transformed features are still in their buffer: no operation of the stretch writes it. -/
theorem V3_feat (c : Dev nD) : (V3 (F := Ideal) m ρ c main_v28 : S100000x64.Idx → EReal) = fun j => feat (argsOf m c) (j 0) (j 1) := by
  have h : V3 (F := Ideal) m ρ c main_v28 = V2 (F := Ideal) m ρ c main_v28 :=
    StableHlo.after_of_forall_not_mem (b := Proc.devRef .tc main_v28) _ _ (List.forall_iff_forall_mem.mp (by
      simp only [hostOps1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
  rw [h]
  exact V2_feat m ρ c

set_option maxHeartbeats 4000000 in
/-- What the real edges bring to each node (the program's `%42`): the rows of messages added into the rows their
    destination words name, onto zeros. The message of edge `k` at column `b` is the feature row at the wrapped,
    clamped source word times the edge's weight. -/
theorem V3_agg (c : Dev nD) : (V3 (F := Ideal) m ρ c main_v42 : S100000x64.Idx → EReal) = fun j => gathered (argsOf m c) (j 0) (j 1) := by
  have e : (V3 (F := Ideal) m ρ c main_v42 : S100000x64.Idx → EReal)
      = Host.scatterAdd (F := Ideal) (φ := .f32) scatter_S100000x64_S3200000x1_S3200000x64_1_0_0_1
          (broadcastInDim S100000x64 ![] bcast_S_S100000x64 (constant (F := Ideal) S_ .f32 0x00000000#32))
          (broadcastInDim S3200000x1 ![0] bcast_S3200000_S3200000x1_0 (V2 (F := Ideal) m ρ c main_v3 : S3200000.Idx → BitVec 32))
          (mulf (F := Ideal) (φ := .f32)
            (extf (F := Ideal) (φ := .bf16) .f32
              (Host.gather gather_S100000x64_S3200000x1_S3200000x64_1_0_n_n_0_1_164
                (V2 (F := Ideal) m ρ c main_v28 : S100000x64.Idx → EReal)
                (broadcastInDim S3200000x1 ![0] bcast_S3200000_S3200000x1_0
                  (select (cmpi .slt (V2 (F := Ideal) m ρ c main_v1 : S3200000.Idx → BitVec 32) (broadcastInDim S3200000 ![] bcast_S_S3200000 (constantI S_ 32 0#32)))
                    (addi (V2 (F := Ideal) m ρ c main_v1 : S3200000.Idx → BitVec 32) (broadcastInDim S3200000 ![] bcast_S_S3200000 (constantI S_ 32 100000#32)))
                    (V2 (F := Ideal) m ρ c main_v1 : S3200000.Idx → BitVec 32))))
              bitsLt_bf16_f32)
            (broadcastInDim S3200000x64 ![0, 1] bcast_S3200000x1_S3200000x64_0_1
              (broadcastInDim S3200000x1 ![0] bcast_S3200000_S3200000x1_0 (V2 (F := Ideal) m ρ c main_v27 : S3200000.Idx → EReal)))) := by
    show StableHlo.after hostOps1 _ (Proc.devRef .tc main_v42) = _
    simp only [hostOps1]; after_results; all_goals rfl
  have h1 : (V2 (F := Ideal) m ρ c main_v1 : S3200000.Idx → BitVec 32) = fun j => srcWord (argsOf m c) (j 0) :=
    (W2_of_ne m ρ c main_v1 (by decide)).trans (V1_src m ρ c)
  have h3 : (V2 (F := Ideal) m ρ c main_v3 : S3200000.Idx → BitVec 32) = fun j => dstWord (argsOf m c) (j 0) :=
    (W2_of_ne m ρ c main_v3 (by decide)).trans (V1_dst m ρ c)
  have h27 : (V2 (F := Ideal) m ρ c main_v27 : S3200000.Idx → EReal) = fun j => edgeWeight (argsOf m c) (j 0) :=
    (W2_of_ne m ρ c main_v27 (by decide)).trans (V1_weight m ρ c)
  rw [e, h1, h3, h27, V2_feat]
  funext j
  obtain ⟨i, b, rfl⟩ : ∃ (i : Fin 100000) (b : Fin 64), j = ix2 i b := ⟨j 0, j 1, eq_ix2 j⟩
  show _ = gathered (argsOf m c) i b
  refine (Cert.SparseMM.scatterAdd_rows_apply (R := 100000) (B := 64) (N := 3200000)
    scatter_S100000x64_S3200000x1_S3200000x64_1_0_0_1_wf _ _ _ i b).trans ?_
  unfold gathered edgesInto
  refine (congrArg₂ (· + ·) ((splatWord_apply _ _ _).trans Ideal.ofBits_zero_f32) (Finset.sum_congr (Finset.filter_congr fun k _ => ?_) fun k _ => ?_)).trans (zero_add _)
  · -- the start index of update row k is the destination word of edge k
    rw [col_apply (n := 3200000) (by decide)]
    exact Iff.rfl
  · -- update row k at column b is the message of edge k
    rw [mulf_apply, extf_apply, colRep_apply (n := 3200000) (by decide), col_apply (n := 3200000) (by decide)]
    refine congrArg₂ (· * ·) ((Cert.SparseMM.gather_rows_apply (S := 100000) (B := 64) (N := 3200000) (by decide)
      gather_S100000x64_S3200000x1_S3200000x64_1_0_n_n_0_1_164_wf _ _ k b).trans ?_) rfl
    exact congrArg (fun r => feat (argsOf m c) r b)
      (clamp_wrap_eq_rowOf _ (srcWord (argsOf m c) k) (wrapCol_apply (fun j => srcWord (argsOf m c) (j 0)) k) _)

set_option maxHeartbeats 2000000 in
/-- The squared factors as a column (the program's `%44`). -/
theorem V3_dinv2 (c : Dev nD) : (V3 (F := Ideal) m ρ c main_v44 : S100000x1.Idx → EReal) = fun j => dinv (argsOf m c) (j 0) * dinv (argsOf m c) (j 0) := by
  have e : (V3 (F := Ideal) m ρ c main_v44 : S100000x1.Idx → EReal)
      = broadcastInDim S100000x1 ![0] bcast_S100000_S100000x1_0
          (mulf (F := Ideal) (φ := .f32) (V2 (F := Ideal) m ρ c main_v12 : S100000.Idx → EReal) (V2 (F := Ideal) m ρ c main_v12 : S100000.Idx → EReal)) := by
    show StableHlo.after hostOps1 _ (Proc.devRef .tc main_v44) = _
    simp only [hostOps1]; after_results; all_goals rfl
  have h12 : (V2 (F := Ideal) m ρ c main_v12 : S100000.Idx → EReal) = fun j => dinv (argsOf m c) (j 0) :=
    (W2_of_ne m ρ c main_v12 (by decide)).trans (V1_dinv m ρ c)
  rw [e, h12]
  funext j
  rw [col_apply (n := 100000) (by decide), mulf_apply]
  rfl

set_option maxHeartbeats 2000000 in
/-- The per-graph node counts as a column (the program's `%49`): ones added into the entries the graph words name,
    onto zeros. -/
theorem V3_count (c : Dev nD) : (V3 (F := Ideal) m ρ c main_v49 : S1024x1.Idx → EReal) = fun j => poolCount (argsOf m c) (j 0) := by
  have e : (V3 (F := Ideal) m ρ c main_v49 : S1024x1.Idx → EReal)
      = broadcastInDim S1024x1 ![0] bcast_S1024_S1024x1_0
          (Host.scatterAdd (F := Ideal) (φ := .f32) scatter_S1024_S100000x1_S100000_n_0_0_1
            (broadcastInDim S1024 ![] bcast_S_S1024 (constant (F := Ideal) S_ .f32 0x00000000#32))
            (broadcastInDim S100000x1 ![0] bcast_S100000_S100000x1_0 (V2 (F := Ideal) m ρ c main_arg2 : S100000.Idx → BitVec 32))
            (broadcastInDim S100000 ![] bcast_S_S100000 (constant (F := Ideal) S_ .f32 0x3F800000#32))) := by
    show StableHlo.after hostOps1 _ (Proc.devRef .tc main_v49) = _
    simp only [hostOps1]; after_results; all_goals rfl
  rw [e, V2_arg2]
  funext j
  obtain ⟨g, z, rfl⟩ : ∃ (g : Fin 1024) (z : Fin 1), j = ix2 g z := ⟨j 0, j 1, eq_ix2 j⟩
  rw [col_apply (n := 1024) (by decide)]
  show _ = poolCount (argsOf m c) g
  refine (Cert.SparseVec.scatterAdd_vec_apply (R := 1024) (N := 100000) scatter_S1024_S100000x1_S100000_n_0_0_1_wf _ _ _ g).trans ?_
  unfold poolCount nodesOf
  refine (congrArg₂ (· + ·) ((splatWord_apply _ _ _).trans Ideal.ofBits_zero_f32)
    (Finset.sum_congr (Finset.filter_congr fun k _ => ?_) fun k _ => ?_)).trans (zero_add _)
  · -- the start index of update k is the graph word of node k
    rw [col_apply (n := 100000) (by decide)]
    all_goals exact Iff.rfl
  · -- every update is the specification's `one`
    exact splatWord_apply _ _ _

set_option maxHeartbeats 2000000 in
/-- The graph words as a column (the program's `%50`): the reshape keeps the row-major position, and the column has
    one entry per row. -/
theorem V3_graph (c : Dev nD) : (V3 (F := Ideal) m ρ c main_v50 : S100000x1.Idx → BitVec 32) = fun j => (argsOf m c).graphOf (ix1 (j 0)) := by
  have e : (V3 (F := Ideal) m ρ c main_v50 : S100000x1.Idx → BitVec 32)
      = shapeCast S100000x1 (V2 (F := Ideal) m ρ c main_arg2 : S100000.Idx → BitVec 32) shapeCasts_S100000_S100000x1 := by
    show StableHlo.after hostOps1 _ (Proc.devRef .tc main_v50) = _
    simp only [hostOps1]; after_results; rfl
  rw [e, V2_arg2]
  funext j
  exact shapeCast_apply _ _ j (ix1 (j 0)) (by
    rw [Shape.rowMajor_val_two, Shape.rowMajor_val_one]
    have h1 : (j 1).val < 1 := (j 1).isLt
    show (j 0).val = (j 0).val * 1 + (j 1).val
    omega)

end Cert.KernelIdeal.PoolValue

end
-- ==== Proof.KIPoolAcc.lean ====
/-
  The scratch of the pooling launch after its last point: the per-graph sums.

  Point t's block is the nodes 2000 t … 2000 t + 1999. After point n the scratch holds, at graph g and column b, the sum
  of the rectified convolution output over the nodes below 2000 (n + 1) whose graph word is g: at the first point the
  block's one-hot-weighted sum over zeros, at each later point the same added to what the point before left. After the
  last point that is the sum over all of graph g's nodes.
-/
import proofs.«426677_j49392123904592_3_alg».proof.Proof.KIHost1
import proofs.«426677_j49392123904592_3_alg».proof.Proof.KIPay
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws
import Mathlib.Algebra.BigOperators.Fin
import Mathlib.Algebra.BigOperators.Intervals

set_option maxRecDepth 16384

noncomputable section

open scoped BigOperators

namespace Cert.KernelIdeal.PoolValue

open Cert.KernelIdeal Cert.KernelIdeal.Gen Cert.KernelIdeal.Frame Cert.GraphPool
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## Which block each point reads

Over the 50 points, the four row-blocked windows read block (t, 0) and the bias window reads its one block. -/

theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx1_1 : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)
theorem idx1_2 : ∀ t : Fin cfg1.N, win1_2.index t (0 : Fin 2) = t.val ∧ win1_2.index t (1 : Fin 2) = 0 :=
  (by decide +kernel : ∀ t : Fin grid1.N, win1_2.index t (0 : Fin 2) = t.val ∧ win1_2.index t (1 : Fin 2) = 0)
theorem idx1_3 : ∀ t : Fin cfg1.N, win1_3.index t (0 : Fin 1) = 0 :=
  (by decide +kernel : ∀ t : Fin grid1.N, win1_3.index t (0 : Fin 1) = 0)
theorem idx1_4 : ∀ t : Fin cfg1.N, win1_4.index t (0 : Fin 2) = t.val ∧ win1_4.index t (1 : Fin 2) = 0 :=
  (by decide +kernel : ∀ t : Fin grid1.N, win1_4.index t (0 : Fin 2) = t.val ∧ win1_4.index t (1 : Fin 2) = 0)

/-! ## A block read at a row is the array read at that row's node

Stated at any contents V of the buffers: a block's coordinate on an axis is the block's index times the block's size
plus the coordinate inside the block, so row r of point t's block is row 2000 t + r of the array. -/

theorem iblk1_0_gen (V : (c : Dev nD) → (b : Ref sig .tc) → Buf (Elt Ideal) ((c : Thread nD τ).loc b)) (c : Dev nD) (t : Fin cfg1.N)
    (r : Fin 2000) (b : Fin 64) (h : 2000 * t.val + r.val < 100000)
    (hi : win1_0.index t (0 : Fin 2) = t.val ∧ win1_0.index t (1 : Fin 2) = 0) :
    (iblk1 (F := Ideal) V c 0 t : S2000x64.Idx → EReal) (ix2 r b)
      = (V c main_v42 : S100000x64.Idx → EReal) (ix2 ⟨2000 * t.val + r.val, h⟩ b) := by
  unfold iblk1
  show (V c main_v42 : S100000x64.Idx → EReal) (((cfg1.win 0).blk t).view.emb (ix2 r b)) = _
  refine congrArg (V c main_v42 : S100000x64.Idx → EReal) ?_
  funext a
  apply Fin.ext
  match a with
  | ⟨0, _⟩ => show win1_0.index t (0 : Fin 2) * 2000 + 1 * r.val = 2000 * t.val + r.val; rw [hi.1]; omega
  | ⟨1, _⟩ => show win1_0.index t (1 : Fin 2) * 64 + 1 * b.val = b.val; rw [hi.2]; omega

theorem iblk1_1_gen (V : (c : Dev nD) → (b : Ref sig .tc) → Buf (Elt Ideal) ((c : Thread nD τ).loc b)) (c : Dev nD) (t : Fin cfg1.N)
    (r : Fin 2000) (b : Fin 64) (h : 2000 * t.val + r.val < 100000)
    (hi : win1_1.index t (0 : Fin 2) = t.val ∧ win1_1.index t (1 : Fin 2) = 0) :
    (iblk1 (F := Ideal) V c 1 t : S2000x64.Idx → EReal) (ix2 r b)
      = (V c main_v28 : S100000x64.Idx → EReal) (ix2 ⟨2000 * t.val + r.val, h⟩ b) := by
  unfold iblk1
  show (V c main_v28 : S100000x64.Idx → EReal) (((cfg1.win 1).blk t).view.emb (ix2 r b)) = _
  refine congrArg (V c main_v28 : S100000x64.Idx → EReal) ?_
  funext a
  apply Fin.ext
  match a with
  | ⟨0, _⟩ => show win1_1.index t (0 : Fin 2) * 2000 + 1 * r.val = 2000 * t.val + r.val; rw [hi.1]; omega
  | ⟨1, _⟩ => show win1_1.index t (1 : Fin 2) * 64 + 1 * b.val = b.val; rw [hi.2]; omega

theorem iblk1_2_gen (V : (c : Dev nD) → (b : Ref sig .tc) → Buf (Elt Ideal) ((c : Thread nD τ).loc b)) (c : Dev nD) (t : Fin cfg1.N)
    (r : Fin 2000) (h : 2000 * t.val + r.val < 100000)
    (hi : win1_2.index t (0 : Fin 2) = t.val ∧ win1_2.index t (1 : Fin 2) = 0) :
    (iblk1 (F := Ideal) V c 2 t : S2000x1.Idx → EReal) (ix2 r (0 : Fin 1))
      = (V c main_v44 : S100000x1.Idx → EReal) (ix2 ⟨2000 * t.val + r.val, h⟩ (0 : Fin 1)) := by
  unfold iblk1
  show (V c main_v44 : S100000x1.Idx → EReal) (((cfg1.win 2).blk t).view.emb (ix2 r (0 : Fin 1))) = _
  refine congrArg (V c main_v44 : S100000x1.Idx → EReal) ?_
  funext a
  apply Fin.ext
  match a with
  | ⟨0, _⟩ => show win1_2.index t (0 : Fin 2) * 2000 + 1 * r.val = 2000 * t.val + r.val; rw [hi.1]; omega
  | ⟨1, _⟩ => show win1_2.index t (1 : Fin 2) * 1 + 1 * (0 : Fin 1).val = (0 : Fin 1).val; rw [hi.2]; omega

theorem iblk1_4_gen (V : (c : Dev nD) → (b : Ref sig .tc) → Buf (Elt Ideal) ((c : Thread nD τ).loc b)) (c : Dev nD) (t : Fin cfg1.N)
    (r : Fin 2000) (h : 2000 * t.val + r.val < 100000)
    (hi : win1_4.index t (0 : Fin 2) = t.val ∧ win1_4.index t (1 : Fin 2) = 0) :
    (iblk1 (F := Ideal) V c 4 t : S2000x1.Idx → BitVec 32) (ix2 r (0 : Fin 1))
      = (V c main_v50 : S100000x1.Idx → BitVec 32) (ix2 ⟨2000 * t.val + r.val, h⟩ (0 : Fin 1)) := by
  unfold iblk1
  show (V c main_v50 : S100000x1.Idx → BitVec 32) (((cfg1.win 4).blk t).view.emb (ix2 r (0 : Fin 1))) = _
  refine congrArg (V c main_v50 : S100000x1.Idx → BitVec 32) ?_
  funext a
  apply Fin.ext
  match a with
  | ⟨0, _⟩ => show win1_4.index t (0 : Fin 2) * 2000 + 1 * r.val = 2000 * t.val + r.val; rw [hi.1]; omega
  | ⟨1, _⟩ => show win1_4.index t (1 : Fin 2) * 1 + 1 * (0 : Fin 1).val = (0 : Fin 1).val; rw [hi.2]; omega

theorem iblk1_3_gen (V : (c : Dev nD) → (b : Ref sig .tc) → Buf (Elt Ideal) ((c : Thread nD τ).loc b)) (c : Dev nD) (t : Fin cfg1.N)
    (b : Fin 64) (hi : win1_3.index t (0 : Fin 1) = 0) :
    (iblk1 (F := Ideal) V c 3 t : S64.Idx → EReal) (ix1 b) = (V c main_arg4 : S64.Idx → EReal) (ix1 b) := by
  unfold iblk1
  show (V c main_arg4 : S64.Idx → EReal) (((cfg1.win 3).blk t).view.emb (ix1 b)) = _
  refine congrArg (V c main_arg4 : S64.Idx → EReal) ?_
  funext a
  apply Fin.ext
  match a with
  | ⟨0, _⟩ => show win1_3.index t (0 : Fin 1) * 64 + 1 * b.val = b.val; rw [hi]; omega

/-- A node's rectified feature as the pooling body computes it from its blocks is the specification's convolution
    output at that node: block row r of point t is node 2000 t + r. -/
theorem blockConv_eq (c : Dev nD) (t : Fin cfg1.N) (r : Fin 2000) (b : Fin 64) :
    blockConv (iblk1 (F := Ideal) (V3 m ρ) c 0 t) (iblk1 (F := Ideal) (V3 m ρ) c 1 t) (iblk1 (F := Ideal) (V3 m ρ) c 2 t) (iblk1 (F := Ideal) (V3 m ρ) c 3 t) r b
      = conv (argsOf m c) ⟨2000 * t.val + r.val, by have := t.isLt; have h : cfg1.N = 50 := N_1; have := r.isLt; omega⟩ b := by
  have hN : cfg1.N = 50 := N_1
  have ht := t.isLt
  have hr := r.isLt
  have h : 2000 * t.val + r.val < 100000 := by omega
  have e0 : (iblk1 (F := Ideal) (V3 m ρ) c 0 t : S2000x64.Idx → EReal) (ix2 r b) = gathered (argsOf m c) ⟨2000 * t.val + r.val, h⟩ b :=
    (iblk1_0_gen (V3 m ρ) c t r b h (idx1_0 t)).trans (congrFun (V3_agg m ρ c) _)
  have e1 : (iblk1 (F := Ideal) (V3 m ρ) c 1 t : S2000x64.Idx → EReal) (ix2 r b) = feat (argsOf m c) ⟨2000 * t.val + r.val, h⟩ b :=
    (iblk1_1_gen (V3 m ρ) c t r b h (idx1_1 t)).trans (congrFun (V3_feat m ρ c) _)
  have e2 : (iblk1 (F := Ideal) (V3 m ρ) c 2 t : S2000x1.Idx → EReal) (ix2 r (0 : Fin 1))
      = dinv (argsOf m c) ⟨2000 * t.val + r.val, h⟩ * dinv (argsOf m c) ⟨2000 * t.val + r.val, h⟩ :=
    (iblk1_2_gen (V3 m ρ) c t r h (idx1_2 t)).trans (congrFun (V3_dinv2 m ρ c) _)
  have e3 : (iblk1 (F := Ideal) (V3 m ρ) c 3 t : S64.Idx → EReal) (ix1 b) = (argsOf m c).bg (ix1 b) :=
    (iblk1_3_gen (V3 m ρ) c t b (idx1_3 t)).trans (congrFun (V3_arg4 m ρ c) _)
  unfold blockConv conv
  first
    | rw [e0, e1, e2, e3]
    | simp only [e0, e1, e2, e3]

/-! ## Graph words and the one-hot factor -/

/-- A graph number below 1024, as a 32-bit word read signed, is itself. -/
theorem toInt_ofNat_graph (g : Fin 1024) : (BitVec.ofNat 32 g.val).toInt = (g.val : Int) := by
  have hg := g.isLt
  rw [BitVec.toInt_eq_toNat_cond, BitVec.toNat_ofNat, Nat.mod_eq_of_lt (by omega)]
  split <;> omega

/-- A word is graph g's word exactly when, read signed, it is g. -/
theorem word_eq_iff (w : BitVec 32) (g : Fin 1024) : w = BitVec.ofNat 32 g.val ↔ w.toInt = (g.val : Int) :=
  ⟨fun h => h ▸ toInt_ofNat_graph g, fun h => BitVec.eq_of_toInt_eq (h.trans (toInt_ofNat_graph g).symm)⟩

/-- The one-hot factor times a value: the value on graph g's words, zero elsewhere (on the extended reals 1 · x = x
    and 0 · x = 0 for every x). -/
theorem onehot_mul (w : BitVec 32) (g : Fin 1024) (x : EReal) [Decidable (w = BitVec.ofNat 32 g.val)] :
    (if w = BitVec.ofNat 32 g.val then (1 : EReal) else 0) * x = if w.toInt = (g.val : Int) then x else 0 := by
  by_cases h : w.toInt = (g.val : Int)
  · rw [if_pos ((word_eq_iff w g).mpr h), if_pos h, one_mul]
  · rw [if_neg (fun e => h ((word_eq_iff w g).mp e)), if_neg h, zero_mul]

/-! ## The sums, over the naturals -/

/-- Node k's contribution to graph g's sum at column b, as a function of every natural number: the node's
    convolution output if k is a node whose graph word is g, and zero otherwise. -/
def contrib (I : Inputs) (g : Fin 1024) (b : Fin 64) (k : ℕ) : EReal :=
  if h : k < 100000 then (if (I.graphOf (ix1 ⟨k, h⟩)).toInt = (g.val : Int) then conv I ⟨k, h⟩ b else 0) else 0

/-- The sum over the first 2000 (n + 1) naturals is the sum over the first 2000 n and the next block of 2000. -/
theorem sum_range_block (f : ℕ → EReal) (n : ℕ) :
    ∑ k ∈ Finset.range (2000 * (n + 1)), f k = ∑ k ∈ Finset.range (2000 * n), f k + ∑ r : Fin 2000, f (2000 * n + r.val) := by
  rw [show 2000 * (n + 1) = 2000 * n + 2000 by omega, Finset.sum_range_add, Fin.sum_univ_eq_sum_range (fun x => f (2000 * n + x)) 2000]

/-- Over all 100000 nodes the contributions add up to the graph's sum. -/
theorem sum_contrib_all (I : Inputs) (g : Fin 1024) (b : Fin 64) :
    ∑ k ∈ Finset.range 100000, contrib I g b k = poolSum I g b := by
  rw [← Fin.sum_univ_eq_sum_range (contrib I g b) 100000]
  unfold poolSum nodesOf
  rw [Finset.sum_filter]
  refine Finset.sum_congr rfl fun i _ => ?_
  unfold contrib
  rw [dif_pos i.isLt]

/-! ## The invariant -/

/-- One term of a block's one-hot product: row r of point t's block brings node 2000 t + r's contribution. Stated over
    the five blocks as the body receives them. -/
theorem block_term (c : Dev nD) (t : Fin cfg1.N) (g : Fin 1024) (b : Fin 64) (r : Fin 2000)
    (v3 : Vec Ideal S2000x64 .f32) (v5 : Vec Ideal S2000x64 .bf16) (v8 : Vec Ideal S2000x1 .f32) (v13 : Vec Ideal S64 .f32)
    (v19 : Vec Ideal S2000x1 .i32)
    (h3 : v3 = iblk1 (F := Ideal) (V3 m ρ) c 0 t) (h5 : v5 = iblk1 (F := Ideal) (V3 m ρ) c 1 t)
    (h8 : v8 = iblk1 (F := Ideal) (V3 m ρ) c 2 t) (h13 : v13 = iblk1 (F := Ideal) (V3 m ρ) c 3 t)
    (h19 : v19 = iblk1 (F := Ideal) (V3 m ρ) c 4 t) :
    (if v19 (ix2 r 0) = BitVec.ofNat 32 g.val then (1 : EReal) else 0) * blockConv v3 v5 v8 v13 r b
      = contrib (argsOf m c) g b (2000 * t.val + r.val) := by
  have hN : cfg1.N = 50 := N_1
  have ht := t.isLt
  have hr := r.isLt
  have h : 2000 * t.val + r.val < 100000 := by omega
  have e4 : v19 (ix2 r 0) = (argsOf m c).graphOf (ix1 ⟨2000 * t.val + r.val, h⟩) := by
    rw [h19]
    exact (iblk1_4_gen (V3 m ρ) c t r h (idx1_4 t)).trans (congrFun (V3_graph m ρ c) _)
  have eb : blockConv v3 v5 v8 v13 r b = conv (argsOf m c) ⟨2000 * t.val + r.val, h⟩ b := by
    rw [h3, h5, h8, h13]
    exact blockConv_eq m ρ c t r b
  rw [e4, eb]
  refine (onehot_mul _ g _).trans ?_
  unfold contrib
  rw [dif_pos h]

set_option maxHeartbeats 1000000 in
/-- After point n the scratch holds, at graph g and column b, the contributions of the nodes below 2000 (n + 1):
    the first point adds its block's to zeros, each later point adds its block's to what the point before left. -/
theorem acc_inv (c : Dev nD) (g : Fin 1024) (b : Fin 64) : ∀ (n : ℕ) (hn : n < cfg1.N),
    accAt1 (F := Ideal) (V3 m ρ) c n hn (ix2 g b) = ∑ k ∈ Finset.range (2000 * (n + 1)), contrib (argsOf m c) g b k := by
  intro n
  induction n with
  | zero =>
    intro hn
    have h0 := accAt1_zero (F := Ideal) (V3 m ρ) c ⟨0, hn⟩ rfl
    refine (congrFun h0 (ix2 g b)).trans ?_
    refine (k1_pay2_apply _ _ _ _ _ _ g b).trans ?_
    rw [k1_pay1_apply, zero_add, sum_range_block (contrib (argsOf m c) g b) 0, Finset.range_zero, Finset.sum_empty, zero_add]
    exact Finset.sum_congr rfl fun r _ => block_term m ρ c ⟨0, hn⟩ g b r _ _ _ _ _ rfl rfl rfl rfl rfl
  | succ n ih =>
    intro hn
    have h1 := accAt1_pos (F := Ideal) (V3 m ρ) c ⟨n + 1, hn⟩ (Nat.succ_ne_zero n)
    refine (congrFun h1 (ix2 g b)).trans ?_
    refine (k1_pay2_apply _ _ _ _ _ _ g b).trans ?_
    rw [sum_range_block (contrib (argsOf m c) g b) (n + 1)]
    refine congrArg₂ (· + ·) ?_ ?_
    · exact ih (Nat.lt_of_succ_lt hn)
    · exact Finset.sum_congr rfl fun r _ => block_term m ρ c ⟨n + 1, hn⟩ g b r _ _ _ _ _ rfl rfl rfl rfl rfl

/-- THE SUMS: the scratch after the last point. -/
theorem acc_last (c : Dev nD) (t : Fin cfg1.N) (ht : t.val = 49) (g : Fin 1024) (b : Fin 64) :
    accAt1 (F := Ideal) (V3 m ρ) c t.val t.isLt (ix2 g b) = poolSum (argsOf m c) g b := by
  refine (acc_inv m ρ c g b t.val t.isLt).trans ?_
  rw [ht, show 2000 * (49 + 1) = 100000 by norm_num]
  exact sum_contrib_all (argsOf m c) g b

end Cert.KernelIdeal.PoolValue

end
-- ==== Proof.KIPool.lean ====
/-
  What the pooling launch leaves in the program's result: the class scores.

  The output window is written back once, at the last point, and its one block is the whole [1024, 4] array; what the
  body stored there is the classifier applied to the finished per-graph sums divided by the counts.
-/
import proofs.«426677_j49392123904592_3_alg».proof.Proof.KIPoolAcc
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.PoolValue

open Cert.KernelIdeal Cert.KernelIdeal.Gen Cert.KernelIdeal.Frame Cert.GraphPool
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## Blocks that are whole arrays

The counts, the classifier's two weight matrices and two biases, and the result are each ONE block: the block index is 0
on every axis at every point, so a block's entry is the array's entry at the same index. -/

/-- The index maps of the windows the final value reads, and of the result's window, decided over the grid. -/
theorem whole_idx : ∀ t : Fin cfg1.N,
    win1_5.index t (0 : Fin 2) = 0 ∧ win1_5.index t (1 : Fin 2) = 0
  ∧ win1_6.index t (0 : Fin 2) = 0 ∧ win1_6.index t (1 : Fin 2) = 0
  ∧ win1_7.index t (0 : Fin 1) = 0
  ∧ win1_8.index t (0 : Fin 2) = 0 ∧ win1_8.index t (1 : Fin 2) = 0
  ∧ win1_9.index t (0 : Fin 1) = 0
  ∧ win1_10.index t (0 : Fin 2) = 0 ∧ win1_10.index t (1 : Fin 2) = 0 :=
  (by decide +kernel : ∀ t : Fin grid1.N, _)

/-- The counts' block is the counts' array. -/
theorem iblk1_5_apply (V : (c : Dev nD) → (b : Ref sig .tc) → Buf (Elt Ideal) ((c : Thread nD τ).loc b)) (c : Dev nD) (t : Fin cfg1.N) (y : S1024x1.Idx) :
    (iblk1 (F := Ideal) V c 5 t : S1024x1.Idx → EReal) y = (V c main_v49 : S1024x1.Idx → EReal) y := by
  unfold iblk1
  show (V c main_v49 : S1024x1.Idx → EReal) (((cfg1.win 5).blk t).view.emb y) = _
  obtain ⟨e0, e1, -⟩ := whole_idx t
  refine congrArg _ (funext fun a => Fin.ext ?_)
  match a with
  | ⟨0, _⟩ => show win1_5.index t (0 : Fin 2) * 1024 + 1 * (y 0).val = (y 0).val; omega
  | ⟨1, _⟩ => show win1_5.index t (1 : Fin 2) * 1 + 1 * (y 1).val = (y 1).val; omega

/-- The first dense layer's weights' block is their array. -/
theorem iblk1_6_apply (V : (c : Dev nD) → (b : Ref sig .tc) → Buf (Elt Ideal) ((c : Thread nD τ).loc b)) (c : Dev nD) (t : Fin cfg1.N) (y : S64x32.Idx) :
    (iblk1 (F := Ideal) V c 6 t : S64x32.Idx → EReal) y = (V c main_arg5 : S64x32.Idx → EReal) y := by
  unfold iblk1
  show (V c main_arg5 : S64x32.Idx → EReal) (((cfg1.win 6).blk t).view.emb y) = _
  obtain ⟨-, -, e0, e1, -⟩ := whole_idx t
  refine congrArg _ (funext fun a => Fin.ext ?_)
  match a with
  | ⟨0, _⟩ => show win1_6.index t (0 : Fin 2) * 64 + 1 * (y 0).val = (y 0).val; omega
  | ⟨1, _⟩ => show win1_6.index t (1 : Fin 2) * 32 + 1 * (y 1).val = (y 1).val; omega

/-- The first dense layer's bias's block is its array. -/
theorem iblk1_7_apply (V : (c : Dev nD) → (b : Ref sig .tc) → Buf (Elt Ideal) ((c : Thread nD τ).loc b)) (c : Dev nD) (t : Fin cfg1.N) (y : S32.Idx) :
    (iblk1 (F := Ideal) V c 7 t : S32.Idx → EReal) y = (V c main_arg6 : S32.Idx → EReal) y := by
  unfold iblk1
  show (V c main_arg6 : S32.Idx → EReal) (((cfg1.win 7).blk t).view.emb y) = _
  obtain ⟨-, -, -, -, e0, -⟩ := whole_idx t
  refine congrArg _ (funext fun a => Fin.ext ?_)
  match a with
  | ⟨0, _⟩ => show win1_7.index t (0 : Fin 1) * 32 + 1 * (y 0).val = (y 0).val; omega

/-- The second dense layer's weights' block is their array. -/
theorem iblk1_8_apply (V : (c : Dev nD) → (b : Ref sig .tc) → Buf (Elt Ideal) ((c : Thread nD τ).loc b)) (c : Dev nD) (t : Fin cfg1.N) (y : S32x4.Idx) :
    (iblk1 (F := Ideal) V c 8 t : S32x4.Idx → EReal) y = (V c main_arg7 : S32x4.Idx → EReal) y := by
  unfold iblk1
  show (V c main_arg7 : S32x4.Idx → EReal) (((cfg1.win 8).blk t).view.emb y) = _
  obtain ⟨-, -, -, -, -, e0, e1, -⟩ := whole_idx t
  refine congrArg _ (funext fun a => Fin.ext ?_)
  match a with
  | ⟨0, _⟩ => show win1_8.index t (0 : Fin 2) * 32 + 1 * (y 0).val = (y 0).val; omega
  | ⟨1, _⟩ => show win1_8.index t (1 : Fin 2) * 4 + 1 * (y 1).val = (y 1).val; omega

/-- The second dense layer's bias's block is its array. -/
theorem iblk1_9_apply (V : (c : Dev nD) → (b : Ref sig .tc) → Buf (Elt Ideal) ((c : Thread nD τ).loc b)) (c : Dev nD) (t : Fin cfg1.N) (y : S4.Idx) :
    (iblk1 (F := Ideal) V c 9 t : S4.Idx → EReal) y = (V c main_arg8 : S4.Idx → EReal) y := by
  unfold iblk1
  show (V c main_arg8 : S4.Idx → EReal) (((cfg1.win 9).blk t).view.emb y) = _
  obtain ⟨-, -, -, -, -, -, -, e0, -⟩ := whole_idx t
  refine congrArg _ (funext fun a => Fin.ext ?_)
  match a with
  | ⟨0, _⟩ => show win1_9.index t (0 : Fin 1) * 4 + 1 * (y 0).val = (y 0).val; omega

/-! ## The value stored at the last point -/

/-- At the last point the body's final value at (g, k) is the specification's class score: the scratch holds the
    per-graph sums, the counts' block the per-graph counts, and the four remaining blocks the classifier's weights. -/
theorem final_apply (c : Dev nD) (t : Fin cfg1.N) (ht : t.val = 49) (g : Fin 1024) (k : Fin 4) :
    k1_pay3 (F := Ideal) (accAt1 (F := Ideal) (V3 m ρ) c t.val t.isLt) (iblk1 (F := Ideal) (V3 m ρ) c 5 t) (iblk1 (F := Ideal) (V3 m ρ) c 6 t)
        (iblk1 (F := Ideal) (V3 m ρ) c 7 t) (iblk1 (F := Ideal) (V3 m ρ) c 8 t) (iblk1 (F := Ideal) (V3 m ρ) c 9 t) (ix2 g k)
      = out (argsOf m c) g k := by
  rw [k1_pay3_apply]
  unfold GraphPool.out GraphPool.hidden GraphPool.pooled
  refine congrArg₂ (· + ·) (Finset.sum_congr rfl fun j _ => ?_) ?_
  · refine congrArg₂ (· * ·) (congrArg (max · 0) (congrArg₂ (· + ·) (Finset.sum_congr rfl fun b _ => ?_) ?_)) ?_
    · rw [acc_last m ρ c t ht g b, iblk1_5_apply, iblk1_6_apply, V3_count, V3_arg5]
      rfl
    · rw [iblk1_7_apply, V3_arg6]
    · rw [iblk1_8_apply, V3_arg7]
  · rw [iblk1_9_apply, V3_arg8]

/-! ## From the one block to the array -/

/-- What the last point writes back is the (one, whole) block of the specification's result. -/
theorem flushed_result (c : Dev nD) (t : Fin cfg1.N) (hf : (cfg1.win 10).flush t = true) :
    (dat1 (F := Ideal) (V3 m ρ) c).flushed 10 t = ((cfg1.win 10).blk t).view.read (Elt Ideal) (result (argsOf m c)) := by
  have ht : t.val = 49 := by
    have h := (flush1_10 t).mp hf
    have hN : t.val < 50 := lt_of_lt_of_eq t.isLt (show cfg1.N = 50 from N_1)
    omega
  show (cfg1.win 10).cut (grid1.coords t) ((dat1 (F := Ideal) (V3 m ρ) c).after 10 t) = _
  rw [after1_10]
  refine funext fun (y : S1024x4.Idx) => ?_
  obtain ⟨g, k, rfl⟩ : ∃ (g : Fin 1024) (k : Fin 4), y = ix2 g k := ⟨y 0, y 1, eq_ix2 y⟩
  have he : ((cfg1.win 10).blk t).view.emb (ix2 g k) = ix2 g k := by
    obtain ⟨-, -, -, -, -, -, -, -, e0, e1⟩ := whole_idx t
    funext a; apply Fin.ext
    match a with
    | ⟨0, _⟩ => show win1_10.index t (0 : Fin 2) * 1024 + 1 * g.val = g.val; omega
    | ⟨1, _⟩ => show win1_10.index t (1 : Fin 2) * 4 + 1 * k.val = k.val; omega
  show k1_pay3 (F := Ideal) _ _ _ _ _ _ (ix2 g k) = result (argsOf m c) (((cfg1.win 10).blk t).view.emb (ix2 g k))
  rw [he, result_apply]
  exact final_apply m ρ c t ht g k

/-- An index of the result array is in point `t`'s block iff each coordinate is in the block's range on its axis. -/
theorem mem_blk_result (t : Fin cfg1.N) (i : S1024x4.Idx) :
    i ∈ ((cfg1.win 10).blk t).view.set ↔ ∀ a : Fin 2, win1_10.index t a * S1024x4.size a ≤ (i a).val ∧ (i a).val < win1_10.index t a * S1024x4.size a + S1024x4.size a := by
  show i ∈ ((View.whole main_v51).slice (win1_10.rect t)).set ↔ _
  rw [View.set_slice_whole, Rect.mem_set_unit]
  exact Iff.rfl

/-- Every index of the result array is in the last point's block, and the last point writes its block back. -/
theorem covered_result (i : S1024x4.Idx) :
    ∃ t : Fin cfg1.N, (cfg1.win 10).flush t = true ∧ i ∈ ((cfg1.win 10).blk t).view.set := by
  have hN : cfg1.N = 50 := N_1
  refine ⟨⟨49, by omega⟩, (flush1_10 _).mpr rfl, ?_⟩
  rw [mem_blk_result]
  obtain ⟨-, -, -, -, -, -, -, -, e0, e1⟩ := whole_idx ⟨49, by omega⟩
  intro a
  match a with
  | ⟨0, _⟩ =>
    show win1_10.index ⟨49, _⟩ (0 : Fin 2) * 1024 ≤ (i 0).val ∧ (i 0).val < win1_10.index ⟨49, _⟩ (0 : Fin 2) * 1024 + 1024
    have h0 : (i 0).val < 1024 := (i 0).isLt; omega
  | ⟨1, _⟩ =>
    show win1_10.index ⟨49, _⟩ (1 : Fin 2) * 4 ≤ (i 1).val ∧ (i 1).val < win1_10.index ⟨49, _⟩ (1 : Fin 2) * 4 + 4
    have h1 : (i 1).val < 4 := (i 1).isLt; omega

/-- THE RESULT: the program's result array (its `%51`) after the run. -/
theorem V4_result (c : Dev nD) : (V4 (F := Ideal) m ρ c main_v51 : S1024x4.Idx → EReal) = result (argsOf m c) := by
  show W4 (F := Ideal) m ρ c (Proc.devRef .tc (Pipeline.arrRef spec1 10)) = _
  rw [W4_arr]
  exact (dat1 (F := Ideal) (V3 m ρ) c).arrAt_eq_of_cover 10 (result (argsOf m c)) (fun t hf => flushed_result m ρ c t hf) covered_result

end Cert.KernelIdeal.PoolValue

end
-- ==== Proof.RefConv.lean ====
/-
  The reference's graph convolution, read entry by entry on the extended reals.

  The reference appends one loop edge per node to the edge list before it counts degrees and before it gathers and
  adds the messages. Read at a node, a sum over the lengthened list is the sum over the real edges plus the one loop
  term (the loop edge of node i lands on i and on no other node, and reads row i): so its degree is the in-degree plus
  one, and its aggregate is the real edges' contribution plus the node's own features scaled by the square of its factor.
-/
import proofs.«426677_j49392123904592_3_alg».proof.Proof.Gen.ReferenceIdeal.Run
import proofs.«426677_j49392123904592_3_alg».proof.Proof.Gen.ReferenceIdeal.Read
import proofs.«426677_j49392123904592_3_alg».proof.Proof.Spec
import proofs.«426677_j49392123904592_3_alg».proof.Proof.LibScatterRead
import proofs.«426677_j49392123904592_3_alg».proof.Proof.LibScatterVec

noncomputable section

open scoped BigOperators

namespace Cert.GraphPool.RefValue

open Cert.ReferenceIdeal Cert.ReferenceIdeal.Read Cert.GraphPool
open Idealize.ShloMosaic Idealize.ShloMosaic.ValueIdx

/-- The nine argument arrays as the inputs of the specification. -/
abbrev ofArgs (x0 : (⟨S100000x128, .f32⟩ : BufTy).Contents (Elt Ideal)) (x1 : (⟨S2x3200000, .i32⟩ : BufTy).Contents (Elt Ideal)) (x2 : (⟨S100000, .i32⟩ : BufTy).Contents (Elt Ideal)) (x3 : (⟨S128x64, .f32⟩ : BufTy).Contents (Elt Ideal)) (x4 : (⟨S64, .f32⟩ : BufTy).Contents (Elt Ideal)) (x5 : (⟨S64x32, .f32⟩ : BufTy).Contents (Elt Ideal)) (x6 : (⟨S32, .f32⟩ : BufTy).Contents (Elt Ideal)) (x7 : (⟨S32x4, .f32⟩ : BufTy).Contents (Elt Ideal)) (x8 : (⟨S4, .f32⟩ : BufTy).Contents (Elt Ideal)) : Inputs :=
  ⟨x0, x1, x2, x3, x4, x5, x6, x7, x8⟩

/-! ## The lengthened edge list: positions below 3200000 are the real edges, the rest the loop edges -/

/-- Real edge `k` as a position of the lengthened list. -/
def realPos (k : Fin 3200000) : Fin 3300000 := ⟨k.val, by omega⟩

/-- Node `j`'s loop edge as a position of the lengthened list. -/
def loopPos (j : Fin 100000) : Fin 3300000 := ⟨3200000 + j.val, by omega⟩

/-- A sum over the lengthened list is the sum over the real edges plus the sum over the loop edges. -/
theorem sum_split (f : Fin 3300000 → EReal) :
    ∑ k : Fin 3300000, f k = ∑ k : Fin 3200000, f (realPos k) + ∑ j : Fin 100000, f (loopPos j) := by
  have h := Fin.sum_univ_add (M := EReal) (a := 3200000) (b := 100000) f
  exact h

/-- The same for the positions a predicate selects. -/
theorem sum_filter_split (p : Fin 3300000 → Prop) [DecidablePred p] (f : Fin 3300000 → EReal) :
    ∑ k ∈ Finset.univ.filter p, f k
      = ∑ k ∈ Finset.univ.filter (fun k : Fin 3200000 => p (realPos k)), f (realPos k)
        + ∑ j ∈ Finset.univ.filter (fun j : Fin 100000 => p (loopPos j)), f (loopPos j) := by
  rw [Finset.sum_filter, Finset.sum_filter, Finset.sum_filter]
  exact sum_split fun k => if p k then f k else 0

/-- A node number below 100000, as a 32-bit word read signed, is itself. -/
theorem toInt_ofNat_node (j : Fin 100000) : (BitVec.ofNat 32 j.val).toInt = (j.val : Int) := by
  have hj := j.isLt
  have hn : (BitVec.ofNat 32 j.val).toNat = j.val := by
    rw [BitVec.toNat_ofNat]
    exact Nat.mod_eq_of_lt (by omega)
  rw [BitVec.toInt_eq_toNat_of_lt (by rw [hn]; omega), hn]

/-- So a loop edge's word names node `i` exactly when it is node `i`'s loop edge. -/
theorem loop_word_eq_iff (j i : Fin 100000) : (BitVec.ofNat 32 j.val).toInt = (i.val : Int) ↔ j = i := by
  rw [toInt_ofNat_node]
  constructor
  · intro h; exact Fin.ext (by exact_mod_cast h)
  · intro h; rw [h]

/-- Among the loop edges, only node `i`'s own lands on `i`. -/
theorem sum_loop_filter (i : Fin 100000) (g : Fin 100000 → EReal) :
    ∑ j ∈ Finset.univ.filter (fun j : Fin 100000 => (BitVec.ofNat 32 j.val).toInt = (i.val : Int)), g j = g i := by
  have hf : Finset.univ.filter (fun j : Fin 100000 => (BitVec.ofNat 32 j.val).toInt = (i.val : Int)) = {i} := by
    ext j
    rw [Finset.mem_filter, Finset.mem_singleton, loop_word_eq_iff]
    exact ⟨fun h => h.2, fun h => ⟨Finset.mem_univ _, h⟩⟩
  rw [hf, Finset.sum_singleton]

/-- A loop edge's word is not negative, so wrapping leaves it, and the row it reads is its node. -/
theorem rowOf_ofNat_node (i : Fin 100000) : rowOf (BitVec.ofNat 32 i.val) = i := by
  have hi := i.isLt
  have hs : (BitVec.ofNat 32 i.val).slt 0#32 = false := by
    rw [BitVec.slt_eq_decide, toInt_ofNat_node, BitVec.toInt_zero]
    exact decide_eq_false (by omega)
  have hw : wrapWord (BitVec.ofNat 32 i.val) = BitVec.ofNat 32 i.val := by
    unfold wrapWord
    show Scalar.select (BitVec.ofBool ((BitVec.ofNat 32 i.val).slt 0#32)) _ _ = _
    rw [hs]
    exact select_zero _ _
  apply Fin.ext
  show min (wrapWord (BitVec.ofNat 32 i.val)).toInt.toNat (100000 - 1) = i.val
  rw [hw, toInt_ofNat_node]
  omega

/-! ## The lengthened source and destination lists at a position -/

/-- The lengthened source list (the reference's `%3`) at a position. -/
def srcExt (x1 : (⟨S2x3200000, .i32⟩ : BufTy).Contents (Elt Ideal)) (k : Fin 3300000) : BitVec 32 :=
  val_main_v3 (F := Ideal) x1 (ix1 k)

/-- The lengthened destination list (the reference's `%6`) at a position. -/
def dstExt (x1 : (⟨S2x3200000, .i32⟩ : BufTy).Contents (Elt Ideal)) (k : Fin 3300000) : BitVec 32 :=
  val_main_v6 (F := Ideal) x1 (ix1 k)

/-- Row 0 of the edge array, flattened, at `k` is the edge array at (0, k). -/
theorem v2_apply (x1 : (⟨S2x3200000, .i32⟩ : BufTy).Contents (Elt Ideal)) (k : Fin 3200000) :
    val_main_v2 (F := Ideal) x1 (ix1 k) = x1 (ix2 (0 : Fin 2) k) := by
  rw [val_main_v2_apply, val_main_v1_apply]
  congr 1
  funext a
  refine Fin.ext ?_
  match a with
  | ⟨0, _⟩ => rfl
  | ⟨1, _⟩ => exact Nat.mod_eq_of_lt k.isLt

/-- Row 1 of the edge array, flattened, at `k` is the edge array at (1, k). -/
theorem v5_apply (x1 : (⟨S2x3200000, .i32⟩ : BufTy).Contents (Elt Ideal)) (k : Fin 3200000) :
    val_main_v5 (F := Ideal) x1 (ix1 k) = x1 (ix2 (1 : Fin 2) k) := by
  rw [val_main_v5_apply, val_main_v4_apply]
  congr 1
  funext a
  refine Fin.ext ?_
  match a with
  | ⟨0, _⟩ => rfl
  | ⟨1, _⟩ => exact Nat.mod_eq_of_lt k.isLt

/-- At a real edge's position the lengthened source list is the edge's source word. -/
theorem srcExt_real (x1 : (⟨S2x3200000, .i32⟩ : BufTy).Contents (Elt Ideal)) (k : Fin 3200000) :
    srcExt x1 (realPos k) = x1 (ix2 (0 : Fin 2) k) := by
  unfold srcExt val_main_v3
  rw [← v2_apply x1 k]
  exact concatenate_pair_apply_left (s₁ := S3200000) (s₂ := S100000) 0 _ _ _ (ix1 (realPos k)) rfl (ix1 k)
    (fun b => match b with | ⟨0, _⟩ => rfl)

/-- At a loop edge's position it is the node's number. -/
theorem srcExt_loop (x1 : (⟨S2x3200000, .i32⟩ : BufTy).Contents (Elt Ideal)) (j : Fin 100000) :
    srcExt x1 (loopPos j) = BitVec.ofNat 32 j.val := by
  unfold srcExt val_main_v3
  rw [← val_main_v0_apply (F := Ideal) (ix1 j)]
  exact concatenate_pair_apply_right (s₁ := S3200000) (s₂ := S100000) 0 _ _ _ (ix1 (loopPos j)) rfl rfl (ix1 j)
    (fun b hb => match b, hb with | ⟨0, _⟩, hb => absurd rfl hb)
    (show j.val + 3200000 = 3200000 + j.val by omega)

/-- At a real edge's position the lengthened destination list is the edge's destination word. -/
theorem dstExt_real (x1 : (⟨S2x3200000, .i32⟩ : BufTy).Contents (Elt Ideal)) (k : Fin 3200000) :
    dstExt x1 (realPos k) = x1 (ix2 (1 : Fin 2) k) := by
  unfold dstExt val_main_v6
  rw [← v5_apply x1 k]
  exact concatenate_pair_apply_left (s₁ := S3200000) (s₂ := S100000) 0 _ _ _ (ix1 (realPos k)) rfl (ix1 k)
    (fun b => match b with | ⟨0, _⟩ => rfl)

/-- At a loop edge's position it is the node's number. -/
theorem dstExt_loop (x1 : (⟨S2x3200000, .i32⟩ : BufTy).Contents (Elt Ideal)) (j : Fin 100000) :
    dstExt x1 (loopPos j) = BitVec.ofNat 32 j.val := by
  unfold dstExt val_main_v6
  rw [← val_main_v0_apply (F := Ideal) (ix1 j)]
  exact concatenate_pair_apply_right (s₁ := S3200000) (s₂ := S100000) 0 _ _ _ (ix1 (loopPos j)) rfl rfl (ix1 j)
    (fun b hb => match b, hb with | ⟨0, _⟩, hb => absurd rfl hb)
    (show j.val + 3200000 = 3200000 + j.val by omega)

/-! ## The degree and the normalising factor -/

section Record

variable (I : Inputs)

/-- The column of destination words the two scatters are indexed by, at a position. -/
theorem v9_apply (k : Fin 3300000) : val_main_v9 (F := Ideal) I.edges (ix2 k (0 : Fin 1)) = dstExt I.edges k := by
  rw [val_main_v9_apply]
  unfold dstExt
  congr 1
  funext a
  match a with
  | ⟨0, _⟩ => rfl

theorem v41_apply (k : Fin 3300000) : val_main_v41 (F := Ideal) I.edges (ix2 k (0 : Fin 1)) = dstExt I.edges k := by
  rw [val_main_v41_apply]
  unfold dstExt
  congr 1
  funext a
  match a with
  | ⟨0, _⟩ => rfl

/-- The updates of the degree count are all the word of 1.0. -/
theorem v7_apply (k : Fin 3300000) : val_main_v7 (F := Ideal) (ix1 k) = one := by
  rw [val_main_v7_apply]
  rfl

/-- The degree count starts from zero. -/
theorem v8_apply (i : Fin 100000) : val_main_v8 (F := Ideal) (ix1 i) = 0 := by
  rw [val_main_v8_apply]
  exact Ideal.ofBits_zero_f32

/-- THE DEGREE: the count over the lengthened list is the in-degree over the real edges plus the node's own loop. -/
theorem v10_apply (i : Fin 100000) : val_main_v10 (F := Ideal) I.edges (ix1 i) = deg I i := by
  refine (Cert.SparseVec.scatterAdd_vec_apply Facts₀.scatter_S100000_S3300000x1_S3300000_n_0_0_1_wf
    (val_main_v8 (F := Ideal)) (val_main_v9 (F := Ideal) I.edges) (val_main_v7 (F := Ideal)) i).trans ?_
  rw [v8_apply, zero_add]
  simp only [v9_apply, v7_apply]
  rw [sum_filter_split]
  simp only [dstExt_real, dstExt_loop]
  rw [sum_loop_filter i fun _ => one]
  unfold deg edgesInto dstWord
  rfl

/-- The floor of the degree is the word of 1.0 at every node. -/
theorem v11_apply (i : Fin 100000) : val_main_v11 (F := Ideal) (ix1 i) = one := by
  rw [val_main_v11_apply]
  rfl

/-- The reference's factor at a node is the specification's. -/
theorem v13_apply (i : Fin 100000) : val_main_v13 (F := Ideal) I.edges (ix1 i) = dinv I i := by
  rw [val_main_v13_apply, val_main_v12_apply, v10_apply, v11_apply, Ideal.hostUnary_rsqrt_def, Ideal.maximumf_def]
  unfold dinv
  rfl

/-! ## The wrapped words and the gathers -/

/-- The three wrapped copies of the lengthened lists are `wrapWord` of the list. -/
theorem v18_apply (k : Fin 3300000) : val_main_v18 (F := Ideal) I.edges (ix1 k) = wrapWord (srcExt I.edges k) := by
  rw [val_main_v18_apply, val_main_v15_apply, val_main_v17_apply, val_main_v14_apply, val_main_v16_apply]
  rfl

theorem v25_apply (k : Fin 3300000) : val_main_v25 (F := Ideal) I.edges (ix1 k) = wrapWord (dstExt I.edges k) := by
  rw [val_main_v25_apply, val_main_v22_apply, val_main_v24_apply, val_main_v21_apply, val_main_v23_apply]
  rfl

theorem v34_apply (k : Fin 3300000) : val_main_v34 (F := Ideal) I.edges (ix1 k) = wrapWord (srcExt I.edges k) := by
  rw [val_main_v34_apply, val_main_v31_apply, val_main_v33_apply, val_main_v30_apply, val_main_v32_apply]
  rfl

/-- As columns of start indices. -/
theorem v19_apply (k : Fin 3300000) :
    val_main_v19 (F := Ideal) I.edges (ix2 k (0 : Fin 1)) = wrapWord (srcExt I.edges k) := by
  rw [val_main_v19_apply, ← v18_apply]
  congr 1
  funext a
  match a with
  | ⟨0, _⟩ => rfl

theorem v26_apply (k : Fin 3300000) :
    val_main_v26 (F := Ideal) I.edges (ix2 k (0 : Fin 1)) = wrapWord (dstExt I.edges k) := by
  rw [val_main_v26_apply, ← v25_apply]
  congr 1
  funext a
  match a with
  | ⟨0, _⟩ => rfl

theorem v35_apply (k : Fin 3300000) :
    val_main_v35 (F := Ideal) I.edges (ix2 k (0 : Fin 1)) = wrapWord (srcExt I.edges k) := by
  rw [val_main_v35_apply, ← v34_apply]
  congr 1
  funext a
  match a with
  | ⟨0, _⟩ => rfl

/-- The factor gathered at an edge's source end. -/
theorem v20_apply (k : Fin 3300000) :
    val_main_v20 (F := Ideal) I.edges (ix1 k) = dinv I (rowOf (srcExt I.edges k)) := by
  refine (Cert.SparseVec.gather_vec_apply (by omega) Facts₀.gather_S100000_S3300000x1_S3300000_n_0_n_n_0_1_1_wf
    (val_main_v13 (F := Ideal) I.edges) (val_main_v19 (F := Ideal) I.edges) k).trans ?_
  simp only [v19_apply]
  exact v13_apply I (rowOf (srcExt I.edges k))

/-- The factor gathered at an edge's destination end. -/
theorem v27_apply (k : Fin 3300000) :
    val_main_v27 (F := Ideal) I.edges (ix1 k) = dinv I (rowOf (dstExt I.edges k)) := by
  refine (Cert.SparseVec.gather_vec_apply (by omega) Facts₀.gather_S100000_S3300000x1_S3300000_n_0_n_n_0_1_1_wf
    (val_main_v13 (F := Ideal) I.edges) (val_main_v26 (F := Ideal) I.edges) k).trans ?_
  simp only [v26_apply]
  exact v13_apply I (rowOf (dstExt I.edges k))

/-- The matrix product is the transformed features. -/
theorem v29_apply (r : Fin 100000) (b : Fin 64) : val_main_v29 (F := Ideal) I.x I.Wg (ix2 r b) = feat I r b := by
  rw [val_main_v29_apply]
  unfold feat
  refine Finset.sum_congr rfl fun k _ => ?_
  have hl : lidx_main_v29 (ix2 r b) k = ix2 r k := by
    funext a
    match a with
    | ⟨0, _⟩ => rfl
    | ⟨1, _⟩ => rfl
  have hr : ridx_main_v29 (ix2 r b) k = ix2 k b := by
    funext a
    match a with
    | ⟨0, _⟩ => rfl
    | ⟨1, _⟩ => rfl
  rw [hl, hr]

/-- The feature row gathered at an edge's source end. -/
theorem v36_apply (k : Fin 3300000) (b : Fin 64) :
    val_main_v36 (F := Ideal) I.x I.edges I.Wg (ix2 k b) = feat I (rowOf (srcExt I.edges k)) b := by
  refine (Cert.SparseMM.gather_rows_apply (by omega) Facts₀.gather_S100000x64_S3300000x1_S3300000x64_1_0_n_n_0_1_164_wf
    (val_main_v29 (F := Ideal) I.x I.Wg) (val_main_v35 (F := Ideal) I.edges) k b).trans ?_
  simp only [v35_apply]
  exact v29_apply I (rowOf (srcExt I.edges k)) b

/-- An edge's weight, broadcast along the feature axis. -/
theorem v38_apply (k : Fin 3300000) (b : Fin 64) :
    val_main_v38 (F := Ideal) I.edges (ix2 k b)
      = dinv I (rowOf (srcExt I.edges k)) * dinv I (rowOf (dstExt I.edges k)) := by
  rw [val_main_v38_apply, val_main_v37_apply]
  have h : idx_main_v37 (idx_main_v38 (ix2 k b)) = ix1 k := by
    funext a
    match a with
    | ⟨0, _⟩ => rfl
  rw [h, val_main_v28_apply, v20_apply, v27_apply, Ideal.mulf_def]

/-- The message an edge of the lengthened list carries. -/
theorem v39_apply (k : Fin 3300000) (b : Fin 64) :
    val_main_v39 (F := Ideal) I.x I.edges I.Wg (ix2 k b)
      = feat I (rowOf (srcExt I.edges k)) b
        * (dinv I (rowOf (srcExt I.edges k)) * dinv I (rowOf (dstExt I.edges k))) := by
  rw [val_main_v39_apply, v36_apply, v38_apply, Ideal.mulf_def]

/-! ## The aggregate, the bias and the rectifier -/

/-- The aggregate starts from zero. -/
theorem v40_apply (i : Fin 100000) (b : Fin 64) : val_main_v40 (F := Ideal) (ix2 i b) = 0 := by
  rw [val_main_v40_apply]
  exact Ideal.ofBits_zero_f32

/-- THE AGGREGATE: the messages over the lengthened list are the real edges' contribution plus the node's own features
    scaled by the square of its factor. -/
theorem v42_apply (i : Fin 100000) (b : Fin 64) :
    val_main_v42 (F := Ideal) I.x I.edges I.Wg (ix2 i b) = gathered I i b + feat I i b * (dinv I i * dinv I i) := by
  refine (Cert.SparseMM.scatterAdd_rows_apply Facts₀.scatter_S100000x64_S3300000x1_S3300000x64_1_0_0_1_wf
    (val_main_v40 (F := Ideal)) (val_main_v41 (F := Ideal) I.edges) (val_main_v39 (F := Ideal) I.x I.edges I.Wg) i b).trans ?_
  rw [v40_apply, zero_add]
  simp only [v41_apply, v39_apply]
  rw [sum_filter_split]
  simp only [dstExt_real, dstExt_loop, srcExt_real, srcExt_loop]
  rw [sum_loop_filter i fun j => feat I (rowOf (BitVec.ofNat 32 j.val)) b
    * (dinv I (rowOf (BitVec.ofNat 32 j.val)) * dinv I (rowOf (BitVec.ofNat 32 j.val))), rowOf_ofNat_node]
  unfold gathered edgeWeight edgesInto srcWord dstWord
  rfl

/-- The convolution over the inputs as a record. -/
theorem v46_apply (i : Fin 100000) (b : Fin 64) :
    val_main_v46 (F := Ideal) I.x I.edges I.Wg I.bg (ix2 i b) = conv I i b := by
  rw [val_main_v46_apply, val_main_v45_apply, v42_apply, val_main_v44_apply, val_main_v43_apply,
    val_main_call0_v0_apply]
  have h : idx_main_v43 (idx_main_v44 (ix2 i b)) = ix1 b := by
    funext a
    match a with
    | ⟨0, _⟩ => rfl
  rw [h, val_main_call0_cst_apply, Ideal.maximumf_def, Ideal.addf_def, Ideal.ofBits_def, Ideal.ofBits_zero_f32]
  unfold conv
  rfl

end Record

/-- The reference's normalising factors (its `%13`) are the specification's. -/
theorem ref_dinv (x0 : (⟨S100000x128, .f32⟩ : BufTy).Contents (Elt Ideal)) (x1 : (⟨S2x3200000, .i32⟩ : BufTy).Contents (Elt Ideal)) (x2 : (⟨S100000, .i32⟩ : BufTy).Contents (Elt Ideal)) (x3 : (⟨S128x64, .f32⟩ : BufTy).Contents (Elt Ideal)) (x4 : (⟨S64, .f32⟩ : BufTy).Contents (Elt Ideal)) (x5 : (⟨S64x32, .f32⟩ : BufTy).Contents (Elt Ideal)) (x6 : (⟨S32, .f32⟩ : BufTy).Contents (Elt Ideal)) (x7 : (⟨S32x4, .f32⟩ : BufTy).Contents (Elt Ideal)) (x8 : (⟨S4, .f32⟩ : BufTy).Contents (Elt Ideal)) (i : Fin 100000) :
    val_main_v13 (F := Ideal) x1 (ix1 i) = dinv (ofArgs x0 x1 x2 x3 x4 x5 x6 x7 x8) i := by
  exact v13_apply (ofArgs x0 x1 x2 x3 x4 x5 x6 x7 x8) i

/-- THE CONVOLUTION: the reference's rectified layer output (its `%46`) is the specification's, entry by entry. -/
theorem ref_conv (x0 : (⟨S100000x128, .f32⟩ : BufTy).Contents (Elt Ideal)) (x1 : (⟨S2x3200000, .i32⟩ : BufTy).Contents (Elt Ideal)) (x2 : (⟨S100000, .i32⟩ : BufTy).Contents (Elt Ideal)) (x3 : (⟨S128x64, .f32⟩ : BufTy).Contents (Elt Ideal)) (x4 : (⟨S64, .f32⟩ : BufTy).Contents (Elt Ideal)) (x5 : (⟨S64x32, .f32⟩ : BufTy).Contents (Elt Ideal)) (x6 : (⟨S32, .f32⟩ : BufTy).Contents (Elt Ideal)) (x7 : (⟨S32x4, .f32⟩ : BufTy).Contents (Elt Ideal)) (x8 : (⟨S4, .f32⟩ : BufTy).Contents (Elt Ideal)) (i : Fin 100000) (b : Fin 64) :
    val_main_v46 (F := Ideal) x0 x1 x3 x4 (ix2 i b) = conv (ofArgs x0 x1 x2 x3 x4 x5 x6 x7 x8) i b := by
  exact v46_apply (ofArgs x0 x1 x2 x3 x4 x5 x6 x7 x8) i b

end Cert.GraphPool.RefValue

end
-- ==== Proof.RefPool.lean ====
/-
  The reference's pooling and classifier, read entry by entry on the extended reals, and with them its whole result.

  The per-graph sums and counts are accumulating scatters over the nodes, keyed by each node's graph word: read at a
  graph they are the sums over that graph's nodes. The mean divides the one by the other (at least 1); the two dense
  layers are sums over their contracted axes.
-/
import proofs.«426677_j49392123904592_3_alg».proof.Proof.RefConv

noncomputable section

open scoped BigOperators

namespace Cert.GraphPool.RefValue

open Cert.ReferenceIdeal Cert.ReferenceIdeal.Read Cert.GraphPool
open Idealize.ShloMosaic Idealize.ShloMosaic.ValueIdx

/-! ## The layout stages' index maps, at an index given by its coordinates

Each broadcast reads its operand at the index that keeps the mapped coordinates and puts 0 on an axis of extent one;
each dense layer reads its left operand along the row and its right operand along the column. -/

/-- The graph words as a column: entry (k, 0) is node k's word. -/
theorem idx48 (k : Fin 100000) : idx_main_v48 (ix2 k (0 : Fin 1)) = ix1 k := by
  funext a; match a with | ⟨0, _⟩ => rfl
theorem idx52 (k : Fin 100000) : idx_main_v52 (ix2 k (0 : Fin 1)) = ix1 k := by
  funext a; match a with | ⟨0, _⟩ => rfl
/-- The counts as a column, then along the 64 features. -/
theorem idx56 (g : Fin 1024) : idx_main_v56 (ix2 g (0 : Fin 1)) = ix1 g := by
  funext a; match a with | ⟨0, _⟩ => rfl
theorem idx57 (g : Fin 1024) (b : Fin 64) : idx_main_v57 (ix2 g b) = ix2 g (0 : Fin 1) := by
  funext a; match a with | ⟨0, _⟩ => rfl | ⟨1, _⟩ => rfl
/-- The first dense layer: row g of the means against column j of the weights. -/
theorem lidx59 (g : Fin 1024) (j : Fin 32) (k : Fin 64) : lidx_main_v59 (ix2 g j) k = ix2 g k := by
  funext a; match a with | ⟨0, _⟩ => rfl | ⟨1, _⟩ => rfl
theorem ridx59 (g : Fin 1024) (j : Fin 32) (k : Fin 64) : ridx_main_v59 (ix2 g j) k = ix2 k j := by
  funext a; match a with | ⟨0, _⟩ => rfl | ⟨1, _⟩ => rfl
/-- Its bias as a row, then along the 1024 graphs. -/
theorem idx60 (j : Fin 32) : idx_main_v60 (ix2 (0 : Fin 1) j) = ix1 j := by
  funext a; match a with | ⟨0, _⟩ => rfl
theorem idx61 (g : Fin 1024) (j : Fin 32) : idx_main_v61 (ix2 g j) = ix2 (0 : Fin 1) j := by
  funext a; match a with | ⟨0, _⟩ => rfl | ⟨1, _⟩ => rfl
/-- The second dense layer: row g of the hidden layer against column c of the weights. -/
theorem lidx64 (g : Fin 1024) (c : Fin 4) (k : Fin 32) : lidx_main_v64 (ix2 g c) k = ix2 g k := by
  funext a; match a with | ⟨0, _⟩ => rfl | ⟨1, _⟩ => rfl
theorem ridx64 (g : Fin 1024) (c : Fin 4) (k : Fin 32) : ridx_main_v64 (ix2 g c) k = ix2 k c := by
  funext a; match a with | ⟨0, _⟩ => rfl | ⟨1, _⟩ => rfl
/-- Its bias as a row, then along the 1024 graphs. -/
theorem idx65 (c : Fin 4) : idx_main_v65 (ix2 (0 : Fin 1) c) = ix1 c := by
  funext a; match a with | ⟨0, _⟩ => rfl
theorem idx66 (g : Fin 1024) (c : Fin 4) : idx_main_v66 (ix2 g c) = ix2 (0 : Fin 1) c := by
  funext a; match a with | ⟨0, _⟩ => rfl | ⟨1, _⟩ => rfl

/-! ## The stages, one after the other -/

section Stages

variable (x0 : (⟨S100000x128, .f32⟩ : BufTy).Contents (Elt Ideal)) (x1 : (⟨S2x3200000, .i32⟩ : BufTy).Contents (Elt Ideal)) (x2 : (⟨S100000, .i32⟩ : BufTy).Contents (Elt Ideal)) (x3 : (⟨S128x64, .f32⟩ : BufTy).Contents (Elt Ideal)) (x4 : (⟨S64, .f32⟩ : BufTy).Contents (Elt Ideal)) (x5 : (⟨S64x32, .f32⟩ : BufTy).Contents (Elt Ideal)) (x6 : (⟨S32, .f32⟩ : BufTy).Contents (Elt Ideal)) (x7 : (⟨S32x4, .f32⟩ : BufTy).Contents (Elt Ideal)) (x8 : (⟨S4, .f32⟩ : BufTy).Contents (Elt Ideal))

/-- The per-graph sums (the reference's `%49`): the rows of the convolution's output are added onto a zero array at
    the rows their nodes' graph words name, so entry (g, b) is the sum of `conv i b` over the nodes `i` of graph `g`. -/
theorem ref_poolSum (g : Fin 1024) (b : Fin 64) :
    val_main_v49 (F := Ideal) x0 x1 x2 x3 x4 (ix2 g b) = poolSum (ofArgs x0 x1 x2 x3 x4 x5 x6 x7 x8) g b := by
  have h := Cert.SparseMM.scatterAdd_rows_apply (φ := .f32) Cert.ReferenceIdeal.Gen.scatter_S1024x64_S100000x1_S100000x64_1_0_0_1_wf
    (val_main_v47 (F := Ideal)) (val_main_v48 (F := Ideal) x2) (val_main_v46 (F := Ideal) x0 x1 x3 x4) g b
  refine Eq.trans h ?_
  rw [val_main_v47_apply, val_main_cst_8_apply, Ideal.ofBits_def, Ideal.ofBits_zero_f32, zero_add]
  unfold poolSum nodesOf
  refine Finset.sum_congr ?_ ?_
  · ext k
    simp only [Finset.mem_filter, Finset.mem_univ, true_and]
    rw [val_main_v48_apply, idx48]
  · intro k _
    exact ref_conv x0 x1 x2 x3 x4 x5 x6 x7 x8 k b

/-- The per-graph counts (the reference's `%53`): a one is added onto a zero vector at each node's graph word, so
    entry g is the sum of ones over the nodes of graph `g`. -/
theorem ref_poolCount (g : Fin 1024) :
    val_main_v53 (F := Ideal) x2 (ix1 g) = poolCount (ofArgs x0 x1 x2 x3 x4 x5 x6 x7 x8) g := by
  have h := Cert.SparseVec.scatterAdd_vec_apply (φ := .f32) Cert.ReferenceIdeal.Gen.scatter_S1024_S100000x1_S100000_n_0_0_1_wf
    (val_main_v51 (F := Ideal)) (val_main_v52 (F := Ideal) x2) (val_main_v50 (F := Ideal)) g
  refine Eq.trans h ?_
  rw [val_main_v51_apply, val_main_cst_10_apply, Ideal.ofBits_def, Ideal.ofBits_zero_f32, zero_add]
  unfold poolCount nodesOf
  refine Finset.sum_congr ?_ ?_
  · ext k
    simp only [Finset.mem_filter, Finset.mem_univ, true_and]
    rw [val_main_v52_apply, idx52]
  · intro k _
    rw [val_main_v50_apply, val_main_cst_9_apply, Ideal.ofBits_def]

/-- The means (the reference's `%58`): the sum divided by the count, the count raised to at least one. -/
theorem ref_pooled (g : Fin 1024) (b : Fin 64) :
    val_main_v58 (F := Ideal) x0 x1 x2 x3 x4 (ix2 g b) = pooled (ofArgs x0 x1 x2 x3 x4 x5 x6 x7 x8) g b := by
  rw [val_main_v58_apply, Ideal.hostDivf_def, ref_poolSum x0 x1 x2 x3 x4 x5 x6 x7 x8, val_main_v57_apply, idx57,
    val_main_v56_apply, idx56, val_main_v55_apply, Ideal.maximumf_def, ref_poolCount x0 x1 x2 x3 x4 x5 x6 x7 x8,
    val_main_v54_apply, val_main_cst_11_apply, Ideal.ofBits_def]
  rfl

/-- The hidden layer (the reference's `%63`): the means against the first weights, the bias added, rectified. -/
theorem ref_hidden (g : Fin 1024) (j : Fin 32) :
    val_main_v63 (F := Ideal) x0 x1 x2 x3 x4 x5 x6 (ix2 g j) = hidden (ofArgs x0 x1 x2 x3 x4 x5 x6 x7 x8) g j := by
  rw [val_main_v63_apply, Ideal.maximumf_def, val_main_v62_apply, Ideal.addf_def, val_main_v59_apply, val_main_v61_apply,
    idx61, val_main_v60_apply, idx60, val_main_call1_v0_apply, val_main_call1_cst_apply, Ideal.ofBits_def,
    Ideal.ofBits_zero_f32]
  simp only [lidx59, ridx59, ref_pooled x0 x1 x2 x3 x4 x5 x6 x7 x8]
  rfl

/-- The class scores (the reference's `%67`): the hidden layer against the second weights, the bias added. -/
theorem ref_out (g : Fin 1024) (c : Fin 4) :
    val_main_v67 (F := Ideal) x0 x1 x2 x3 x4 x5 x6 x7 x8 (ix2 g c) = out (ofArgs x0 x1 x2 x3 x4 x5 x6 x7 x8) g c := by
  rw [val_main_v67_apply, Ideal.addf_def, val_main_v64_apply, val_main_v66_apply, idx66, val_main_v65_apply, idx65]
  simp only [lidx64, ridx64, ref_hidden x0 x1 x2 x3 x4 x5 x6 x7 x8]
  rfl

end Stages

/-- THE REFERENCE'S RESULT as a stage function of the nine arguments is the specification's result. -/
theorem ref_result (x0 : (⟨S100000x128, .f32⟩ : BufTy).Contents (Elt Ideal)) (x1 : (⟨S2x3200000, .i32⟩ : BufTy).Contents (Elt Ideal)) (x2 : (⟨S100000, .i32⟩ : BufTy).Contents (Elt Ideal)) (x3 : (⟨S128x64, .f32⟩ : BufTy).Contents (Elt Ideal)) (x4 : (⟨S64, .f32⟩ : BufTy).Contents (Elt Ideal)) (x5 : (⟨S64x32, .f32⟩ : BufTy).Contents (Elt Ideal)) (x6 : (⟨S32, .f32⟩ : BufTy).Contents (Elt Ideal)) (x7 : (⟨S32x4, .f32⟩ : BufTy).Contents (Elt Ideal)) (x8 : (⟨S4, .f32⟩ : BufTy).Contents (Elt Ideal)) :
    val_main_v67 (F := Ideal) x0 x1 x2 x3 x4 x5 x6 x7 x8 = result (ofArgs x0 x1 x2 x3 x4 x5 x6 x7 x8) := by
  funext y
  obtain ⟨g, c, rfl⟩ : ∃ (g : Fin 1024) (c : Fin 4), y = ix2 g c := ⟨y 0, y 1, eq_ix2 y⟩
  exact ref_out x0 x1 x2 x3 x4 x5 x6 x7 x8 g c

/-- The same of the term the reference's run ends at. -/
theorem res_out0_eq (m : (ℓ : Loc nD τ sig) → Buf (Elt Ideal) ℓ) (c : Dev nD) :
    Cert.ReferenceIdeal.Value.res_out0 (F := Ideal) m c
      = result (ofArgs (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))) :=
  (val_main_v67_eq m c).trans (ref_result _ _ _ _ _ _ _ _ _)

end Cert.GraphPool.RefValue

end
-- ==== Proof.lean ====
/-
  The kernel — a graph convolution whose matrix product and whose fused rectifier, per-graph mean and classifier run as
  two tiled launches, the scatter-adds and gathers between them on the host — computes, on the extended reals, the same
  class scores as the plain reference.

  Both programs are shown equal to ONE function of the inputs (Proof/Spec.lean). The kernel's side: the matrix-product
  launch leaves the transformed features (its ten blocks cover the rows); the host stretch adds the edges' messages
  into their destination rows; the pooling launch carries the per-graph sums in a scratch across its fifty blocks,
  adding each block's rectified features through a one-hot product (an indicator times a value is the value or zero
  for every extended real), and at its last block divides by the counts and applies the two dense layers. The
  reference's side: it appends one loop edge per node before counting degrees and before adding messages; read at a
  node, the loop edges contribute exactly one term, the node's own, which is the kernel's separately added term. No
  step uses more than commutativity and associativity of + and * and 0 + x = x, 1 * x = x, 0 * x = 0, so the
  finiteness of the inputs is never opened. The ideal pass rewrote nothing: the idealization is the kernel's own text
  read on the extended reals.
-/
import proofs.«426677_j49392123904592_3_alg».proof.Defs
import proofs.«426677_j49392123904592_3_alg».proof.Proof.Gen.Kernel
import proofs.«426677_j49392123904592_3_alg».proof.Proof.Gen.KernelIdeal
import proofs.«426677_j49392123904592_3_alg».proof.Proof.Gen.ReferenceIdeal
import proofs.«426677_j49392123904592_3_alg».proof.Proof.Gen.Pre_finite_inputs
import proofs.«426677_j49392123904592_3_alg».proof.Proof.KRun
import proofs.«426677_j49392123904592_3_alg».proof.Proof.KIPool
import proofs.«426677_j49392123904592_3_alg».proof.Proof.RefPool
import Idealize.ShloMosaic.Adequacy
import Idealize.ShloMosaic.Init

noncomputable section

namespace Cert.Proof

open Idealize.ShloMosaic Idealize.SL.Sem

/-- The word-level program runs, faults nowhere, and leaves its nine inputs unchanged. -/
theorem frame_k : Cert.frame_Kernel :=
  fun m ρ _ => Cert.Kernel.Frame.frame_all (F := Bits) m ρ

/-- So does the same program read on the extended reals. -/
theorem frame_ki : Cert.frame_KernelIdeal :=
  fun m ρ _ => Cert.KernelIdeal.Frame.frame_all (F := Ideal) m ρ

/-- The reference is host operations only: its run, with the result dropped. -/
theorem frame_ri : Cert.frame_ReferenceIdeal :=
  fun m ρ _ => (θ_run Cert.ReferenceIdeal.defs _ _).mono (fun _ h c => (h c).2) (Cert.ReferenceIdeal.Value.run (F := Ideal) m ρ)

/-- Both programs end at the specification's result of their (agreeing) inputs. -/
theorem algebraic : Cert.algebraic_KernelIdeal_ReferenceIdeal := by
  intro m ρ m' ρ' _ hagree
  refine ⟨fun c => Cert.GraphPool.result (Cert.KernelIdeal.PoolValue.argsOf m c), ?_, ?_⟩
  · refine (θ_run Cert.KernelIdeal.defs _ _).mono (fun r h c => ?_) (Cert.KernelIdeal.Frame.run_all (F := Ideal) m ρ)
    exact ⟨(h c _ (Cert.KernelIdeal.Frame.mem_uc Cert.KernelIdeal.main_v51 (by decide))).trans (Cert.KernelIdeal.PoolValue.V4_result m ρ c),
      (h c _ (Cert.KernelIdeal.Frame.mem_uc Cert.KernelIdeal.main_arg0 (by decide))).trans (Cert.KernelIdeal.Frame.W4_main_arg0 m ρ c),
      (h c _ (Cert.KernelIdeal.Frame.mem_uc Cert.KernelIdeal.main_arg1 (by decide))).trans (Cert.KernelIdeal.Frame.W4_main_arg1 m ρ c),
      (h c _ (Cert.KernelIdeal.Frame.mem_uc Cert.KernelIdeal.main_arg2 (by decide))).trans (Cert.KernelIdeal.Frame.W4_main_arg2 m ρ c),
      (h c _ (Cert.KernelIdeal.Frame.mem_uc Cert.KernelIdeal.main_arg3 (by decide))).trans (Cert.KernelIdeal.Frame.W4_main_arg3 m ρ c),
      (h c _ (Cert.KernelIdeal.Frame.mem_uc Cert.KernelIdeal.main_arg4 (by decide))).trans (Cert.KernelIdeal.Frame.W4_main_arg4 m ρ c),
      (h c _ (Cert.KernelIdeal.Frame.mem_uc Cert.KernelIdeal.main_arg5 (by decide))).trans (Cert.KernelIdeal.Frame.W4_main_arg5 m ρ c),
      (h c _ (Cert.KernelIdeal.Frame.mem_uc Cert.KernelIdeal.main_arg6 (by decide))).trans (Cert.KernelIdeal.Frame.W4_main_arg6 m ρ c),
      (h c _ (Cert.KernelIdeal.Frame.mem_uc Cert.KernelIdeal.main_arg7 (by decide))).trans (Cert.KernelIdeal.Frame.W4_main_arg7 m ρ c),
      (h c _ (Cert.KernelIdeal.Frame.mem_uc Cert.KernelIdeal.main_arg8 (by decide))).trans (Cert.KernelIdeal.Frame.W4_main_arg8 m ρ c)⟩
  · refine (θ_run Cert.ReferenceIdeal.defs _ _).mono (fun _ h c => ⟨(h c).1.trans ?_, (h c).2⟩)
      (Cert.ReferenceIdeal.Value.run (F := Ideal) m' ρ')
    rw [show Cert.ReferenceIdeal.Value.res_main_v67 m' c = Cert.ReferenceIdeal.Value.res_out0 m' c from rfl,
      Cert.GraphPool.RefValue.res_out0_eq m' c,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
